-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4 : S_.BroadcastsInDim S4 (![] : Fin 0 → Fin S4.rank)
  reducesTo_S4_S_d0 : S4.ReducesTo [0] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S4x32 : S_.BroadcastsInDim S4x32 (![] : Fin 0 → Fin S4x32.rank)
  reducesTo_S4x32_S_d0_1 : S4x32.ReducesTo [0, 1] S_
  bcast_S_S32x4 : S_.BroadcastsInDim S32x4 (![] : Fin 0 → Fin S32x4.rank)
  reducesTo_S32x4_S_d0_1 : S32x4.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part4 {F : FTy → Type} [FloatOps F] (main_arg1 : IVec S2x3200000 32) (main_arg15 : FVec F S4 .f32) (main_v63 : IVec S_ 1) (main_v67 : IVec S_ 1) : IVec S_ 1 :=
  let main_v68 : IVec S_ 1 := andi main_v63 main_v67
  let main_v69 : FVec F S4 .f32 := Host.absf main_arg15
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_c_28 : IVec S_ 32 := constantI S_ 32 0#32
  let main_v74 : IVec S2x3200000 32 := broadcastInDim S2x3200000 ![] bcast_S_S2x3200000 main_c_28
  let main_v75 : IVec S2x3200000 1 := cmpi .sge main_arg1 main_v74
  let main_c_29 : IVec S_ 1 := constantI S_ 1 1#1
  let main_v76 : IVec S_ 1 := (fun x v => Host.reduce IntOp.andi x v reducesTo_S2x3200000_S_d0_1 h_S_) main_v75 main_c_29
  let main_v77 : IVec S_ 1 := andi main_v73 main_v76
  let main_c_30 : IVec S_ 32 := constantI S_ 32 100000#32
  let main_v78 : IVec S2x3200000 32 := broadcastInDim S2x3200000 ![] bcast_S_S2x3200000 main_c_30
  let main_v79 : IVec S2x3200000 1 := cmpi .slt main_arg1 main_v78
  let main_c_31 : IVec S_ 1 := constantI S_ 1 1#1
  let main_v80 : IVec S_ 1 := (fun x v => Host.reduce IntOp.andi x v reducesTo_S2x3200000_S_d0_1 h_S_) main_v79 main_c_31
  let main_v81 : IVec S_ 1 := andi main_v77 main_v80
  main_v81

def fn_part3 {F : FTy → Type} [FloatOps F] (main_arg1 : IVec S2x3200000 32) (main_arg12 : FVec F S32x32 .f32) (main_arg13 : FVec F S32 .f32) (main_arg14 : FVec F S32x4 .f32) (main_arg15 : FVec F S4 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x4 .f32 := Host.absf main_arg14
  let main_cst_24 : FVec F S_ .f32 := constant S_ .f32 0x7F800000#32
  let main_v65 : FVec F S32x4 .f32 := broadcastInDim S32x4 ![] bcast_S_S32x4 main_cst_24
  let main_v66 : IVec S32x4 1 := cmpf .olt main_v64 main_v65
  let main_c_25 : IVec S_ 1 := constantI S_ 1 1#1
  let main_v67 : IVec S_ 1 := (fun x v => Host.reduce IntOp.andi x v reducesTo_S32x4_S_d0_1 h_S_) main_v66 main_c_25
  fn_part4 (F := F) main_arg1 main_arg15 main_v63 main_v67

def fn_part2 {F : FTy → Type} [FloatOps F] (main_arg1 : IVec S2x3200000 32) (main_arg8 : FVec F S32x2 .f32) (main_arg9 : FVec F S2 .f32) (main_arg10 : FVec F S4x32 .f32) (main_arg11 : FVec F S32 .f32) (main_arg12 : FVec F S32x32 .f32) (main_arg13 : FVec F S32 .f32) (main_arg14 : FVec F S32x4 .f32) (main_arg15 : FVec F S4 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S4x32 .f32 := Host.absf main_arg10
  let main_cst_16 : FVec F S_ .f32 := constant S_ .f32 0x7F800000#32
  let main_v45 : FVec F S4x32 .f32 := broadcastInDim S4x32 ![] bcast_S_S4x32 main_cst_16
  let main_v46 : IVec S4x32 1 := cmpf .olt main_v44 main_v45
  let main_c_17 : IVec S_ 1 := constantI S_ 1 1#1
  let main_v47 : IVec S_ 1 := (fun x v => Host.reduce IntOp.andi x v reducesTo_S4x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg1 main_arg12 main_arg13 main_arg14 main_arg15 main_v48 main_v49 main_v50

def fn_part1 {F : FTy → Type} [FloatOps F] (main_arg1 : IVec S2x3200000 32) (main_arg5 : FVec F S32 .f32) (main_arg6 : FVec F S32x32 .f32) (main_arg7 : FVec F S32 .f32) (main_arg8 : FVec F S32x2 .f32) (main_arg9 : FVec F S2 .f32) (main_arg10 : FVec F S4x32 .f32) (main_arg11 : FVec F S32 .f32) (main_arg12 : FVec F S32x32 .f32) (main_arg13 : FVec F S32 .f32) (main_arg14 : FVec F S32x4 .f32) (main_arg15 : FVec F S4 .f32) (main_v13 : IVec S_ 1) (main_v16 : IVec S8x32 1) : IVec S_ 1 :=
  let main_c_5 : IVec S_ 1 := constantI S_ 1 1#1
  let main_v17 : IVec S_ 1 := (fun x v => Host.reduce IntOp.andi x v reducesTo_S8x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S100000x4 .f32) (main_arg1 : IVec S2x3200000 32) (main_arg2 : FVec F S4 .f32) (main_arg3 : FVec F S4 .f32) (main_arg4 : FVec F S8x32 .f32) (main_arg5 : FVec F S32 .f32) (main_arg6 : FVec F S32x32 .f32) (main_arg7 : FVec F S32 .f32) (main_arg8 : FVec F S32x2 .f32) (main_arg9 : FVec F S2 .f32) (main_arg10 : FVec F S4x32 .f32) (main_arg11 : FVec F S32 .f32) (main_arg12 : FVec F S32x32 .f32) (main_arg13 : FVec F S32 .f32) (main_arg14 : FVec F S32x4 .f32) (main_arg15 : FVec F S4 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S8x32 .f32 := Host.absf main_arg4
  let main_cst_4 : FVec F S_ .f32 := constant S_ .f32 0x7F800000#32
  let main_v15 : FVec F S8x32 .f32 := broadcastInDim S8x32 ![] bcast_S_S8x32 main_cst_4
  let main_v16 : IVec S8x32 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S100000x4 : Shape := ⟨2, ![100000, 4]⟩
abbrev S2x3200000 : Shape := ⟨2, ![2, 3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S1x3200000 : Shape := ⟨2, ![1, 3200000]⟩
abbrev S3200000 : Shape := ⟨1, ![3200000]⟩
abbrev S_ : Shape := ⟨0, ![]⟩
abbrev S1x4 : Shape := ⟨2, ![1, 4]⟩
abbrev S100000 : Shape := ⟨1, ![100000]⟩
abbrev S3200000x1 : Shape := ⟨2, ![3200000, 1]⟩
abbrev S100000x1 : Shape := ⟨2, ![100000, 1]⟩
abbrev S1 : Shape := ⟨1, ![1]⟩
abbrev S1x1 : Shape := ⟨2, ![1, 1]⟩
abbrev S3200000x4 : Shape := ⟨2, ![3200000, 4]⟩
abbrev S1x32 : Shape := ⟨2, ![1, 32]⟩
abbrev S1x2 : Shape := ⟨2, ![1, 2]⟩
abbrev S3200000x2 : Shape := ⟨2, ![3200000, 2]⟩
abbrev S4000x4 : Shape := ⟨2, ![4000, 4]⟩
abbrev S4000x2 : Shape := ⟨2, ![4000, 2]⟩
abbrev S4000x8 : Shape := ⟨2, ![4000, 8]⟩
abbrev S4000x32 : Shape := ⟨2, ![4000, 32]⟩
abbrev S100000x2 : Shape := ⟨2, ![100000, 2]⟩

abbrev nBuf : Space → Nat
  | .hbm => 191
  | .vmem => 24
  | .smem => 0
  | _ => 0

abbrev hbmTy0_0 (i : Nat) : BufTy := match i % 128 with
  | 0 => ⟨S100000x4, .f32⟩
  | 1 => ⟨S2x3200000, .i32⟩
  | 2 => ⟨S4, .f32⟩
  | 3 => ⟨S4, .f32⟩
  | 4 => ⟨S8x32, .f32⟩
  | 5 => ⟨S32, .f32⟩
  | 6 => ⟨S32x32, .f32⟩
  | 7 => ⟨S32, .f32⟩
  | 8 => ⟨S32x2, .f32⟩
  | 9 => ⟨S2, .f32⟩
  | 10 => ⟨S4x32, .f32⟩
  | 11 => ⟨S32, .f32⟩
  | 12 => ⟨S32x32, .f32⟩
  | 13 => ⟨S32, .f32⟩
  | 14 => ⟨S32x4, .f32⟩
  | 15 => ⟨S4, .f32⟩
  | 16 => ⟨S1x3200000, .i32⟩
  | 17 => ⟨S3200000, .i32⟩
  | 18 => ⟨S1x3200000, .i32⟩
  | 19 => ⟨S3200000, .i32⟩
  | 20 => ⟨S_, .f32⟩
  | 21 => ⟨S4, .f32⟩
  | 22 => ⟨S_, .f32⟩
  | 23 => ⟨S4, .f32⟩
  | 24 => ⟨S4, .f32⟩
  | 25 => ⟨S_, .i32⟩
  | 26 => ⟨S_, .f32⟩
  | 27 => ⟨S4, .f32⟩
  | 28 => ⟨S1x4, .f32⟩
  | 29 => ⟨S_, .f32⟩
  | 30 => ⟨S1x4, .f32⟩
  | 31 => ⟨S1x4, .f32⟩
  | 32 => ⟨S100000x4, .f32⟩
  | 33 => ⟨S100000x4, .f32⟩
  | 34 => ⟨S100000x4, .f32⟩
  | 35 => ⟨S_, .f32⟩
  | 36 => ⟨S_, .f32⟩
  | 37 => ⟨S_, .f32⟩
  | 38 => ⟨S_, .f32⟩
  | 39 => ⟨S4, .f32⟩
  | 40 => ⟨S4, .f32⟩
  | 41 => ⟨S4, .f32⟩
  | 42 => ⟨S_, .f32⟩
  | 43 => ⟨S_, .i1⟩
  | 44 => ⟨S_, .f32⟩
  | 45 => ⟨S_, .f32⟩
  | 46 => ⟨S4, .f32⟩
  | 47 => ⟨S4, .f32⟩
  | 48 => ⟨S1x4, .f32⟩
  | 49 => ⟨S100000x4, .f32⟩
  | 50 => ⟨S100000x4, .f32⟩
  | 51 => ⟨S_, .f32⟩
  | 52 => ⟨S4, .f32⟩
  | 53 => ⟨S4, .f32⟩
  | 54 => ⟨S4, .f32⟩
  | 55 => ⟨S1x4, .f32⟩
  | 56 => ⟨S100000x4, .f32⟩
  | 57 => ⟨S100000x4, .f32⟩
  | 58 => ⟨S1x4, .f32⟩
  | 59 => ⟨S100000x4, .f32⟩
  | 60 => ⟨S100000x4, .f32⟩
  | 61 => ⟨S1x4, .f32⟩
  | 62 => ⟨S100000x4, .f32⟩
  | 63 => ⟨S100000x4, .f32⟩
  | 64 => ⟨S_, .f32⟩
  | 65 => ⟨S3200000, .f32⟩
  | 66 => ⟨S_, .f32⟩
  | 67 => ⟨S100000, .f32⟩
  | 68 => ⟨S3200000x1, .i32⟩
  | 69 => ⟨S100000, .f32⟩
  | 70 => ⟨S_, .f32⟩
  | 71 => ⟨S100000, .f32⟩
  | 72 => ⟨S100000, .f32⟩
  | 73 => ⟨S_, .f32⟩
  | 74 => ⟨S100000, .f32⟩
  | 75 => ⟨S100000, .f32⟩
  | 76 => ⟨S100000x1, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S1, .i32⟩
  | 86 => ⟨S_, .i32⟩
  | 87 => ⟨S3200000x1, .i32⟩
  | 88 => ⟨S3200000x1, .i1⟩
  | 89 => ⟨S1x1, .i32⟩
  | 90 => ⟨S3200000x1, .i32⟩
  | 91 => ⟨S3200000x1, .i1⟩
  | 92 => ⟨S3200000x1, .i1⟩
  | 93 => ⟨S_, .i1⟩
  | 94 => ⟨S3200000, .i1⟩
  | 95 => ⟨S3200000x4, .f32⟩
  | 96 => ⟨S3200000x4, .i1⟩
  | 97 => ⟨S_, .f32⟩
  | 98 => ⟨S3200000x4, .f32⟩
  | 99 => ⟨S3200000x4, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S1, .i32⟩
  | 109 => ⟨S_, .i32⟩
  | 110 => ⟨S3200000x1, .i32⟩
  | 111 => ⟨S3200000x1, .i1⟩
  | 112 => ⟨S1x1, .i32⟩
  | 113 => ⟨S3200000x1, .i32⟩
  | 114 => ⟨S3200000x1, .i1⟩
  | 115 => ⟨S3200000x1, .i1⟩
  | 116 => ⟨S_, .i1⟩
  | 117 => ⟨S3200000, .i1⟩
  | 118 => ⟨S3200000x4, .f32⟩
  | 119 => ⟨S3200000x4, .i1⟩
  | 120 => ⟨S_, .f32⟩
  | 121 => ⟨S3200000x4, .f32⟩
  | 122 => ⟨S3200000x4, .f32⟩
  | 123 => ⟨S3200000x4, .f32⟩
  | 124 => ⟨S1x32, .f32⟩
  | 125 => ⟨S1x32, .f32⟩
  | 126 => ⟨S1x2, .f32⟩
  | 127 => ⟨S3200000x2, .f32⟩
  | _ => ⟨S100000x4, .f32⟩

abbrev hbmTy0_1 (i : Nat) : BufTy := match i % 128 with
  | 0 => ⟨S_, .f32⟩
  | 1 => ⟨S100000x2, .f32⟩
  | 2 => ⟨S3200000x1, .i32⟩
  | 3 => ⟨S100000x2, .f32⟩
  | 4 => ⟨S100000x2, .f32⟩
  | 5 => ⟨S100000x2, .f32⟩
  | 6 => ⟨S_, .i32⟩
  | 7 => ⟨S3200000, .i32⟩
  | 8 => ⟨S3200000, .i1⟩
  | 9 => ⟨S_, .i32⟩
  | 10 => ⟨S3200000, .i32⟩
  | 11 => ⟨S3200000, .i32⟩
  | 12 => ⟨S3200000, .i32⟩
  | 13 => ⟨S3200000x1, .i32⟩
  | 14 => ⟨S1, .i32⟩
  | 15 => ⟨S_, .i32⟩
  | 16 => ⟨S3200000x1, .i32⟩
  | 17 => ⟨S3200000x1, .i1⟩
  | 18 => ⟨S1x1, .i32⟩
  | 19 => ⟨S3200000x1, .i32⟩
  | 20 => ⟨S3200000x1, .i1⟩
  | 21 => ⟨S3200000x1, .i1⟩
  | 22 => ⟨S_, .i1⟩
  | 23 => ⟨S3200000, .i1⟩
  | 24 => ⟨S3200000x2, .f32⟩
  | 25 => ⟨S3200000x2, .i1⟩
  | 26 => ⟨S_, .f32⟩
  | 27 => ⟨S3200000x2, .f32⟩
  | 28 => ⟨S3200000x2, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S1, .i32⟩
  | 38 => ⟨S_, .i32⟩
  | 39 => ⟨S3200000x1, .i32⟩
  | 40 => ⟨S3200000x1, .i1⟩
  | 41 => ⟨S1x1, .i32⟩
  | 42 => ⟨S3200000x1, .i32⟩
  | 43 => ⟨S3200000x1, .i1⟩
  | 44 => ⟨S3200000x1, .i1⟩
  | 45 => ⟨S_, .i1⟩
  | 46 => ⟨S3200000, .i1⟩
  | 47 => ⟨S3200000x2, .f32⟩
  | 48 => ⟨S3200000x2, .i1⟩
  | 49 => ⟨S_, .f32⟩
  | 50 => ⟨S3200000x2, .f32⟩
  | 51 => ⟨S3200000x2, .f32⟩
  | 52 => ⟨S3200000x2, .f32⟩
  | 53 => ⟨S1x32, .f32⟩
  | 54 => ⟨S1x32, .f32⟩
  | 55 => ⟨S1x4, .f32⟩
  | 56 => ⟨S3200000x4, .f32⟩
  | 57 => ⟨S_, .f32⟩
  | 58 => ⟨S100000x4, .f32⟩
  | 59 => ⟨S3200000x1, .i32⟩
  | 60 => ⟨S100000x4, .f32⟩
  | 61 => ⟨S100000x4, .f32⟩
  | 62 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S4000x4, .f32⟩
  | .local _ .vmem, ⟨1, _⟩ => ⟨S4000x4, .f32⟩
  | .local _ .vmem, ⟨2, _⟩ => ⟨S4000x4, .f32⟩
  | .local _ .vmem, ⟨3, _⟩ => ⟨S4000x4, .f32⟩
  | .local _ .vmem, ⟨4, _⟩ => ⟨S8x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x2, .f32⟩
  | .local _ .vmem, ⟨9, _⟩ => ⟨S1x2, .f32⟩
  | .local _ .vmem, ⟨10, _⟩ => ⟨S4000x2, .f32⟩
  | .local _ .vmem, ⟨11, _⟩ => ⟨S4000x2, .f32⟩
  | .local _ .vmem, ⟨12, _⟩ => ⟨S4000x2, .f32⟩
  | .local _ .vmem, ⟨13, _⟩ => ⟨S4000x2, .f32⟩
  | .local _ .vmem, ⟨14, _⟩ => ⟨S4000x2, .f32⟩
  | .local _ .vmem, ⟨15, _⟩ => ⟨S4000x2, .f32⟩
  | .local _ .vmem, ⟨16, _⟩ => ⟨S4x32, .f32⟩
  | .local _ .vmem, ⟨17, _⟩ => ⟨S1x32, .f32⟩
  | .local _ .vmem, ⟨18, _⟩ => ⟨S32x32, .f32⟩
  | .local _ .vmem, ⟨19, _⟩ => ⟨S1x32, .f32⟩
  | .local _ .vmem, ⟨20, _⟩ => ⟨S32x4, .f32⟩
  | .local _ .vmem, ⟨21, _⟩ => ⟨S1x4, .f32⟩
  | .local _ .vmem, ⟨22, _⟩ => ⟨S4000x4, .f32⟩
  | .local _ .vmem, ⟨23, _⟩ => ⟨S4000x4, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_2 : Ref sig .tc := ⟨.hbm, 64, rfl⟩
abbrev main_v23 : Ref sig .tc := ⟨.hbm, 65, rfl⟩
abbrev main_cst_3 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_4 : Ref sig .tc := ⟨.hbm, 70, rfl⟩
abbrev main_v27 : Ref sig .tc := ⟨.hbm, 71, rfl⟩
abbrev main_v28 : Ref sig .tc := ⟨.hbm, 72, rfl⟩
abbrev main_cst_5 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v32 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_cst_6 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_call3_c : Ref sig .tc := ⟨.hbm, 134, rfl⟩
abbrev main_call3_v0 : Ref sig .tc := ⟨.hbm, 135, rfl⟩
abbrev main_call3_v1 : Ref sig .tc := ⟨.hbm, 136, rfl⟩
abbrev main_call3_c_0 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_c_1 : Ref sig .tc := ⟨.hbm, 142, rfl⟩
abbrev main_call3_c_2 : Ref sig .tc := ⟨.hbm, 143, rfl⟩
abbrev main_call3_v6 : Ref sig .tc := ⟨.hbm, 144, rfl⟩
abbrev main_call3_v7 : Ref sig .tc := ⟨.hbm, 145, rfl⟩
abbrev main_call3_v8 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_c_3 : Ref sig .tc := ⟨.hbm, 150, rfl⟩
abbrev main_call3_v12 : Ref sig .tc := ⟨.hbm, 151, rfl⟩
abbrev main_call3_v13 : Ref sig .tc := ⟨.hbm, 152, rfl⟩
abbrev main_call3_v14 : Ref sig .tc := ⟨.hbm, 153, rfl⟩
abbrev main_call3_cst : Ref sig .tc := ⟨.hbm, 154, rfl⟩
abbrev main_call3_v15 : Ref sig .tc := ⟨.hbm, 155, rfl⟩
abbrev main_v44 : Ref sig .tc := ⟨.hbm, 156, rfl⟩
abbrev main_call4_c : Ref sig .tc := ⟨.hbm, 157, rfl⟩
abbrev main_call4_v0 : Ref sig .tc := ⟨.hbm, 158, rfl⟩
abbrev main_call4_v1 : Ref sig .tc := ⟨.hbm, 159, rfl⟩
abbrev main_call4_c_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_c_1 : Ref sig .tc := ⟨.hbm, 165, rfl⟩
abbrev main_call4_c_2 : Ref sig .tc := ⟨.hbm, 166, rfl⟩
abbrev main_call4_v6 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_c_3 : Ref sig .tc := ⟨.hbm, 173, rfl⟩
abbrev main_call4_v12 : Ref sig .tc := ⟨.hbm, 174, rfl⟩
abbrev main_call4_v13 : Ref sig .tc := ⟨.hbm, 175, rfl⟩
abbrev main_call4_v14 : Ref sig .tc := ⟨.hbm, 176, rfl⟩
abbrev main_call4_cst : Ref sig .tc := ⟨.hbm, 177, rfl⟩
abbrev main_call4_v15 : Ref sig .tc := ⟨.hbm, 178, rfl⟩
abbrev main_v45 : Ref sig .tc := ⟨.hbm, 179, rfl⟩
abbrev main_v46 : Ref sig .tc := ⟨.hbm, 180, rfl⟩
abbrev main_v47 : Ref sig .tc := ⟨.hbm, 181, rfl⟩
abbrev main_v48 : Ref sig .tc := ⟨.hbm, 182, rfl⟩
abbrev main_v49 : Ref sig .tc := ⟨.hbm, 183, rfl⟩
abbrev main_v50 : Ref sig .tc := ⟨.hbm, 184, rfl⟩
abbrev main_cst_7 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_v54 : Ref sig .tc := ⟨.hbm, 189, rfl⟩
abbrev main_v55 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![800], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x4 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S100000x4_0_1 : S1x4.BroadcastsInDim S100000x4 (![0, 1] : Fin 2 → Fin S100000x4.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x4_0 : S3200000.BroadcastsInDim S3200000x4 (![0] : Fin 1 → Fin S3200000x4.rank)
  bcast_S_S3200000x4 : S_.BroadcastsInDim S3200000x4 (![] : Fin 0 → Fin S3200000x4.rank)
  shapeCasts_S32_S1x32 : S32.ShapeCasts S1x32
  shapeCasts_S2_S1x2 : S2.ShapeCasts S1x2
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  concatenates_S4000x4_S4000x4_S4000x8_d1 : Shape.Concatenates [S4000x4, S4000x4] S4000x8 1
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S3200000_S3200000x2_0 : S3200000.BroadcastsInDim S3200000x2 (![0] : Fin 1 → Fin S3200000x2.rank)
  bcast_S_S3200000x2 : S_.BroadcastsInDim S3200000x2 (![] : Fin 0 → Fin S3200000x2.rank)
  shapeCasts_S4_S1x4 : S4.ShapeCasts S1x4
  shapeCasts_S4000x2_S4000x2 : S4000x2.ShapeCasts S4000x2
  concatenates_S4000x2_S4000x2_S4000x4_d1 : Shape.Concatenates [S4000x2, S4000x2] S4000x4 1
  inb_S4x32_S4x32_0_0 : ∀ a, (![0, 0] : Fin 2 → Nat) a + S4x32.size a ≤ S4x32.size a
  h_S4x32 : 0 < S4x32.numel
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  scatter_S100000_S3200000x1_S3200000_n_0_0_1_wf : ScatterDims.WF S100000 S3200000x1 S3200000 [] [0] [0] 1
  gather_S100000x4_S3200000x1_S3200000x4_1_0_n_n_0_1_14_wf : GatherDims.WF S100000x4 S3200000x1 S3200000x4 [1] [0] [] [0] [] 1 ![1, 4]
  dot_S4000x8_S8x32_S4000x32_1_0_0_1_n_n_wf : DotDims.WF S4000x8 S8x32 S4000x32 [1] [0] [0] [1] [] []
  dot_S4000x32_S32x32_S4000x32_1_0_0_1_n_n_wf : DotDims.WF S4000x32 S32x32 S4000x32 [1] [0] [0] [1] [] []
  dot_S4000x32_S32x2_S4000x2_1_0_0_1_n_n_wf : DotDims.WF S4000x32 S32x2 S4000x2 [1] [0] [0] [1] [] []
  scatter_S100000x2_S3200000x1_S3200000x2_1_0_0_1_wf : ScatterDims.WF S100000x2 S3200000x1 S3200000x2 [1] [0] [0] 1
  gather_S100000x2_S3200000x1_S3200000x2_1_0_n_n_0_1_12_wf : GatherDims.WF S100000x2 S3200000x1 S3200000x2 [1] [0] [] [0] [] 1 ![1, 2]
  dot_S4000x4_S4x32_S4000x32_1_0_0_1_n_n_wf : DotDims.WF S4000x4 S4x32 S4000x32 [1] [0] [0] [1] [] []
  dot_S4000x32_S32x4_S4000x4_1_0_0_1_n_n_wf : DotDims.WF S4000x32 S32x4 S4000x4 [1] [0] [0] [1] [] []
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S3200000x4.size a
  hwx0_0 : ∀ i : grid0.Coords, EltTy.bits .f32 = 32 ∨ (Rect.block (s := S3200000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S3200000x4.size a
  hwx0_1 : ∀ i : grid0.Coords, EltTy.bits .f32 = 32 ∨ (Rect.block (s := S3200000x4) S4000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x2.size a ≤ S32x2.size a
  hwx0_6 : ∀ i : grid0.Coords, EltTy.bits .f32 = 32 ∨ (Rect.block (s := S32x2) S32x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x2.size a ≤ S3200000x2.size a
  hwx0_8 : ∀ i : grid0.Coords, EltTy.bits .f32 = 32 ∨ (Rect.block (s := S3200000x2) S4000x2.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x2.size a ≤ S3200000x2.size a
  hwx1_0 : ∀ i : grid1.Coords, EltTy.bits .f32 = 32 ∨ (Rect.block (s := S3200000x2) S4000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S3200000x2.size a
  hwx1_1 : ∀ i : grid1.Coords, EltTy.bits .f32 = 32 ∨ (Rect.block (s := S3200000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x32.size a ≤ S4x32.size a
  hwx1_2 : ∀ i : grid1.Coords, EltTy.bits .f32 = 32 ∨ (Rect.block (s := S4x32) S4x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x4.size a ≤ S32x4.size a
  hwx1_6 : ∀ i : grid1.Coords, EltTy.bits .f32 = 32 ∨ (Rect.block (s := S32x4) S32x4.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4.size a ≤ S1x4.size a
  hwx1_7 : ∀ i : grid1.Coords, EltTy.bits .f32 = 32 ∨ (Rect.block (s := S1x4) S1x4.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x4.size a ≤ S3200000x4.size a
  hwx1_8 : ∀ i : grid1.Coords, EltTy.bits .f32 = 32 ∨ (Rect.block (s := S3200000x4) S4000x4.size (cc1_transform_8 i) (hinb1_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S4000x8_S8x32_S4000x32_1_0_0_1_n_n : DotDims S4000x8 S8x32 S4000x32 where
  lhsContracting := [1]
  rhsContracting := [0]
  lhsNonContracting := [0]
  rhsNonContracting := [1]
  lhsBatch := []
  rhsBatch := []
  wf := dot_S4000x8_S8x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S4000x4_S4x32_S4000x32_1_0_0_1_n_n : DotDims S4000x4 S4x32 S4000x32 where
  lhsContracting := [1]
  rhsContracting := [0]
  lhsNonContracting := [0]
  rhsNonContracting := [1]
  lhsBatch := []
  rhsBatch := []
  wf := dot_S4000x4_S4x32_S4000x32_1_0_0_1_n_n_wf
def dot_S4000x32_S32x4_S4000x4_1_0_0_1_n_n : DotDims S4000x32 S32x4 S4000x4 where
  lhsContracting := [1]
  rhsContracting := [0]
  lhsNonContracting := [0]
  rhsNonContracting := [1]
  lhsBatch := []
  rhsBatch := []
  wf := dot_S4000x32_S32x4_S4000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v32) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S4000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S4000x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v44) S4000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S4x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S32x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S4000x4.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S1x3200000 : Shape := ⟨2, ![1, 3200000]⟩
abbrev S3200000 : Shape := ⟨1, ![3200000]⟩
abbrev S_ : Shape := ⟨0, ![]⟩
abbrev S1x4 : Shape := ⟨2, ![1, 4]⟩
abbrev S3200000x1 : Shape := ⟨2, ![3200000, 1]⟩
abbrev S3200000x4 : Shape := ⟨2, ![3200000, 4]⟩
abbrev S3200000x8 : Shape := ⟨2, ![3200000, 8]⟩
abbrev S3200000x32 : Shape := ⟨2, ![3200000, 32]⟩
abbrev S1x32 : Shape := ⟨2, ![1, 32]⟩
abbrev S3200000x2 : Shape := ⟨2, ![3200000, 2]⟩
abbrev S1x2 : Shape := ⟨2, ![1, 2]⟩
abbrev S100000x2 : Shape := ⟨2, ![100000, 2]⟩
abbrev S100000 : Shape := ⟨1, ![100000]⟩
abbrev S100000x1 : Shape := ⟨2, ![100000, 1]⟩

abbrev nBuf : Space → Nat
  | .hbm => 175
  | .vmem => 0
  | .smem => 0
  | _ => 0

abbrev hbmTy0_0 (i : Nat) : BufTy := match i % 128 with
  | 0 => ⟨S100000x4, .f32⟩
  | 1 => ⟨S2x3200000, .i32⟩
  | 2 => ⟨S4, .f32⟩
  | 3 => ⟨S4, .f32⟩
  | 4 => ⟨S8x32, .f32⟩
  | 5 => ⟨S32, .f32⟩
  | 6 => ⟨S32x32, .f32⟩
  | 7 => ⟨S32, .f32⟩
  | 8 => ⟨S32x2, .f32⟩
  | 9 => ⟨S2, .f32⟩
  | 10 => ⟨S4x32, .f32⟩
  | 11 => ⟨S32, .f32⟩
  | 12 => ⟨S32x32, .f32⟩
  | 13 => ⟨S32, .f32⟩
  | 14 => ⟨S32x4, .f32⟩
  | 15 => ⟨S4, .f32⟩
  | 16 => ⟨S1x3200000, .i32⟩
  | 17 => ⟨S3200000, .i32⟩
  | 18 => ⟨S1x3200000, .i32⟩
  | 19 => ⟨S3200000, .i32⟩
  | 20 => ⟨S_, .f32⟩
  | 21 => ⟨S4, .f32⟩
  | 22 => ⟨S_, .f32⟩
  | 23 => ⟨S4, .f32⟩
  | 24 => ⟨S4, .f32⟩
  | 25 => ⟨S_, .i32⟩
  | 26 => ⟨S_, .f32⟩
  | 27 => ⟨S4, .f32⟩
  | 28 => ⟨S1x4, .f32⟩
  | 29 => ⟨S_, .f32⟩
  | 30 => ⟨S1x4, .f32⟩
  | 31 => ⟨S1x4, .f32⟩
  | 32 => ⟨S100000x4, .f32⟩
  | 33 => ⟨S100000x4, .f32⟩
  | 34 => ⟨S100000x4, .f32⟩
  | 35 => ⟨S_, .f32⟩
  | 36 => ⟨S_, .f32⟩
  | 37 => ⟨S_, .f32⟩
  | 38 => ⟨S_, .f32⟩
  | 39 => ⟨S4, .f32⟩
  | 40 => ⟨S4, .f32⟩
  | 41 => ⟨S4, .f32⟩
  | 42 => ⟨S_, .f32⟩
  | 43 => ⟨S_, .i1⟩
  | 44 => ⟨S_, .f32⟩
  | 45 => ⟨S_, .f32⟩
  | 46 => ⟨S4, .f32⟩
  | 47 => ⟨S4, .f32⟩
  | 48 => ⟨S1x4, .f32⟩
  | 49 => ⟨S100000x4, .f32⟩
  | 50 => ⟨S100000x4, .f32⟩
  | 51 => ⟨S_, .f32⟩
  | 52 => ⟨S4, .f32⟩
  | 53 => ⟨S4, .f32⟩
  | 54 => ⟨S4, .f32⟩
  | 55 => ⟨S1x4, .f32⟩
  | 56 => ⟨S100000x4, .f32⟩
  | 57 => ⟨S100000x4, .f32⟩
  | 58 => ⟨S1x4, .f32⟩
  | 59 => ⟨S100000x4, .f32⟩
  | 60 => ⟨S100000x4, .f32⟩
  | 61 => ⟨S1x4, .f32⟩
  | 62 => ⟨S100000x4, .f32⟩
  | 63 => ⟨S100000x4, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x4, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x4, .f32⟩
  | 82 => ⟨S3200000x4, .f32⟩
  | 83 => ⟨S3200000x8, .f32⟩
  | 84 => ⟨S3200000x32, .f32⟩
  | 85 => ⟨S1x32, .f32⟩
  | 86 => ⟨S3200000x32, .f32⟩
  | 87 => ⟨S3200000x32, .f32⟩
  | 88 => ⟨S_, .f32⟩
  | 89 => ⟨S3200000x32, .f32⟩
  | 90 => ⟨S3200000x32, .f32⟩
  | 91 => ⟨S3200000x32, .f32⟩
  | 92 => ⟨S1x32, .f32⟩
  | 93 => ⟨S3200000x32, .f32⟩
  | 94 => ⟨S3200000x32, .f32⟩
  | 95 => ⟨S_, .f32⟩
  | 96 => ⟨S3200000x32, .f32⟩
  | 97 => ⟨S3200000x32, .f32⟩
  | 98 => ⟨S3200000x2, .f32⟩
  | 99 => ⟨S1x2, .f32⟩
  | 100 => ⟨S3200000x2, .f32⟩
  | 101 => ⟨S3200000x2, .f32⟩
  | 102 => ⟨S_, .f32⟩
  | 103 => ⟨S3200000x2, .f32⟩
  | 104 => ⟨S3200000x2, .f32⟩
  | 105 => ⟨S_, .f32⟩
  | 106 => ⟨S100000x2, .f32⟩
  | 107 => ⟨S3200000x1, .i32⟩
  | 108 => ⟨S100000x2, .f32⟩
  | 109 => ⟨S_, .f32⟩
  | 110 => ⟨S3200000, .f32⟩
  | 111 => ⟨S_, .f32⟩
  | 112 => ⟨S100000, .f32⟩
  | 113 => ⟨S3200000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x2, .f32⟩
  | 120 => ⟨S100000x2, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x4, .f32⟩

abbrev hbmTy0_1 (i : Nat) : BufTy := match i % 128 with
  | 0 => ⟨S3200000x1, .i32⟩
  | 1 => ⟨S3200000x2, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000x2, .f32⟩
  | 11 => ⟨S3200000x2, .f32⟩
  | 12 => ⟨S3200000x4, .f32⟩
  | 13 => ⟨S3200000x32, .f32⟩
  | 14 => ⟨S1x32, .f32⟩
  | 15 => ⟨S3200000x32, .f32⟩
  | 16 => ⟨S3200000x32, .f32⟩
  | 17 => ⟨S_, .f32⟩
  | 18 => ⟨S3200000x32, .f32⟩
  | 19 => ⟨S3200000x32, .f32⟩
  | 20 => ⟨S3200000x32, .f32⟩
  | 21 => ⟨S1x32, .f32⟩
  | 22 => ⟨S3200000x32, .f32⟩
  | 23 => ⟨S3200000x32, .f32⟩
  | 24 => ⟨S_, .f32⟩
  | 25 => ⟨S3200000x32, .f32⟩
  | 26 => ⟨S3200000x32, .f32⟩
  | 27 => ⟨S3200000x4, .f32⟩
  | 28 => ⟨S1x4, .f32⟩
  | 29 => ⟨S3200000x4, .f32⟩
  | 30 => ⟨S3200000x4, .f32⟩
  | 31 => ⟨S_, .f32⟩
  | 32 => ⟨S100000x4, .f32⟩
  | 33 => ⟨S3200000x1, .i32⟩
  | 34 => ⟨S100000x4, .f32⟩
  | 35 => ⟨S_, .f32⟩
  | 36 => ⟨S3200000, .f32⟩
  | 37 => ⟨S_, .f32⟩
  | 38 => ⟨S100000, .f32⟩
  | 39 => ⟨S3200000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x4, .f32⟩
  | 46 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_2 : Ref sig .tc := ⟨.hbm, 64, rfl⟩
abbrev main_v23 : Ref sig .tc := ⟨.hbm, 65, rfl⟩
abbrev main_v24 : Ref sig .tc := ⟨.hbm, 66, rfl⟩
abbrev main_c_3 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c_4 : Ref sig .tc := ⟨.hbm, 73, rfl⟩
abbrev main_v30 : Ref sig .tc := ⟨.hbm, 74, rfl⟩
abbrev main_v31 : Ref sig .tc := ⟨.hbm, 75, rfl⟩
abbrev main_c_5 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_call1_cst : Ref sig .tc := ⟨.hbm, 88, rfl⟩
abbrev main_call1_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_call2_cst : Ref sig .tc := ⟨.hbm, 95, rfl⟩
abbrev main_call2_v0 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call3_cst : Ref sig .tc := ⟨.hbm, 102, rfl⟩
abbrev main_call3_v0 : Ref sig .tc := ⟨.hbm, 103, rfl⟩
abbrev main_v53 : Ref sig .tc := ⟨.hbm, 104, rfl⟩
abbrev main_cst_6 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_7 : Ref sig .tc := ⟨.hbm, 109, rfl⟩
abbrev main_v57 : Ref sig .tc := ⟨.hbm, 110, rfl⟩
abbrev main_cst_8 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_9 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_10 : Ref sig .tc := ⟨.hbm, 121, rfl⟩
abbrev main_v66 : Ref sig .tc := ⟨.hbm, 122, rfl⟩
abbrev main_v67 : Ref sig .tc := ⟨.hbm, 123, rfl⟩
abbrev main_c_11 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_12 : Ref sig .tc := ⟨.hbm, 130, rfl⟩
abbrev main_v73 : Ref sig .tc := ⟨.hbm, 131, rfl⟩
abbrev main_v74 : Ref sig .tc := ⟨.hbm, 132, rfl⟩
abbrev main_c_13 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_call4_cst : Ref sig .tc := ⟨.hbm, 145, rfl⟩
abbrev main_call4_v0 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_call5_cst : Ref sig .tc := ⟨.hbm, 152, rfl⟩
abbrev main_call5_v0 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_14 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_cst_15 : Ref sig .tc := ⟨.hbm, 163, rfl⟩
abbrev main_v99 : Ref sig .tc := ⟨.hbm, 164, rfl⟩
abbrev main_cst_16 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_cst_17 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S100000x4_0_1 : S1x4.BroadcastsInDim S100000x4 (![0, 1] : Fin 2 → Fin S100000x4.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x4_S3200000x4_S3200000x8_d1 : Shape.Concatenates [S3200000x4, S3200000x4] S3200000x8 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S2_S1x2_1 : S2.BroadcastsInDim S1x2 (![1] : Fin 1 → Fin S1x2.rank)
  bcast_S1x2_S3200000x2_0_1 : S1x2.BroadcastsInDim S3200000x2 (![0, 1] : Fin 2 → Fin S3200000x2.rank)
  bcast_S_S3200000x2 : S_.BroadcastsInDim S3200000x2 (![] : Fin 0 → Fin S3200000x2.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  concatenates_S3200000x2_S3200000x2_S3200000x4_d1 : Shape.Concatenates [S3200000x2, S3200000x2] S3200000x4 1
  bcast_S1x4_S3200000x4_0_1 : S1x4.BroadcastsInDim S3200000x4 (![0, 1] : Fin 2 → Fin S3200000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S3200000x8_S8x32_S3200000x32_1_0_0_1_n_n_wf : DotDims.WF S3200000x8 S8x32 S3200000x32 [1] [0] [0] [1] [] []
  dot_S3200000x32_S32x32_S3200000x32_1_0_0_1_n_n_wf : DotDims.WF S3200000x32 S32x32 S3200000x32 [1] [0] [0] [1] [] []
  dot_S3200000x32_S32x2_S3200000x2_1_0_0_1_n_n_wf : DotDims.WF S3200000x32 S32x2 S3200000x2 [1] [0] [0] [1] [] []
  scatter_S100000x2_S3200000x1_S3200000x2_1_0_0_1_wf : ScatterDims.WF S100000x2 S3200000x1 S3200000x2 [1] [0] [0] 1
  scatter_S100000_S3200000x1_S3200000_n_0_0_1_wf : ScatterDims.WF S100000 S3200000x1 S3200000 [] [0] [0] 1
  gather_S100000x2_S3200000x1_S3200000x2_1_0_n_n_0_1_12_wf : GatherDims.WF S100000x2 S3200000x1 S3200000x2 [1] [0] [] [0] [] 1 ![1, 2]
  dot_S3200000x4_S4x32_S3200000x32_1_0_0_1_n_n_wf : DotDims.WF S3200000x4 S4x32 S3200000x32 [1] [0] [0] [1] [] []
  dot_S3200000x32_S32x4_S3200000x4_1_0_0_1_n_n_wf : DotDims.WF S3200000x32 S32x4 S3200000x4 [1] [0] [0] [1] [] []
  scatter_S100000x4_S3200000x1_S3200000x4_1_0_0_1_wf : ScatterDims.WF S100000x4 S3200000x1 S3200000x4 [1] [0] [0] 1

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S3200000x8_S8x32_S3200000x32_1_0_0_1_n_n : DotDims S3200000x8 S8x32 S3200000x32 where
  lhsContracting := [1]
  rhsContracting := [0]
  lhsNonContracting := [0]
  rhsNonContracting := [1]
  lhsBatch := []
  rhsBatch := []
  wf := dot_S3200000x8_S8x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x2_S3200000x2_1_0_0_1_n_n : DotDims S3200000x32 S32x2 S3200000x2 where
  lhsContracting := [1]
  rhsContracting := [0]
  lhsNonContracting := [0]
  rhsNonContracting := [1]
  lhsBatch := []
  rhsBatch := []
  wf := dot_S3200000x32_S32x2_S3200000x2_1_0_0_1_n_n_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S3200000x4_S4x32_S3200000x32_1_0_0_1_n_n : DotDims S3200000x4 S4x32 S3200000x32 where
  lhsContracting := [1]
  rhsContracting := [0]
  lhsNonContracting := [0]
  rhsNonContracting := [1]
  lhsBatch := []
  rhsBatch := []
  wf := dot_S3200000x4_S4x32_S3200000x32_1_0_0_1_n_n_wf
def dot_S3200000x32_S32x4_S3200000x4_1_0_0_1_n_n : DotDims S3200000x32 S32x4 S3200000x4 where
  lhsContracting := [1]
  rhsContracting := [0]
  lhsNonContracting := [0]
  rhsNonContracting := [1]
  lhsBatch := []
  rhsBatch := []
  wf := dot_S3200000x32_S32x4_S3200000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

class Facts : Prop extends Facts₀ where

variable [Facts]
-- ==== Proof.Spec.lean ====
/-
  The edge network as mathematics, entry by entry, on the extended reals.

  A matrix of E rows and K columns is a function of a row and a column. One linear layer sends a row x to the row whose
  j-th entry is (the sum over k of x k * w k j) + b j; the rectifier is the entrywise maximum with zero; the
  layer's input row is the concatenation of a node's own features with the difference to its neighbour's. The encoder is
  three such layers, each followed by the rectifier; the decoder is three such layers with no rectifier after the last.
  Every entry of the result depends on one row of the inputs only. Arrays indexed by a rank-2 index are read as such
  matrices through their two coordinates.
-/
import Idealize.ShloMosaic.PureOps.Ideal
import Idealize.ShloMosaic.Lib.ValueIdx

noncomputable section

open scoped BigOperators

namespace Cert.Spec

open Idealize.ShloMosaic Idealize.ShloMosaic.ValueIdx

/-- An array of `a` rows and `b` columns of extended reals, by a rank-2 index. -/
abbrev Arr2 (a b : Nat) : Type := (⟨2, ![a, b]⟩ : Shape).Idx → EReal

/-- The same by row and column. -/
abbrev Mat (a b : Nat) : Type := Fin a → Fin b → EReal

/-- An array read by row and column. -/
def ofArr {a b : Nat} (x : Arr2 a b) : Mat a b := fun e k => x (ix2 e k)

/-- A matrix as an array. -/
def toArr {a b : Nat} (m : Mat a b) : Arr2 a b := fun i => m ⟨(i 0).val, idx2_lt0 i⟩ ⟨(i 1).val, idx2_lt1 i⟩

theorem toArr_ix2 {a b : Nat} (m : Mat a b) (e : Fin a) (j : Fin b) : toArr m (ix2 e j) = m e j := rfl

/-- A linear layer: every row against every column of the weights, plus the bias. -/
def linM {E K J : Nat} (x : Mat E K) (w : Mat K J) (b : Fin J → EReal) : Mat E J :=
  fun e j => (∑ k : Fin K, x e k * w k j) + b j

/-- The rectifier, entrywise. -/
def reluM {E J : Nat} (x : Mat E J) : Mat E J := fun e j => max (x e j) 0

/-- Two four-column matrices side by side. -/
def cat44M {E : Nat} (x y : Mat E 4) : Mat E 8 :=
  fun e p => if h : p.val < 4 then x e ⟨p.val, h⟩ else y e ⟨p.val - 4, by have := p.isLt; omega⟩

/-- Two two-column matrices side by side. -/
def cat22M {E : Nat} (x y : Mat E 2) : Mat E 4 :=
  fun e p => if h : p.val < 2 then x e ⟨p.val, h⟩ else y e ⟨p.val - 2, by have := p.isLt; omega⟩

/-- The encoder: 8 → 32 → 32 → 2, a rectifier after every layer. -/
def encM {E : Nat} (xi d : Mat E 4) (w1 : Mat 8 32) (b1 : Fin 32 → EReal) (w2 : Mat 32 32) (b2 : Fin 32 → EReal)
    (w3 : Mat 32 2) (b3 : Fin 2 → EReal) : Mat E 2 :=
  reluM (linM (reluM (linM (reluM (linM (cat44M xi d) w1 b1)) w2 b2)) w3 b3)

/-- The decoder: 4 → 32 → 32 → 4, no rectifier after the last layer. -/
def decM {E : Nat} (xi d : Mat E 2) (w1 : Mat 4 32) (b1 : Fin 32 → EReal) (w2 : Mat 32 32) (b2 : Fin 32 → EReal)
    (w3 : Mat 32 4) (b3 : Fin 4 → EReal) : Mat E 4 :=
  linM (reluM (linM (reluM (linM (cat22M xi d) w1 b1)) w2 b2)) w3 b3

/-- The encoder on arrays; the biases are one-row arrays. -/
def enc {E : Nat} (xi d : Arr2 E 4) (w1 : Arr2 8 32) (b1 : Arr2 1 32) (w2 : Arr2 32 32) (b2 : Arr2 1 32)
    (w3 : Arr2 32 2) (b3 : Arr2 1 2) : Arr2 E 2 :=
  toArr (encM (ofArr xi) (ofArr d) (ofArr w1) (ofArr b1 0) (ofArr w2) (ofArr b2 0) (ofArr w3) (ofArr b3 0))

/-- The decoder on arrays; the biases are one-row arrays. -/
def dec {E : Nat} (xi d : Arr2 E 2) (w1 : Arr2 4 32) (b1 : Arr2 1 32) (w2 : Arr2 32 32) (b2 : Arr2 1 32)
    (w3 : Arr2 32 4) (b3 : Arr2 1 4) : Arr2 E 4 :=
  toArr (decM (ofArr xi) (ofArr d) (ofArr w1) (ofArr b1 0) (ofArr w2) (ofArr b2 0) (ofArr w3) (ofArr b3 0))

theorem enc_ix2 {E : Nat} (xi d : Arr2 E 4) (w1 : Arr2 8 32) (b1 : Arr2 1 32) (w2 : Arr2 32 32) (b2 : Arr2 1 32)
    (w3 : Arr2 32 2) (b3 : Arr2 1 2) (e : Fin E) (j : Fin 2) :
    enc xi d w1 b1 w2 b2 w3 b3 (ix2 e j)
      = encM (ofArr xi) (ofArr d) (ofArr w1) (ofArr b1 0) (ofArr w2) (ofArr b2 0) (ofArr w3) (ofArr b3 0) e j := rfl

theorem dec_ix2 {E : Nat} (xi d : Arr2 E 2) (w1 : Arr2 4 32) (b1 : Arr2 1 32) (w2 : Arr2 32 32) (b2 : Arr2 1 32)
    (w3 : Arr2 32 4) (b3 : Arr2 1 4) (e : Fin E) (j : Fin 4) :
    dec xi d w1 b1 w2 b2 w3 b3 (ix2 e j)
      = decM (ofArr xi) (ofArr d) (ofArr w1) (ofArr b1 0) (ofArr w2) (ofArr b2 0) (ofArr w3) (ofArr b3 0) e j := rfl

/-- A linear layer's row depends on one row of its input. -/
theorem linM_congr {E E' K J : Nat} (x : Mat E K) (x' : Mat E' K) (w : Mat K J) (b : Fin J → EReal) (e : Fin E) (e' : Fin E')
    (h : x e = x' e') : linM x w b e = linM x' w b e' := by
  funext j; unfold linM; rw [h]

theorem reluM_congr {E E' J : Nat} (x : Mat E J) (x' : Mat E' J) (e : Fin E) (e' : Fin E') (h : x e = x' e') :
    reluM x e = reluM x' e' := by
  funext j; unfold reluM; rw [h]

/-- The encoder's row `e` depends on row `e` of the two inputs only. -/
theorem encM_congr {E E' : Nat} (xi d : Mat E 4) (xi' d' : Mat E' 4) (w1 : Mat 8 32) (b1 : Fin 32 → EReal) (w2 : Mat 32 32)
    (b2 : Fin 32 → EReal) (w3 : Mat 32 2) (b3 : Fin 2 → EReal) (e : Fin E) (e' : Fin E')
    (hx : xi e = xi' e') (hd : d e = d' e') :
    encM xi d w1 b1 w2 b2 w3 b3 e = encM xi' d' w1 b1 w2 b2 w3 b3 e' := by
  unfold encM
  refine reluM_congr _ _ _ _ (linM_congr _ _ _ _ _ _ ?_)
  refine reluM_congr _ _ _ _ (linM_congr _ _ _ _ _ _ ?_)
  refine reluM_congr _ _ _ _ (linM_congr _ _ _ _ _ _ ?_)
  funext p; unfold cat44M; rw [hx, hd]

/-- The decoder's row `e` depends on row `e` of the two inputs only. -/
theorem decM_congr {E E' : Nat} (xi d : Mat E 2) (xi' d' : Mat E' 2) (w1 : Mat 4 32) (b1 : Fin 32 → EReal) (w2 : Mat 32 32)
    (b2 : Fin 32 → EReal) (w3 : Mat 32 4) (b3 : Fin 4 → EReal) (e : Fin E) (e' : Fin E')
    (hx : xi e = xi' e') (hd : d e = d' e') :
    decM xi d w1 b1 w2 b2 w3 b3 e = decM xi' d' w1 b1 w2 b2 w3 b3 e' := by
  unfold decM
  refine linM_congr _ _ _ _ _ _ ?_
  refine reluM_congr _ _ _ _ (linM_congr _ _ _ _ _ _ ?_)
  refine reluM_congr _ _ _ _ (linM_congr _ _ _ _ _ _ ?_)
  funext p; unfold cat22M; rw [hx, hd]

end Cert.Spec

end
-- ==== Proof.KStage.lean ====
/-
  The kernel program's value, stage by stage, as functions of whole arrays.

  The host side normalises the node features, counts the edges into every node and takes the reciprocal of that count
  (at least one), and for each convolution takes the rows of the node array at every edge's target and source —
  a take that wraps negative indices, masks rows whose index falls outside the table and fills a masked row with a
  fixed word — and their difference; the three-layer network runs on the edge tiles; the host sums the messages per
  target node and multiplies by the reciprocal count. The host stages are the compositions of the program's own
  operations; each tiled network stage is stated by its mathematical value on whole arrays.
-/
import proofs.«403383_j8177617731794_1_alg».proof.KernelIdeal
import proofs.«403383_j8177617731794_1_alg».proof.Proof.Spec

noncomputable section

namespace Cert.KStage

open Idealize.ShloMosaic Cert.KernelIdeal

variable {F : FTy → Type} [FloatOps F] [Cert.KernelIdeal.Facts]
open Cert.KernelIdeal.Facts₀ Cert.KernelIdeal.Facts

/-- Row 0 of the edge list: every edge's source node. -/
def srcOf (ei : IVec S2x3200000 32) : IVec S3200000 32 :=
  shapeCast S3200000 (extractStridedSlice S1x3200000 ![0, 0] ei slices_S2x3200000_S1x3200000_0_0) shapeCasts_S1x3200000_S3200000

/-- Row 1 of the edge list: every edge's target node. -/
def dstOf (ei : IVec S2x3200000 32) : IVec S3200000 32 :=
  shapeCast S3200000 (extractStridedSlice S1x3200000 ![1, 0] ei slices_S2x3200000_S1x3200000_1_0) shapeCasts_S1x3200000_S3200000

/-- A per-column vector repeated on every node row. -/
def rowsOf (v : FVec F S4 .f32) : FVec F S100000x4 .f32 :=
  broadcastInDim S100000x4 ![0, 1] bcast_S1x4_S100000x4_0_1 (broadcastInDim S1x4 ![1] bcast_S4_S1x4_1 v)

/-- The column means over the nodes. -/
def mean (x : FVec F S100000x4 .f32) : FVec F S4 .f32 :=
  Host.divf (Host.reduceAdd x (constant S_ .f32 0x00000000#32) reducesTo_S100000x4_S4_d0 h_S_)
    (broadcastInDim S4 ![] bcast_S_S4 (constant S_ .f32 0x47C35000#32))

/-- The features minus their column means, as the variance computes them. -/
def centered (x : FVec F S100000x4 .f32) : FVec F S100000x4 .f32 :=
  subf x (broadcastInDim S100000x4 ![0, 1] bcast_S1x4_S100000x4_0_1
    (Host.divf (broadcastInDim S1x4 ![1] bcast_S4_S1x4_1 (Host.reduceAdd x (constant S_ .f32 0x00000000#32) reducesTo_S100000x4_S4_d0 h_S_))
      (broadcastInDim S1x4 ![] bcast_S_S1x4 (constant S_ .f32 0x47C35000#32))))

/-- The variance's divisor: the node count minus the (zero) degrees of freedom. -/
def divisor : FVec F S_ .f32 :=
  subf (constant S_ .f32 0x47C35000#32) (sitofp .f32 (constantI S_ 32 0#32))

/-- The biased column variances over the nodes. -/
def variance (x : FVec F S100000x4 .f32) : FVec F S4 .f32 :=
  select (broadcastInDim S4 ![] bcast_S_S4 (cmpf .ogt (divisor (F := F)) (constant S_ .f32 0x00000000#32)))
    (Host.divf (Host.reduceAdd (mulf (centered x) (centered x)) (constant S_ .f32 0x00000000#32) reducesTo_S100000x4_S4_d0 h_S_)
      (broadcastInDim S4 ![] bcast_S_S4 (divisor (F := F))))
    (broadcastInDim S4 ![] bcast_S_S4 (id (constant S_ .f32 0x7FC00000#32)))

/-- The normalised node features. -/
def bn (x : FVec F S100000x4 .f32) (γ β : FVec F S4 .f32) : FVec F S100000x4 .f32 :=
  addf (mulf (mulf (subf x (rowsOf (mean x)))
      (rowsOf (Host.rsqrt (addf (variance x) (broadcastInDim S4 ![] bcast_S_S4 (constant S_ .f32 0x3727C5AC#32))))))
    (rowsOf γ)) (rowsOf β)

/-- An index vector as a one-column array of start indices. -/
def col (i : IVec S3200000 32) : IVec S3200000x1 32 :=
  broadcastInDim S3200000x1 ![0] bcast_S3200000_S3200000x1_0 i

/-- Negative indices have the node count added. -/
def wrap (i : IVec S3200000 32) : IVec S3200000 32 :=
  select (cmpi .slt i (broadcastInDim S3200000 ![] bcast_S_S3200000 (constantI S_ 32 0#32)))
    (addi i (broadcastInDim S3200000 ![] bcast_S_S3200000 (constantI S_ 32 100000#32))) i

/-- Which edges' wrapped index lies inside the node table. -/
def inTable (i : IVec S3200000 32) : IVec S3200000 1 :=
  Host.reduce IntOp.andi
    (andi (cmpi .sge (col (wrap i)) (broadcastInDim S3200000x1 ![] bcast_S_S3200000x1 (constantI S_ 32 0#32)))
      (cmpi .sle (col (wrap i)) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The rows of a four-column node array at the given nodes; a row whose index is outside the table is filled. -/
def take4 (h : FVec F S100000x4 .f32) (i : IVec S3200000 32) : FVec F S3200000x4 .f32 :=
  select (broadcastInDim S3200000x4 ![0] bcast_S3200000_S3200000x4_0 (inTable i))
    (Host.gather gather_S100000x4_S3200000x1_S3200000x4_1_0_n_n_0_1_14 h (col (wrap i)))
    (broadcastInDim S3200000x4 ![] bcast_S_S3200000x4 (constant S_ .f32 0x7FC00000#32))

/-- The rows of a two-column node array at the given nodes; a row whose index is outside the table is filled. -/
def take2 (h : FVec F S100000x2 .f32) (i : IVec S3200000 32) : FVec F S3200000x2 .f32 :=
  select (broadcastInDim S3200000x2 ![0] bcast_S3200000_S3200000x2_0 (inTable i))
    (Host.gather gather_S100000x2_S3200000x1_S3200000x2_1_0_n_n_0_1_12 h (col (wrap i)))
    (broadcastInDim S3200000x2 ![] bcast_S_S3200000x2 (constant S_ .f32 0x7FC00000#32))

/-- The number of edges into every node, at least one. -/
def cnt (dst : IVec S3200000 32) : FVec F S100000 .f32 :=
  maximumf
    (Host.scatterAdd scatter_S100000_S3200000x1_S3200000_n_0_0_1
      (broadcastInDim S100000 ![] bcast_S_S100000 (constant S_ .f32 0x00000000#32)) (col dst)
      (broadcastInDim S3200000 ![] bcast_S_S3200000 (constant S_ .f32 0x3F800000#32)))
    (broadcastInDim S100000 ![] bcast_S_S100000 (constant S_ .f32 0x3F800000#32))

/-- The reciprocal of that count, one column. -/
def inv (dst : IVec S3200000 32) : FVec F S100000x1 .f32 :=
  broadcastInDim S100000x1 ![0] bcast_S100000_S100000x1_0
    (Host.divf (broadcastInDim S100000 ![] bcast_S_S100000 (constant S_ .f32 0x3F800000#32)) (cnt dst))

/-- The two-column messages summed per target node. -/
def seg2 (dst : IVec S3200000 32) (msg : FVec F S3200000x2 .f32) : FVec F S100000x2 .f32 :=
  Host.scatterAdd scatter_S100000x2_S3200000x1_S3200000x2_1_0_0_1
    (broadcastInDim S100000x2 ![] bcast_S_S100000x2 (constant S_ .f32 0x00000000#32)) (col dst) msg

/-- The four-column messages summed per target node. -/
def seg4 (dst : IVec S3200000 32) (msg : FVec F S3200000x4 .f32) : FVec F S100000x4 .f32 :=
  Host.scatterAdd scatter_S100000x4_S3200000x1_S3200000x4_1_0_0_1
    (broadcastInDim S100000x4 ![] bcast_S_S100000x4 (constant S_ .f32 0x00000000#32)) (col dst) msg

/-- A two-column node array times the reciprocal counts. -/
def scale2 (dst : IVec S3200000 32) (s : FVec F S100000x2 .f32) : FVec F S100000x2 .f32 :=
  mulf s (broadcastInDim S100000x2 ![0, 1] bcast_S100000x1_S100000x2_0_1 (inv dst))

/-- A four-column node array times the reciprocal counts. -/
def scale4 (dst : IVec S3200000 32) (s : FVec F S100000x4 .f32) : FVec F S100000x4 .f32 :=
  mulf s (broadcastInDim S100000x4 ![0, 1] bcast_S100000x1_S100000x4_0_1 (inv dst))

/-- The first convolution, the network stage by its value on whole arrays. -/
def layer1 (h : FVec Ideal S100000x4 .f32) (src dst : IVec S3200000 32) (w1 : FVec Ideal S8x32 .f32) (b1 : FVec Ideal S32 .f32)
    (w2 : FVec Ideal S32x32 .f32) (b2 : FVec Ideal S32 .f32) (w3 : FVec Ideal S32x2 .f32) (b3 : FVec Ideal S2 .f32) :
    FVec Ideal S100000x2 .f32 :=
  scale2 dst (seg2 dst (Cert.Spec.enc (take4 h dst) (subf (take4 h src) (take4 h dst)) w1
    (shapeCast S1x32 b1 shapeCasts_S32_S1x32) w2 (shapeCast S1x32 b2 shapeCasts_S32_S1x32) w3
    (shapeCast S1x2 b3 shapeCasts_S2_S1x2)))

/-- The second convolution, the network stage by its value on whole arrays. -/
def layer2 (h : FVec Ideal S100000x2 .f32) (src dst : IVec S3200000 32) (w1 : FVec Ideal S4x32 .f32) (b1 : FVec Ideal S32 .f32)
    (w2 : FVec Ideal S32x32 .f32) (b2 : FVec Ideal S32 .f32) (w3 : FVec Ideal S32x4 .f32) (b3 : FVec Ideal S4 .f32) :
    FVec Ideal S100000x4 .f32 :=
  scale4 dst (seg4 dst (Cert.Spec.dec (take2 h dst) (subf (take2 h src) (take2 h dst)) w1
    (shapeCast S1x32 b1 shapeCasts_S32_S1x32) w2 (shapeCast S1x32 b2 shapeCasts_S32_S1x32) w3
    (shapeCast S1x4 b3 shapeCasts_S4_S1x4)))

/-- The kernel program's result as one function of its sixteen arguments. -/
def kOut (x : FVec Ideal S100000x4 .f32) (ei : IVec S2x3200000 32) (γ β : FVec Ideal S4 .f32)
    (ew1 : FVec Ideal S8x32 .f32) (eb1 : FVec Ideal S32 .f32) (ew2 : FVec Ideal S32x32 .f32) (eb2 : FVec Ideal S32 .f32)
    (ew3 : FVec Ideal S32x2 .f32) (eb3 : FVec Ideal S2 .f32)
    (dw1 : FVec Ideal S4x32 .f32) (db1 : FVec Ideal S32 .f32) (dw2 : FVec Ideal S32x32 .f32) (db2 : FVec Ideal S32 .f32)
    (dw3 : FVec Ideal S32x4 .f32) (db3 : FVec Ideal S4 .f32) : FVec Ideal S100000x4 .f32 :=
  layer2 (layer1 (bn x γ β) (srcOf ei) (dstOf ei) ew1 eb1 ew2 eb2 ew3 eb3) (srcOf ei) (dstOf ei) dw1 db1 dw2 db2 dw3 db3

end Cert.KStage

end
-- ==== Proof.KRegion0.lean ====
/-
  The first tiled network stage, as one function of whole arrays: every tile of 4000 edges is the encoder on those
  4000 rows, a row's result depends on that row only, and the 800 tiles cover the edge array.
-/
import proofs.«403383_j8177617731794_1_alg».proof.Proof.Gen.KernelIdeal.Frame
import proofs.«403383_j8177617731794_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KRegion0

open Idealize.ShloMosaic Idealize.ShloMosaic.TcCoe Idealize.SL.Sem
open Idealize.ShloMosaic.Pipeline (Dat Cfg Window)
open Cert.KernelIdeal Cert.KernelIdeal.Gen
open Idealize.ShloMosaic.ValueIdx
open scoped BigOperators

/-! The operand indices of the contraction of S4000x8 with S8x32: a row and the contraction position on the left, the contraction position and a column on the right. -/
theorem lhsA_0 (j : S4000x32.Idx) (k : dot_S4000x8_S8x32_S4000x32_1_0_0_1_n_n.contr.Idx) :
    (dot_S4000x8_S8x32_S4000x32_1_0_0_1_n_n.lhsIdx j k 0 : ℕ) = j 0 := by
  simp [DotDims.lhsIdx, dot_S4000x8_S8x32_S4000x32_1_0_0_1_n_n]; rfl
theorem lhsA_1 (j : S4000x32.Idx) (k : dot_S4000x8_S8x32_S4000x32_1_0_0_1_n_n.contr.Idx) :
    (dot_S4000x8_S8x32_S4000x32_1_0_0_1_n_n.lhsIdx j k 1 : ℕ) = k ⟨0, by decide⟩ := by
  simp [DotDims.lhsIdx, dot_S4000x8_S8x32_S4000x32_1_0_0_1_n_n]; rfl
theorem rhsA_0 (j : S4000x32.Idx) (k : dot_S4000x8_S8x32_S4000x32_1_0_0_1_n_n.contr.Idx) :
    (dot_S4000x8_S8x32_S4000x32_1_0_0_1_n_n.rhsIdx j k 0 : ℕ) = k ⟨0, by decide⟩ := by
  simp [DotDims.rhsIdx, dot_S4000x8_S8x32_S4000x32_1_0_0_1_n_n]; rfl
theorem rhsA_1 (j : S4000x32.Idx) (k : dot_S4000x8_S8x32_S4000x32_1_0_0_1_n_n.contr.Idx) :
    (dot_S4000x8_S8x32_S4000x32_1_0_0_1_n_n.rhsIdx j k 1 : ℕ) = j 1 := by
  simp [DotDims.rhsIdx, dot_S4000x8_S8x32_S4000x32_1_0_0_1_n_n]; rfl

/-- The product onto the zero accumulator, at a row and a column, is the sum over the contraction position. -/
theorem mmA_apply (a : FVec Ideal S4000x8 .bf16) (w : FVec Ideal S8x32 .bf16) (p : Fin 4000) (q : Fin 32) :
    matmul dot_S4000x8_S8x32_S4000x32_1_0_0_1_n_n none a w (constant (F := Ideal) S4000x32 .f32 0x00000000#32) (ix2 p q)
      = ∑ k : Fin 8, a (ix2 p k) * w (ix2 k q) := by
  show FloatOps.matmul dot_S4000x8_S8x32_S4000x32_1_0_0_1_n_n none a w (constant (F := Ideal) S4000x32 .f32 0x00000000#32) (ix2 p q) = _
  rw [Ideal.matmul_constant_zero_apply,
    ← Equiv.sum_comp (contrEquiv1 dot_S4000x8_S8x32_S4000x32_1_0_0_1_n_n 8 rfl rfl).symm]
  refine Finset.sum_congr rfl fun k _ => ?_
  have hl : dot_S4000x8_S8x32_S4000x32_1_0_0_1_n_n.lhsIdx (ix2 p q) ((contrEquiv1 dot_S4000x8_S8x32_S4000x32_1_0_0_1_n_n 8 rfl rfl).symm k) = ix2 p k := by
    funext a; apply Fin.ext
    match a with
    | ⟨0, _⟩ => exact lhsA_0 _ _
    | ⟨1, _⟩ => exact (lhsA_1 _ _).trans (contrEquiv1_symm_val dot_S4000x8_S8x32_S4000x32_1_0_0_1_n_n 8 rfl rfl k)
  have hr : dot_S4000x8_S8x32_S4000x32_1_0_0_1_n_n.rhsIdx (ix2 p q) ((contrEquiv1 dot_S4000x8_S8x32_S4000x32_1_0_0_1_n_n 8 rfl rfl).symm k) = ix2 k q := by
    funext a; apply Fin.ext
    match a with
    | ⟨0, _⟩ => exact (rhsA_0 _ _).trans (contrEquiv1_symm_val dot_S4000x8_S8x32_S4000x32_1_0_0_1_n_n 8 rfl rfl k)
    | ⟨1, _⟩ => exact rhsA_1 _ _
  rw [hl, hr]

/-! The operand indices of the contraction of S4000x32 with S32x32: a row and the contraction position on the left, the contraction position and a column on the right. -/
theorem lhsB_0 (j : S4000x32.Idx) (k : dot_S4000x32_S32x32_S4000x32_1_0_0_1_n_n.contr.Idx) :
    (dot_S4000x32_S32x32_S4000x32_1_0_0_1_n_n.lhsIdx j k 0 : ℕ) = j 0 := by
  simp [DotDims.lhsIdx, dot_S4000x32_S32x32_S4000x32_1_0_0_1_n_n]; rfl
theorem lhsB_1 (j : S4000x32.Idx) (k : dot_S4000x32_S32x32_S4000x32_1_0_0_1_n_n.contr.Idx) :
    (dot_S4000x32_S32x32_S4000x32_1_0_0_1_n_n.lhsIdx j k 1 : ℕ) = k ⟨0, by decide⟩ := by
  simp [DotDims.lhsIdx, dot_S4000x32_S32x32_S4000x32_1_0_0_1_n_n]; rfl
theorem rhsB_0 (j : S4000x32.Idx) (k : dot_S4000x32_S32x32_S4000x32_1_0_0_1_n_n.contr.Idx) :
    (dot_S4000x32_S32x32_S4000x32_1_0_0_1_n_n.rhsIdx j k 0 : ℕ) = k ⟨0, by decide⟩ := by
  simp [DotDims.rhsIdx, dot_S4000x32_S32x32_S4000x32_1_0_0_1_n_n]; rfl
theorem rhsB_1 (j : S4000x32.Idx) (k : dot_S4000x32_S32x32_S4000x32_1_0_0_1_n_n.contr.Idx) :
    (dot_S4000x32_S32x32_S4000x32_1_0_0_1_n_n.rhsIdx j k 1 : ℕ) = j 1 := by
  simp [DotDims.rhsIdx, dot_S4000x32_S32x32_S4000x32_1_0_0_1_n_n]; rfl

/-- The product onto the zero accumulator, at a row and a column, is the sum over the contraction position. -/
theorem mmB_apply (a : FVec Ideal S4000x32 .bf16) (w : FVec Ideal S32x32 .bf16) (p : Fin 4000) (q : Fin 32) :
    matmul dot_S4000x32_S32x32_S4000x32_1_0_0_1_n_n none a w (constant (F := Ideal) S4000x32 .f32 0x00000000#32) (ix2 p q)
      = ∑ k : Fin 32, a (ix2 p k) * w (ix2 k q) := by
  show FloatOps.matmul dot_S4000x32_S32x32_S4000x32_1_0_0_1_n_n none a w (constant (F := Ideal) S4000x32 .f32 0x00000000#32) (ix2 p q) = _
  rw [Ideal.matmul_constant_zero_apply,
    ← Equiv.sum_comp (contrEquiv1 dot_S4000x32_S32x32_S4000x32_1_0_0_1_n_n 32 rfl rfl).symm]
  refine Finset.sum_congr rfl fun k _ => ?_
  have hl : dot_S4000x32_S32x32_S4000x32_1_0_0_1_n_n.lhsIdx (ix2 p q) ((contrEquiv1 dot_S4000x32_S32x32_S4000x32_1_0_0_1_n_n 32 rfl rfl).symm k) = ix2 p k := by
    funext a; apply Fin.ext
    match a with
    | ⟨0, _⟩ => exact lhsB_0 _ _
    | ⟨1, _⟩ => exact (lhsB_1 _ _).trans (contrEquiv1_symm_val dot_S4000x32_S32x32_S4000x32_1_0_0_1_n_n 32 rfl rfl k)
  have hr : dot_S4000x32_S32x32_S4000x32_1_0_0_1_n_n.rhsIdx (ix2 p q) ((contrEquiv1 dot_S4000x32_S32x32_S4000x32_1_0_0_1_n_n 32 rfl rfl).symm k) = ix2 k q := by
    funext a; apply Fin.ext
    match a with
    | ⟨0, _⟩ => exact (rhsB_0 _ _).trans (contrEquiv1_symm_val dot_S4000x32_S32x32_S4000x32_1_0_0_1_n_n 32 rfl rfl k)
    | ⟨1, _⟩ => exact rhsB_1 _ _
  rw [hl, hr]

/-! The operand indices of the contraction of S4000x32 with S32x2: a row and the contraction position on the left, the contraction position and a column on the right. -/
theorem lhsC_0 (j : S4000x2.Idx) (k : dot_S4000x32_S32x2_S4000x2_1_0_0_1_n_n.contr.Idx) :
    (dot_S4000x32_S32x2_S4000x2_1_0_0_1_n_n.lhsIdx j k 0 : ℕ) = j 0 := by
  simp [DotDims.lhsIdx, dot_S4000x32_S32x2_S4000x2_1_0_0_1_n_n]; rfl
theorem lhsC_1 (j : S4000x2.Idx) (k : dot_S4000x32_S32x2_S4000x2_1_0_0_1_n_n.contr.Idx) :
    (dot_S4000x32_S32x2_S4000x2_1_0_0_1_n_n.lhsIdx j k 1 : ℕ) = k ⟨0, by decide⟩ := by
  simp [DotDims.lhsIdx, dot_S4000x32_S32x2_S4000x2_1_0_0_1_n_n]; rfl
theorem rhsC_0 (j : S4000x2.Idx) (k : dot_S4000x32_S32x2_S4000x2_1_0_0_1_n_n.contr.Idx) :
    (dot_S4000x32_S32x2_S4000x2_1_0_0_1_n_n.rhsIdx j k 0 : ℕ) = k ⟨0, by decide⟩ := by
  simp [DotDims.rhsIdx, dot_S4000x32_S32x2_S4000x2_1_0_0_1_n_n]; rfl
theorem rhsC_1 (j : S4000x2.Idx) (k : dot_S4000x32_S32x2_S4000x2_1_0_0_1_n_n.contr.Idx) :
    (dot_S4000x32_S32x2_S4000x2_1_0_0_1_n_n.rhsIdx j k 1 : ℕ) = j 1 := by
  simp [DotDims.rhsIdx, dot_S4000x32_S32x2_S4000x2_1_0_0_1_n_n]; rfl

/-- The product onto the zero accumulator, at a row and a column, is the sum over the contraction position. -/
theorem mmC_apply (a : FVec Ideal S4000x32 .bf16) (w : FVec Ideal S32x2 .bf16) (p : Fin 4000) (q : Fin 2) :
    matmul dot_S4000x32_S32x2_S4000x2_1_0_0_1_n_n none a w (constant (F := Ideal) S4000x2 .f32 0x00000000#32) (ix2 p q)
      = ∑ k : Fin 32, a (ix2 p k) * w (ix2 k q) := by
  show FloatOps.matmul dot_S4000x32_S32x2_S4000x2_1_0_0_1_n_n none a w (constant (F := Ideal) S4000x2 .f32 0x00000000#32) (ix2 p q) = _
  rw [Ideal.matmul_constant_zero_apply,
    ← Equiv.sum_comp (contrEquiv1 dot_S4000x32_S32x2_S4000x2_1_0_0_1_n_n 32 rfl rfl).symm]
  refine Finset.sum_congr rfl fun k _ => ?_
  have hl : dot_S4000x32_S32x2_S4000x2_1_0_0_1_n_n.lhsIdx (ix2 p q) ((contrEquiv1 dot_S4000x32_S32x2_S4000x2_1_0_0_1_n_n 32 rfl rfl).symm k) = ix2 p k := by
    funext a; apply Fin.ext
    match a with
    | ⟨0, _⟩ => exact lhsC_0 _ _
    | ⟨1, _⟩ => exact (lhsC_1 _ _).trans (contrEquiv1_symm_val dot_S4000x32_S32x2_S4000x2_1_0_0_1_n_n 32 rfl rfl k)
  have hr : dot_S4000x32_S32x2_S4000x2_1_0_0_1_n_n.rhsIdx (ix2 p q) ((contrEquiv1 dot_S4000x32_S32x2_S4000x2_1_0_0_1_n_n 32 rfl rfl).symm k) = ix2 k q := by
    funext a; apply Fin.ext
    match a with
    | ⟨0, _⟩ => exact (rhsC_0 _ _).trans (contrEquiv1_symm_val dot_S4000x32_S32x2_S4000x2_1_0_0_1_n_n 32 rfl rfl k)
    | ⟨1, _⟩ => exact rhsC_1 _ _
  rw [hl, hr]

/-! The pieces of one layer read at a row and a column. -/

/-- The scalar zero the rectifier compares with. -/
theorem zeroS : (Scalar.ofBits (F := Ideal) .f32 0x00000000#32 : Ideal .f32) = 0 := Ideal.ofBits_zero_f32

/-- A one-row bias of 32 columns spread over the 4000 rows reads its column. -/
theorem bias32_apply (b : Vec Ideal S1x32 .f32) (p : Fin 4000) (q : Fin 32) :
    broadcastTo S4000x32 (shapeCast S1x32 b shapeCasts_S1x32_S1x32) broadcasts_S1x32_S4000x32 (ix2 p q) = b (ix2 0 q) := by
  rw [shapeCast_self]
  refine broadcastTo_apply b _ (ix2 p q) (ix2 0 q) fun a => ?_
  match a with
  | ⟨0, _⟩ => rfl
  | ⟨1, _⟩ => rfl

/-- A one-row bias of 2 columns spread over the 4000 rows reads its column. -/
theorem bias2_apply (b : Vec Ideal S1x2 .f32) (p : Fin 4000) (q : Fin 2) :
    broadcastTo S4000x2 (shapeCast S1x2 b shapeCasts_S1x2_S1x2) broadcasts_S1x2_S4000x2 (ix2 p q) = b (ix2 0 q) := by
  rw [shapeCast_self]
  refine broadcastTo_apply b _ (ix2 p q) (ix2 0 q) fun a => ?_
  match a with
  | ⟨0, _⟩ => rfl
  | ⟨1, _⟩ => rfl

/-- The two four-column blocks side by side, read at a row and one of the eight columns. -/
theorem cat_apply (x y : Vec Ideal S4000x4 .f32) (p : Fin 4000) (k : Fin 8) :
    concatenate S4000x8 1 [⟨S4000x4, shapeCast S4000x4 x shapeCasts_S4000x4_S4000x4⟩,
        ⟨S4000x4, shapeCast S4000x4 y shapeCasts_S4000x4_S4000x4⟩] concatenates_S4000x4_S4000x4_S4000x8_d1 (ix2 p k)
      = Cert.Spec.cat44M (Cert.Spec.ofArr x) (Cert.Spec.ofArr y) p k := by
  simp only [shapeCast_self]
  unfold Cert.Spec.cat44M Cert.Spec.ofArr
  by_cases h : k.val < 4
  · rw [dif_pos h]
    exact concatenate_pair_apply_left 1 x y _ (ix2 p k) rfl (ix2 p ⟨k.val, h⟩)
      (fun b => by match b with | ⟨0, _⟩ => rfl | ⟨1, _⟩ => rfl)
  · rw [dif_neg h]
    refine concatenate_pair_apply_right 1 x y _ (ix2 p k) rfl rfl (ix2 p ⟨k.val - 4, by have := k.isLt; omega⟩)
      (fun b hb => by match b with | ⟨0, _⟩ => rfl | ⟨1, _⟩ => exact absurd rfl hb) ?_
    show k.val - 4 + 4 = k.val
    omega

/-- The first layer with its rectifier, at a row and a column: the linear layer of the specification, rectified. -/
theorem layerA_apply (a : FVec Ideal S4000x8 .f32) (w : Vec Ideal S8x32 .f32) (b : Vec Ideal S1x32 .f32) (p : Fin 4000) (q : Fin 32) :
    (maximumf (addf (matmul dot_S4000x8_S8x32_S4000x32_1_0_0_1_n_n none (truncf .bf16 a bitsLt_bf16_f32) (truncf .bf16 w bitsLt_bf16_f32)
          (constant (F := Ideal) S4000x32 .f32 0x00000000#32))
        (broadcastTo S4000x32 (shapeCast S1x32 b shapeCasts_S1x32_S1x32) broadcasts_S1x32_S4000x32))
      (broadcast S4000x32 (Scalar.ofBits (F := Ideal) .f32 0x00000000#32)) : FVec Ideal S4000x32 .f32) (ix2 p q)
    = Cert.Spec.reluM (Cert.Spec.linM (Cert.Spec.ofArr a) (Cert.Spec.ofArr w) (Cert.Spec.ofArr b 0)) p q := by
  rw [maximumf_apply, addf_apply, broadcast_apply, mmA_apply, bias32_apply, zeroS]
  rfl

/-- The second layer with its rectifier, at a row and a column. -/
theorem layerB_apply (a : FVec Ideal S4000x32 .f32) (w : Vec Ideal S32x32 .f32) (b : Vec Ideal S1x32 .f32) (p : Fin 4000) (q : Fin 32) :
    (maximumf (addf (matmul dot_S4000x32_S32x32_S4000x32_1_0_0_1_n_n none (truncf .bf16 a bitsLt_bf16_f32) (truncf .bf16 w bitsLt_bf16_f32)
          (constant (F := Ideal) S4000x32 .f32 0x00000000#32))
        (broadcastTo S4000x32 (shapeCast S1x32 b shapeCasts_S1x32_S1x32) broadcasts_S1x32_S4000x32))
      (broadcast S4000x32 (Scalar.ofBits (F := Ideal) .f32 0x00000000#32)) : FVec Ideal S4000x32 .f32) (ix2 p q)
    = Cert.Spec.reluM (Cert.Spec.linM (Cert.Spec.ofArr a) (Cert.Spec.ofArr w) (Cert.Spec.ofArr b 0)) p q := by
  rw [maximumf_apply, addf_apply, broadcast_apply, mmB_apply, bias32_apply, zeroS]
  rfl

/-- The third layer with its rectifier, at a row and a column. -/
theorem layerC_apply (a : FVec Ideal S4000x32 .f32) (w : Vec Ideal S32x2 .f32) (b : Vec Ideal S1x2 .f32) (p : Fin 4000) (q : Fin 2) :
    (maximumf (addf (matmul dot_S4000x32_S32x2_S4000x2_1_0_0_1_n_n none (truncf .bf16 a bitsLt_bf16_f32) (truncf .bf16 w bitsLt_bf16_f32)
          (constant (F := Ideal) S4000x2 .f32 0x00000000#32))
        (broadcastTo S4000x2 (shapeCast S1x2 b shapeCasts_S1x2_S1x2) broadcasts_S1x2_S4000x2))
      (broadcast S4000x2 (Scalar.ofBits (F := Ideal) .f32 0x00000000#32)) : FVec Ideal S4000x2 .f32) (ix2 p q)
    = Cert.Spec.reluM (Cert.Spec.linM (Cert.Spec.ofArr a) (Cert.Spec.ofArr w) (Cert.Spec.ofArr b 0)) p q := by
  rw [maximumf_apply, addf_apply, broadcast_apply, mmC_apply, bias2_apply, zeroS]
  rfl

/-- The tile's arithmetic is the encoder of the specification on the tile's 4000 rows. -/
theorem pay_eq (x0 x1 : Vec Ideal S4000x4 .f32) (x2 : Vec Ideal S8x32 .f32) (x3 : Vec Ideal S1x32 .f32) (x4 : Vec Ideal S32x32 .f32)
    (x5 : Vec Ideal S1x32 .f32) (x6 : Vec Ideal S32x2 .f32) (x7 : Vec Ideal S1x2 .f32) :
    k0_pay1 (F := Ideal) x0 x1 x2 x3 x4 x5 x6 x7 = Cert.Spec.enc x0 x1 x2 x3 x4 x5 x6 x7 := by
  funext j
  obtain ⟨p, q, rfl⟩ : ∃ (p : Fin 4000) (q : Fin 2), j = ix2 p q := ⟨j 0, j 1, eq_ix2 j⟩
  rw [Cert.Spec.enc_ix2]
  unfold k0_pay1 Cert.Spec.encM
  refine (layerC_apply _ x6 x7 p q).trans ?_
  refine congrFun (Cert.Spec.reluM_congr _ _ p p (Cert.Spec.linM_congr _ _ _ _ p p ?_)) q
  funext k2
  refine (layerB_apply _ x4 x5 p k2).trans ?_
  refine congrFun (Cert.Spec.reluM_congr _ _ p p (Cert.Spec.linM_congr _ _ _ _ p p ?_)) k2
  funext k1
  refine (layerA_apply _ x2 x3 p k1).trans ?_
  refine congrFun (Cert.Spec.reluM_congr _ _ p p (Cert.Spec.linM_congr _ _ _ _ p p ?_)) k1
  funext k0
  exact cat_apply x0 x1 p k0

/-! From the tiles to the whole arrays. -/

theorem hz : (![0, 0] : Fin 2 → Nat) = fun _ => 0 := funext fun a => by fin_cases a <;> rfl

/-- The encoder at a row depends on that row of the two edge inputs, and on the weights. -/
theorem enc_rows {E E' : Nat} (xi d : Cert.Spec.Arr2 E 4) (xi' d' : Cert.Spec.Arr2 E' 4)
    (w1 w1' : Cert.Spec.Arr2 8 32) (b1 b1' : Cert.Spec.Arr2 1 32) (w2 w2' : Cert.Spec.Arr2 32 32) (b2 b2' : Cert.Spec.Arr2 1 32)
    (w3 w3' : Cert.Spec.Arr2 32 2) (b3 b3' : Cert.Spec.Arr2 1 2) (e : Fin E) (e' : Fin E') (q : Fin 2)
    (hx : ∀ k : Fin 4, xi (ix2 e k) = xi' (ix2 e' k)) (hd : ∀ k : Fin 4, d (ix2 e k) = d' (ix2 e' k))
    (h1 : w1 = w1') (h2 : b1 = b1') (h3 : w2 = w2') (h4 : b2 = b2') (h5 : w3 = w3') (h6 : b3 = b3') :
    Cert.Spec.enc xi d w1 b1 w2 b2 w3 b3 (ix2 e q) = Cert.Spec.enc xi' d' w1' b1' w2' b2' w3' b3' (ix2 e' q) := by
  subst h1 h2 h3 h4 h5 h6
  rw [Cert.Spec.enc_ix2, Cert.Spec.enc_ix2]
  exact congrFun (Cert.Spec.encM_congr _ _ _ _ _ _ _ _ _ _ e e' (funext hx) (funext hd)) q

/-- The tiling, decided over the 800 tiles: the two edge windows and the output window are at block (t, 0), every
    weight and bias window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

section Region
variable (V : (c : Dev nD) → (b : Ref sig .tc) → Buf (Elt Ideal) ((c : Thread nD τ).loc b))

/-- Window 2's block at every tile is its whole array. -/
theorem wblk2 (c : Dev nD) (t : Fin cfg0.N) : (iblk0 V c 2 t : Vec Ideal S8x32 .f32) = V c main_arg4 := by
  funext y
  show V c main_arg4 (((cfg0.win 2).blk t).view.emb y) = V c main_arg4 y
  refine congrArg _ (funext fun a => Fin.ext ?_)
  obtain ⟨-, -, -, -, -, -, f2a, f2b, f3a, f3b, f4a, f4b, f5a, f5b, f6a, f6b, f7a, f7b⟩ := idx_facts t
  match a with
  | ⟨0, _⟩ => show win0_2.index t (0 : Fin 2) * 8 + 1 * (y 0).val = (y 0).val; omega
  | ⟨1, _⟩ => show win0_2.index t (1 : Fin 2) * 32 + 1 * (y 1).val = (y 1).val; omega

/-- Window 3's block at every tile is its whole array. -/
theorem wblk3 (c : Dev nD) (t : Fin cfg0.N) : (iblk0 V c 3 t : Vec Ideal S1x32 .f32) = V c main_v35 := by
  funext y
  show V c main_v35 (((cfg0.win 3).blk t).view.emb y) = V c main_v35 y
  refine congrArg _ (funext fun a => Fin.ext ?_)
  obtain ⟨-, -, -, -, -, -, f2a, f2b, f3a, f3b, f4a, f4b, f5a, f5b, f6a, f6b, f7a, f7b⟩ := idx_facts t
  match a with
  | ⟨0, _⟩ => show win0_3.index t (0 : Fin 2) * 1 + 1 * (y 0).val = (y 0).val; omega
  | ⟨1, _⟩ => show win0_3.index t (1 : Fin 2) * 32 + 1 * (y 1).val = (y 1).val; omega

/-- Window 4's block at every tile is its whole array. -/
theorem wblk4 (c : Dev nD) (t : Fin cfg0.N) : (iblk0 V c 4 t : Vec Ideal S32x32 .f32) = V c main_arg6 := by
  funext y
  show V c main_arg6 (((cfg0.win 4).blk t).view.emb y) = V c main_arg6 y
  refine congrArg _ (funext fun a => Fin.ext ?_)
  obtain ⟨-, -, -, -, -, -, f2a, f2b, f3a, f3b, f4a, f4b, f5a, f5b, f6a, f6b, f7a, f7b⟩ := idx_facts t
  match a with
  | ⟨0, _⟩ => show win0_4.index t (0 : Fin 2) * 32 + 1 * (y 0).val = (y 0).val; omega
  | ⟨1, _⟩ => show win0_4.index t (1 : Fin 2) * 32 + 1 * (y 1).val = (y 1).val; omega

/-- Window 5's block at every tile is its whole array. -/
theorem wblk5 (c : Dev nD) (t : Fin cfg0.N) : (iblk0 V c 5 t : Vec Ideal S1x32 .f32) = V c main_v36 := by
  funext y
  show V c main_v36 (((cfg0.win 5).blk t).view.emb y) = V c main_v36 y
  refine congrArg _ (funext fun a => Fin.ext ?_)
  obtain ⟨-, -, -, -, -, -, f2a, f2b, f3a, f3b, f4a, f4b, f5a, f5b, f6a, f6b, f7a, f7b⟩ := idx_facts t
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- Window 6's block at every tile is its whole array. -/
theorem wblk6 (c : Dev nD) (t : Fin cfg0.N) : (iblk0 V c 6 t : Vec Ideal S32x2 .f32) = V c main_arg8 := by
  funext y
  show V c main_arg8 (((cfg0.win 6).blk t).view.emb y) = V c main_arg8 y
  refine congrArg _ (funext fun a => Fin.ext ?_)
  obtain ⟨-, -, -, -, -, -, f2a, f2b, f3a, f3b, f4a, f4b, f5a, f5b, f6a, f6b, f7a, f7b⟩ := idx_facts t
  match a with
  | ⟨0, _⟩ => show win0_6.index t (0 : Fin 2) * 32 + 1 * (y 0).val = (y 0).val; omega
  | ⟨1, _⟩ => show win0_6.index t (1 : Fin 2) * 2 + 1 * (y 1).val = (y 1).val; omega

/-- Window 7's block at every tile is its whole array. -/
theorem wblk7 (c : Dev nD) (t : Fin cfg0.N) : (iblk0 V c 7 t : Vec Ideal S1x2 .f32) = V c main_v37 := by
  funext y
  show V c main_v37 (((cfg0.win 7).blk t).view.emb y) = V c main_v37 y
  refine congrArg _ (funext fun a => Fin.ext ?_)
  obtain ⟨-, -, -, -, -, -, f2a, f2b, f3a, f3b, f4a, f4b, f5a, f5b, f6a, f6b, f7a, f7b⟩ := idx_facts t
  match a with
  | ⟨0, _⟩ => show win0_7.index t (0 : Fin 2) * 1 + 1 * (y 0).val = (y 0).val; omega
  | ⟨1, _⟩ => show win0_7.index t (1 : Fin 2) * 2 + 1 * (y 1).val = (y 1).val; omega

/-- Row y of tile t's block of window 0 is row 4000·t + y of its array. -/
theorem eblk0 (c : Dev nD) (t : Fin cfg0.N) (p : Fin 4000) (k : Fin 4) (ht : 4000 * t.val + p.val < 3200000) :
    (iblk0 V c 0 t : Vec Ideal S4000x4 .f32) (ix2 p k) = (V c main_v32 : Vec Ideal S3200000x4 .f32) (ix2 ⟨4000 * t.val + p.val, ht⟩ k) := by
  show V c main_v32 (((cfg0.win 0).blk t).view.emb (ix2 p k)) = V c main_v32 (ix2 ⟨4000 * t.val + p.val, ht⟩ k)
  refine congrArg _ (funext fun a => Fin.ext ?_)
  obtain ⟨e0a, e0b, -⟩ := idx_facts t
  match a with
  | ⟨0, _⟩ => show win0_0.index t (0 : Fin 2) * 4000 + 1 * p.val = 4000 * t.val + p.val; omega
  | ⟨1, _⟩ => show win0_0.index t (1 : Fin 2) * 4 + 1 * k.val = k.val; omega

/-- Row y of tile t's block of window 1 is row 4000·t + y of its array. -/
theorem eblk1 (c : Dev nD) (t : Fin cfg0.N) (p : Fin 4000) (k : Fin 4) (ht : 4000 * t.val + p.val < 3200000) :
    (iblk0 V c 1 t : Vec Ideal S4000x4 .f32) (ix2 p k) = (V c main_v34 : Vec Ideal S3200000x4 .f32) (ix2 ⟨4000 * t.val + p.val, ht⟩ k) := by
  show V c main_v34 (((cfg0.win 1).blk t).view.emb (ix2 p k)) = V c main_v34 (ix2 ⟨4000 * t.val + p.val, ht⟩ k)
  refine congrArg _ (funext fun a => Fin.ext ?_)
  obtain ⟨-, -, e0a, e0b, -⟩ := idx_facts t
  match a with
  | ⟨0, _⟩ => show win0_1.index t (0 : Fin 2) * 4000 + 1 * p.val = 4000 * t.val + p.val; omega
  | ⟨1, _⟩ => show win0_1.index t (1 : Fin 2) * 4 + 1 * k.val = k.val; omega

/-- The encoder of the whole arrays the region's windows read. -/
abbrev G (c : Dev nD) : Cert.Spec.Arr2 3200000 2 :=
  Cert.Spec.enc (V c main_v32) (V c main_v34) (V c main_arg4) (V c main_v35) (V c main_arg6) (V c main_v36) (V c main_arg8) (V c main_v37)

/-- The encoder of tile t's blocks, at row y, is the encoder of the whole arrays at row 4000·t + y. -/
theorem tile_eq (c : Dev nD) (t : Fin cfg0.N) (p : Fin 4000) (q : Fin 2) (ht : 4000 * t.val + p.val < 3200000) :
    Cert.Spec.enc (iblk0 V c 0 t) (iblk0 V c 1 t) (iblk0 V c 2 t) (iblk0 V c 3 t) (iblk0 V c 4 t) (iblk0 V c 5 t) (iblk0 V c 6 t) (iblk0 V c 7 t) (ix2 p q)
      = G V c (ix2 ⟨4000 * t.val + p.val, ht⟩ q) :=
  enc_rows _ _ _ _ _ _ _ _ _ _ _ _ _ _ _ _ p ⟨4000 * t.val + p.val, ht⟩ q (fun k => eblk0 V c t p k ht) (fun k => eblk1 V c t p k ht)
    (wblk2 V c t) (wblk3 V c t) (wblk4 V c t) (wblk5 V c t) (wblk6 V c t) (wblk7 V c t)

/-- What tile t writes back is block t of the encoder of the whole arrays. -/
theorem flushed_eq (c : Dev nD) (t : Fin cfg0.N) :
    (dat0 (F := Ideal) V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S4000x4) hz, View.ld_unit_zero (S := S8x32) hz, View.ld_unit_zero (S := S1x32) hz,
    View.ld_unit_zero (S := S32x32) hz, View.ld_unit_zero (S := S32x2) hz, View.ld_unit_zero (S := S1x2) hz]
  rw [pay_eq]
  funext j
  obtain ⟨p, q, rfl⟩ : ∃ (p : Fin 4000) (q : Fin 2), j = ix2 p q := ⟨j 0, j 1, eq_ix2 j⟩
  have hN : cfg0.N = 800 := N_0
  have ht : 4000 * t.val + p.val < 3200000 := by have := t.isLt; have := p.isLt; omega
  refine (tile_eq V c t p q ht).trans ?_
  show G V c (ix2 ⟨4000 * t.val + p.val, ht⟩ q) = G V c (((cfg0.win 8).blk t).view.emb (ix2 p q))
  refine congrArg _ (funext fun a => Fin.ext ?_)
  obtain ⟨-, -, -, -, e8a, e8b, -⟩ := idx_facts t
  match a with
  | ⟨0, _⟩ => show 4000 * t.val + p.val = win0_8.index t (0 : Fin 2) * 4000 + 1 * p.val; omega
  | ⟨1, _⟩ => show q.val = win0_8.index t (1 : Fin 2) * 2 + 1 * q.val; omega

/-- An index of the output array is in tile t's block iff each coordinate is in the block's range on its axis. -/
theorem mem_blk (t : Fin cfg0.N) (i : S3200000x2.Idx) :
    i ∈ ((cfg0.win 8).blk t).view.set ↔ ∀ a : Fin 2, win0_8.index t a * S4000x2.size a ≤ (i a).val ∧ (i a).val < win0_8.index t a * S4000x2.size a + S4000x2.size a := by
  show i ∈ ((View.whole main_v38).slice (win0_8.rect t)).set ↔ _
  rw [View.set_slice_whole, Rect.mem_set_unit]
  exact Iff.rfl

/-- The tiles cover the output array: row e is in tile e / 4000. -/
theorem cover (i : S3200000x2.Idx) : ∃ t : Fin cfg0.N, (cfg0.win 8).flush t = true ∧ i ∈ ((cfg0.win 8).blk t).view.set := by
  have hi0 : (i 0).val < 3200000 := (i 0).isLt
  have hi1 : (i 1).val < 2 := (i 1).isLt
  have hN : cfg0.N = 800 := N_0
  have hlt : (i 0).val / 4000 < cfg0.N := by rw [hN]; omega
  refine ⟨⟨(i 0).val / 4000, hlt⟩, flush0_8 _, ?_⟩
  rw [mem_blk]
  obtain ⟨-, -, -, -, e8a, e8b, -⟩ := idx_facts ⟨(i 0).val / 4000, hlt⟩
  intro a
  match a with
  | ⟨0, _⟩ =>
    show win0_8.index ⟨(i 0).val / 4000, hlt⟩ (0 : Fin 2) * 4000 ≤ (i 0).val ∧ (i 0).val < win0_8.index ⟨(i 0).val / 4000, hlt⟩ (0 : Fin 2) * 4000 + 4000
    rw [e8a]; show (i 0).val / 4000 * 4000 ≤ (i 0).val ∧ (i 0).val < (i 0).val / 4000 * 4000 + 4000; omega
  | ⟨1, _⟩ =>
    show win0_8.index ⟨(i 0).val / 4000, hlt⟩ (1 : Fin 2) * 2 ≤ (i 1).val ∧ (i 1).val < win0_8.index ⟨(i 0).val / 4000, hlt⟩ (1 : Fin 2) * 2 + 2
    rw [e8b]; omega

end Region

/-- After the region, its output array is the encoder of the arrays its windows read, whatever the entry contents. -/
theorem value (V : (c : Dev nD) → (b : Ref sig .tc) → Buf (Elt Ideal) ((c : Thread nD τ).loc b)) (c : Dev nD) :
    (dat0 (F := Ideal) V c).arrAt 8 cfg0.N
      = Cert.Spec.enc (V c main_v32) (V c main_v34) (V c main_arg4) (V c main_v35) (V c main_arg6) (V c main_v36)
          (V c main_arg8) (V c main_v37) := by
  exact (dat0 (F := Ideal) V c).arrAt_eq_of_cover 8 (G V c) (fun t _ => flushed_eq V c t) cover

end Cert.KRegion0

end
-- ==== Proof.KRegion1.lean ====
/-
  The second tiled network stage, as one function of whole arrays: every tile of 4000 edges is the decoder on those
  4000 rows, a row's result depends on that row only, and the 800 tiles cover the edge array.
-/
import proofs.«403383_j8177617731794_1_alg».proof.Proof.Gen.KernelIdeal.Frame
import proofs.«403383_j8177617731794_1_alg».proof.Proof.Spec
import Idealize.ShloMosaic.Lib.StackMember
import Idealize.ShloMosaic.Lib.ValueLayout
import Idealize.ShloMosaic.Lib.Pipeline.Value

set_option maxRecDepth 16384

noncomputable section

namespace Cert.KRegion1

open Idealize.ShloMosaic Idealize.ShloMosaic.TcCoe Idealize.SL.Sem Idealize.ShloMosaic.ValueIdx
open Idealize.ShloMosaic.Pipeline (Dat Cfg Window)
open Cert.KernelIdeal Cert.KernelIdeal.Gen
open Cert.Spec (Arr2 Mat ofArr toArr linM reluM cat22M decM dec)
open scoped BigOperators

/-! ## The tile's arithmetic is the decoder on 4000 rows -/

/-- Reading an array built from a matrix gives the matrix back. -/
private theorem ofArr_toArr {a b : Nat} (m : Mat a b) : ofArr (toArr m) = m := rfl

/-- One linear layer of the tile: the product with the weights onto zero, plus the bias row laid along every row. -/
private def layer {m k n : Nat} (D : DotDims ⟨2, ![m, k]⟩ ⟨2, ![k, n]⟩ ⟨2, ![m, n]⟩)
    (A : FVec Ideal ⟨2, ![m, k]⟩ .f32) (W : FVec Ideal ⟨2, ![k, n]⟩ .f32) (b : FVec Ideal ⟨2, ![1, n]⟩ .f32)
    (hlt : FTy.bits .bf16 < FTy.bits .f32) (hs : (⟨2, ![1, n]⟩ : Shape).ShapeCasts ⟨2, ![1, n]⟩)
    (hb : (⟨2, ![1, n]⟩ : Shape).Broadcasts ⟨2, ![m, n]⟩) : FVec Ideal ⟨2, ![m, n]⟩ .f32 :=
  addf (matmul D none (truncf .bf16 A hlt) (truncf .bf16 W hlt) (constant (F := Ideal) ⟨2, ![m, n]⟩ .f32 0x00000000#32))
    (broadcastTo ⟨2, ![m, n]⟩ (shapeCast ⟨2, ![1, n]⟩ b hs) hb)

/-- The rectifier of the tile: the maximum with the zero splat. -/
private def relu {m n : Nat} (X : FVec Ideal ⟨2, ![m, n]⟩ .f32) : FVec Ideal ⟨2, ![m, n]⟩ .f32 :=
  maximumf X (broadcast ⟨2, ![m, n]⟩ (Scalar.ofBits (F := Ideal) .f32 0x00000000#32))

/-- A layer is the specification's linear layer: the product onto zero is the sum over the contracted column, a change of
    format is the identity, the bias row is read at its column. -/
private theorem layer_eq {m k n : Nat} (D : DotDims ⟨2, ![m, k]⟩ ⟨2, ![k, n]⟩ ⟨2, ![m, n]⟩) (hD : D = DotDims.plain m k n)
    (A : FVec Ideal ⟨2, ![m, k]⟩ .f32) (W : FVec Ideal ⟨2, ![k, n]⟩ .f32) (b : FVec Ideal ⟨2, ![1, n]⟩ .f32)
    (hlt : FTy.bits .bf16 < FTy.bits .f32) (hs : (⟨2, ![1, n]⟩ : Shape).ShapeCasts ⟨2, ![1, n]⟩)
    (hb : (⟨2, ![1, n]⟩ : Shape).Broadcasts ⟨2, ![m, n]⟩) :
    layer D A W b hlt hs hb = toArr (linM (ofArr A) (ofArr W) (ofArr b 0)) := by
  subst hD
  funext j
  obtain ⟨p, q, rfl⟩ : ∃ (p : Fin m) (q : Fin n), j = ix2 p q := ⟨j 0, j 1, eq_ix2 j⟩
  rw [Cert.Spec.toArr_ix2]
  unfold layer
  rw [addf_apply, matmul_zero_eq_dotGeneral, StackMember.dotGeneral_plain_apply, shapeCast_self,
    broadcastTo_1b_ab_apply]
  rfl

/-- The rectifier is the specification's. -/
private theorem relu_eq {m n : Nat} (X : FVec Ideal ⟨2, ![m, n]⟩ .f32) : relu X = toArr (reluM (ofArr X)) := by
  funext j
  obtain ⟨p, q, rfl⟩ : ∃ (p : Fin m) (q : Fin n), j = ix2 p q := ⟨j 0, j 1, eq_ix2 j⟩
  rw [Cert.Spec.toArr_ix2]
  unfold relu
  rw [maximumf_apply, broadcast_apply]
  show max (X (ix2 p q)) (Ideal.ofBits .f32 0x00000000#32) = max (X (ix2 p q)) 0
  rw [Ideal.ofBits_zero_f32]

/-- Two two-column tiles side by side are the specification's concatenation. -/
private theorem cat_eq {m : Nat} (x y : FVec Ideal ⟨2, ![m, 2]⟩ .f32)
    (hs : (⟨2, ![m, 2]⟩ : Shape).ShapeCasts ⟨2, ![m, 2]⟩)
    (hc : Shape.Concatenates [(⟨2, ![m, 2]⟩ : Shape), ⟨2, ![m, 2]⟩] ⟨2, ![m, 4]⟩ 1) :
    concatenate ⟨2, ![m, 4]⟩ 1 [⟨⟨2, ![m, 2]⟩, shapeCast ⟨2, ![m, 2]⟩ x hs⟩, ⟨⟨2, ![m, 2]⟩, shapeCast ⟨2, ![m, 2]⟩ y hs⟩] hc
      = toArr (cat22M (ofArr x) (ofArr y)) := by
  funext j
  obtain ⟨p, q, rfl⟩ : ∃ (p : Fin m) (q : Fin 4), j = ix2 p q := ⟨j 0, j 1, eq_ix2 j⟩
  rw [Cert.Spec.toArr_ix2, shapeCast_self, shapeCast_self]
  unfold cat22M
  by_cases h : q.val < 2
  · rw [dif_pos h]
    exact concatenate_pair_apply_left (t := ⟨2, ![m, 4]⟩) (s₁ := ⟨2, ![m, 2]⟩) (s₂ := ⟨2, ![m, 2]⟩) (1 : Fin 2) _ _ hc _ rfl
      (ix2 p (⟨q.val, h⟩ : Fin 2)) (by
        intro b
        match b with
        | ⟨0, _⟩ => rfl
        | ⟨1, _⟩ => rfl)
  · rw [dif_neg h]
    exact concatenate_pair_apply_right (t := ⟨2, ![m, 4]⟩) (s₁ := ⟨2, ![m, 2]⟩) (s₂ := ⟨2, ![m, 2]⟩) (1 : Fin 2) _ _ hc _ rfl rfl
      (ix2 p (⟨q.val - 2, by have := q.isLt; omega⟩ : Fin 2)) (by
        intro b hb
        match b with
        | ⟨0, _⟩ => rfl
        | ⟨1, _⟩ => exact absurd rfl hb) (by
        show q.val - 2 + 2 = q.val; omega)

private theorem rec1 : dot_S4000x4_S4x32_S4000x32_1_0_0_1_n_n = DotDims.plain 4000 4 32 := rfl
private theorem rec2 : dot_S4000x32_S32x32_S4000x32_1_0_0_1_n_n = DotDims.plain 4000 32 32 := rfl
private theorem rec3 : dot_S4000x32_S32x4_S4000x4_1_0_0_1_n_n = DotDims.plain 4000 32 4 := rfl

/-- The tile's arithmetic, layer by layer. -/
private theorem pay_layers (x0 x1 : Vec Ideal S4000x2 .f32) (x2 : Vec Ideal S4x32 .f32) (x3 : Vec Ideal S1x32 .f32)
    (x4 : Vec Ideal S32x32 .f32) (x5 : Vec Ideal S1x32 .f32) (x6 : Vec Ideal S32x4 .f32) (x7 : Vec Ideal S1x4 .f32) :
    k1_pay1 (F := Ideal) x0 x1 x2 x3 x4 x5 x6 x7
      = layer dot_S4000x32_S32x4_S4000x4_1_0_0_1_n_n
          (relu (layer dot_S4000x32_S32x32_S4000x32_1_0_0_1_n_n
            (relu (layer dot_S4000x4_S4x32_S4000x32_1_0_0_1_n_n
              (concatenate S4000x4 1 [⟨S4000x2, shapeCast S4000x2 x0 Gen.shapeCasts_S4000x2_S4000x2⟩,
                ⟨S4000x2, shapeCast S4000x2 x1 Gen.shapeCasts_S4000x2_S4000x2⟩] Gen.concatenates_S4000x2_S4000x2_S4000x4_d1)
              x2 x3 Gen.bitsLt_bf16_f32 Gen.shapeCasts_S1x32_S1x32 Gen.broadcasts_S1x32_S4000x32))
            x4 x5 Gen.bitsLt_bf16_f32 Gen.shapeCasts_S1x32_S1x32 Gen.broadcasts_S1x32_S4000x32))
          x6 x7 Gen.bitsLt_bf16_f32 Gen.shapeCasts_S1x4_S1x4 Gen.broadcasts_S1x4_S4000x4 := rfl

/-- THE TILE IS THE DECODER on its 4000 rows. -/
theorem pay_eq (x0 x1 : Vec Ideal S4000x2 .f32) (x2 : Vec Ideal S4x32 .f32) (x3 : Vec Ideal S1x32 .f32)
    (x4 : Vec Ideal S32x32 .f32) (x5 : Vec Ideal S1x32 .f32) (x6 : Vec Ideal S32x4 .f32) (x7 : Vec Ideal S1x4 .f32) :
    k1_pay1 (F := Ideal) x0 x1 x2 x3 x4 x5 x6 x7 = dec x0 x1 x2 x3 x4 x5 x6 x7 := by
  rw [pay_layers, layer_eq _ rec3, relu_eq, layer_eq _ rec2, relu_eq, layer_eq _ rec1, cat_eq]
  simp only [ofArr_toArr]
  rfl

/-! ## From tiles to the array -/

private theorem hz : (![0, 0] : Fin 2 → Nat) = fun _ => 0 := funext fun a => by fin_cases a <;> rfl

/-- The index maps over the grid: the two edge windows and the output window sit at row block `t`, column block 0; the
    weights and biases are whole arrays at block 0. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

section Blocks

variable (V : (c : Dev nD) → (b : Ref sig .tc) → Buf (Elt Ideal) ((c : Thread nD τ).loc b))

/-- Row `p` of the first edge window's block at point `t` is row `4000 t + p` of its array. -/
private theorem blk0_apply (c : Dev nD) (t : Fin cfg1.N) (p : Fin 4000) (k : Fin 2) (r : Fin 3200000)
    (hr : r.val = 4000 * t.val + p.val) :
    (iblk1 (F := Ideal) V c 0 t : Vec Ideal S4000x2 .f32) (ix2 p k) = (V c main_v44 : S3200000x2.Idx → EReal) (ix2 r k) := by
  obtain ⟨e0, e1, -⟩ := idx_facts t
  unfold iblk1
  rw [View.read_apply]
  show V c main_v44 _ = V c main_v44 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 2 + 1 * k.val = k.val; rw [e1]; omega

/-- The same for the second edge window. -/
private theorem blk1_apply (c : Dev nD) (t : Fin cfg1.N) (p : Fin 4000) (k : Fin 2) (r : Fin 3200000)
    (hr : r.val = 4000 * t.val + p.val) :
    (iblk1 (F := Ideal) V c 1 t : Vec Ideal S4000x2 .f32) (ix2 p k) = (V c main_v46 : S3200000x2.Idx → EReal) (ix2 r k) := by
  obtain ⟨-, -, e0, e1, -⟩ := idx_facts t
  unfold iblk1
  rw [View.read_apply]
  show V c main_v46 _ = V c main_v46 _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 2 + 1 * k.val = k.val; rw [e1]; omega

/-- A weight or bias window's block is its whole array at every point. -/
private theorem blk2_eq (c : Dev nD) (t : Fin cfg1.N) :
    (iblk1 (F := Ideal) V c 2 t : Vec Ideal S4x32 .f32) = (V c main_arg10 : S4x32.Idx → EReal) := by
  obtain ⟨-, -, -, -, -, -, e0, e1, -⟩ := idx_facts t
  unfold iblk1
  funext y
  rw [View.read_apply]
  show V c main_arg10 _ = V c main_arg10 y
  congr 1
  funext a
  apply Fin.ext
  match a with
  | ⟨0, _⟩ => show win1_2.index t (0 : Fin 2) * 4 + 1 * (y 0).val = (y 0).val; rw [e0]; omega
  | ⟨1, _⟩ => show win1_2.index t (1 : Fin 2) * 32 + 1 * (y 1).val = (y 1).val; rw [e1]; omega

private theorem blk3_eq (c : Dev nD) (t : Fin cfg1.N) :
    (iblk1 (F := Ideal) V c 3 t : Vec Ideal S1x32 .f32) = (V c main_v47 : S1x32.Idx → EReal) := by
  obtain ⟨-, -, -, -, -, -, -, -, e0, e1, -⟩ := idx_facts t
  unfold iblk1
  funext y
  rw [View.read_apply]
  show V c main_v47 _ = V c main_v47 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega

private theorem blk4_eq (c : Dev nD) (t : Fin cfg1.N) :
    (iblk1 (F := Ideal) V c 4 t : Vec Ideal S32x32 .f32) = (V c main_arg12 : S32x32.Idx → EReal) := by
  obtain ⟨-, -, -, -, -, -, -, -, -, -, e0, e1, -⟩ := idx_facts t
  unfold iblk1
  funext y
  rw [View.read_apply]
  show V c main_arg12 _ = V c main_arg12 y
  congr 1
  funext a
  apply Fin.ext
  match a with
  | ⟨0, _⟩ => show win1_4.index t (0 : Fin 2) * 32 + 1 * (y 0).val = (y 0).val; rw [e0]; omega
  | ⟨1, _⟩ => show win1_4.index t (1 : Fin 2) * 32 + 1 * (y 1).val = (y 1).val; rw [e1]; omega

private theorem blk5_eq (c : Dev nD) (t : Fin cfg1.N) :
    (iblk1 (F := Ideal) V c 5 t : Vec Ideal S1x32 .f32) = (V c main_v48 : S1x32.Idx → EReal) := by
  obtain ⟨-, -, -, -, -, -, -, -, -, -, -, -, e0, e1, -⟩ := idx_facts t
  unfold iblk1
  funext y
  rw [View.read_apply]
  show V c main_v48 _ = V c main_v48 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 32 + 1 * (y 1).val = (y 1).val; rw [e1]; omega

private theorem blk6_eq (c : Dev nD) (t : Fin cfg1.N) :
    (iblk1 (F := Ideal) V c 6 t : Vec Ideal S32x4 .f32) = (V c main_arg14 : S32x4.Idx → EReal) := by
  obtain ⟨-, -, -, -, -, -, -, -, -, -, -, -, -, -, e0, e1, -⟩ := idx_facts t
  unfold iblk1
  funext y
  rw [View.read_apply]
  show V c main_arg14 _ = V c main_arg14 y
  congr 1
  funext a
  apply Fin.ext
  match a with
  | ⟨0, _⟩ => show win1_6.index t (0 : Fin 2) * 32 + 1 * (y 0).val = (y 0).val; rw [e0]; omega
  | ⟨1, _⟩ => show win1_6.index t (1 : Fin 2) * 4 + 1 * (y 1).val = (y 1).val; rw [e1]; omega

private theorem blk7_eq (c : Dev nD) (t : Fin cfg1.N) :
    (iblk1 (F := Ideal) V c 7 t : Vec Ideal S1x4 .f32) = (V c main_v49 : S1x4.Idx → EReal) := by
  obtain ⟨-, -, -, -, -, -, -, -, -, -, -, -, -, -, -, -, e0, e1⟩ := idx_facts t
  unfold iblk1
  funext y
  rw [View.read_apply]
  show V c main_v49 _ = V c main_v49 y
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 4 + 1 * (y 1).val = (y 1).val; rw [e1]; omega

/-- A tile whose row `p` is row `4000 t + p` of an array is the output window's block `t` of that array. -/
private theorem cut_eq_read (t : Fin cfg1.N) (X : S4000x4.Idx → EReal) (Y : S3200000x4.Idx → EReal)
    (h : ∀ (p : Fin 4000) (q : Fin 4) (r : Fin 3200000), r.val = 4000 * t.val + p.val → X (ix2 p q) = Y (ix2 r q)) :
    (cfg1.win 8).cut (grid1.coords t) X = ((cfg1.win 8).blk t).view.read (Elt Ideal) Y := by
  obtain ⟨-, -, -, -, e0, e1, -⟩ := idx_facts t
  have hN : cfg1.N = 800 := N_1
  funext j
  obtain ⟨p, q, rfl⟩ : ∃ (p : Fin 4000) (q : Fin 4), j = ix2 p q := ⟨j 0, j 1, eq_ix2 j⟩
  have hr : 4000 * t.val + p.val < 3200000 := by have := t.isLt; have := p.isLt; omega
  rw [View.read_apply]
  show X (ix2 p q) = Y _
  refine (h p q ⟨_, hr⟩ rfl).trans ?_
  congr 1
  funext a
  apply Fin.ext
  match a with
  | ⟨0, _⟩ => show 4000 * t.val + p.val = win1_8.index t (0 : Fin 2) * 4000 + 1 * p.val; rw [e0]; omega
  | ⟨1, _⟩ => show q.val = win1_8.index t (1 : Fin 2) * 4 + 1 * q.val; rw [e1]; omega

/-- WHAT POINT `t` WRITES BACK is block `t` of the decoder of the whole arrays. -/
private theorem flushed_eq (c : Dev nD) (t : Fin cfg1.N) :
    (dat1 (F := Ideal) V c).flushed 8 t
      = ((cfg1.win 8).blk t).view.read (Elt Ideal)
          (dec (V c main_v44) (V c main_v46) (V c main_arg10) (V c main_v47) (V c main_arg12) (V c main_v48)
            (V c main_arg14) (V c main_v49)) := by
  show (cfg1.win 8).cut (grid1.coords t) ((dat1 (F := Ideal) V c).after 8 t) = _
  rw [after1_8]
  unfold out1_8
  rw [View.canon_unit_zero hz]
  simp only [View.ld_unit_zero (S := S4000x2) hz, View.ld_unit_zero (S := S4x32) hz, View.ld_unit_zero (S := S1x32) hz,
    View.ld_unit_zero (S := S32x32) hz, View.ld_unit_zero (S := S32x4) hz, View.ld_unit_zero (S := S1x4) hz]
  rw [pay_eq, blk2_eq, blk3_eq, blk4_eq, blk5_eq, blk6_eq, blk7_eq]
  refine cut_eq_read t _ _ fun p q r hr => ?_
  rw [Cert.Spec.dec_ix2, Cert.Spec.dec_ix2]
  refine congrFun (Cert.Spec.decM_congr _ _ _ _ _ _ _ _ _ _ p r ?_ ?_) q
  · funext k; exact blk0_apply V c t p k r hr
  · funext k; exact blk1_apply V c t p k r hr

/-- An index of the output array is in point `t`'s block iff each coordinate is in the block's range on its axis. -/
private theorem mem_blk (t : Fin cfg1.N) (i : S3200000x4.Idx) :
    i ∈ ((cfg1.win 8).blk t).view.set ↔ ∀ a : Fin 2, win1_8.index t a * S4000x4.size a ≤ (i a).val ∧ (i a).val < win1_8.index t a * S4000x4.size a + S4000x4.size a := by
  show i ∈ ((View.whole main_v50).slice (win1_8.rect t)).set ↔ _
  rw [View.set_slice_whole, Rect.mem_set_unit]
  exact Iff.rfl

/-- Every row of the output array is in the block of the point its row number divided by 4000 names. -/
private theorem cover (i : S3200000x4.Idx) :
    ∃ t : Fin cfg1.N, (cfg1.win 8).flush t = true ∧ i ∈ ((cfg1.win 8).blk t).view.set := by
  have hi0 : (i 0).val < 3200000 := (i 0).isLt
  have hi1 : (i 1).val < 4 := (i 1).isLt
  have hN : cfg1.N = 800 := N_1
  obtain ⟨t, ht⟩ : ∃ t : Fin cfg1.N, t.val = (i 0).val / 4000 := ⟨⟨(i 0).val / 4000, by rw [hN]; omega⟩, rfl⟩
  obtain ⟨-, -, -, -, e0, e1, -⟩ := idx_facts t
  refine ⟨t, flush1_8 t, ?_⟩
  rw [mem_blk]
  intro a
  match a with
  | ⟨0, _⟩ => show win1_8.index t (0 : Fin 2) * 4000 ≤ (i 0).val ∧ (i 0).val < win1_8.index t (0 : Fin 2) * 4000 + 4000; rw [e0]; omega
  | ⟨1, _⟩ => show win1_8.index t (1 : Fin 2) * 4 ≤ (i 1).val ∧ (i 1).val < win1_8.index t (1 : Fin 2) * 4 + 4; rw [e1]; omega

end Blocks

/-- After the region, its output array is the decoder of the arrays its windows read, whatever the entry contents. -/
theorem value (V : (c : Dev nD) → (b : Ref sig .tc) → Buf (Elt Ideal) ((c : Thread nD τ).loc b)) (c : Dev nD) :
    (dat1 (F := Ideal) V c).arrAt 8 cfg1.N
      = Cert.Spec.dec (V c main_v44) (V c main_v46) (V c main_arg10) (V c main_v47) (V c main_arg12) (V c main_v48)
          (V c main_arg14) (V c main_v49) := by
  exact (dat1 (F := Ideal) V c).arrAt_eq_of_cover 8 _ (fun t _ => flushed_eq V c t) cover

end Cert.KRegion1

end
-- ==== Proof.KVal.lean ====
/-
  The kernel program's result buffer at the end of the run, read back through the host stretches and the two tiled
  stages to the launch contents of the sixteen arguments.
-/
import proofs.«403383_j8177617731794_1_alg».proof.Proof.Gen.KernelIdeal.Frame
import proofs.«403383_j8177617731794_1_alg».proof.Proof.KStage
import proofs.«403383_j8177617731794_1_alg».proof.Proof.KRegion0
import proofs.«403383_j8177617731794_1_alg».proof.Proof.KRegion1

set_option maxRecDepth 16384

noncomputable section

namespace Cert.KVal

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## What each host stretch writes, and what it therefore keeps -/

/-- The buffers the stretch `hostOps0` writes, in order. -/
private abbrev L0 : List (Ref sig .tc) :=
  [main_v0, main_v1, main_v2, main_v3, main_cst, main_v4, main_cst_0, main_v5, main_v6, main_c]
/-- The buffers the stretch `hostOps0_1` writes, in order. -/
private abbrev L1 : List (Ref sig .tc) :=
  [main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_cst_3, main_call0_v12, main_call0_cst_4, main_call0_call0_v0,
   main_call0_call0_v1, main_v7]
/-- The buffers the stretch `hostOps0_2` writes, in order. -/
private abbrev L2 : List (Ref sig .tc) :=
  [main_v8, main_v9, main_v10, main_cst_1, main_v11, main_v12, main_v13, main_v14, main_v15, main_v16, main_v17,
   main_v18, main_v19, main_v20, main_v21, main_v22, main_cst_2, main_v23, main_cst_3, main_v24, main_v25,
   main_v26, main_cst_4, main_v27, main_v28, main_cst_5, main_v29, main_v30, main_v31]
/-- The buffers the stretch `hostOps0_3` writes, in order. -/
private abbrev L3 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v32]
/-- The buffers the stretch `hostOps0_4` writes, in order. -/
private abbrev L4 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v33]
/-- The buffers the stretch `hostOps0_5` writes, in order. -/
private abbrev L5 : List (Ref sig .tc) :=
  [main_v34, main_v35, main_v36, main_v37]
/-- The buffers the stretch `hostOps1` writes, in order. -/
private abbrev L6 : List (Ref sig .tc) :=
  [main_cst_6, main_v39, main_v40, main_v41, main_v42, main_v43]
/-- The buffers the stretch `hostOps1_1` writes, in order. -/
private abbrev L7 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v44]
/-- The buffers the stretch `hostOps1_2` writes, in order. -/
private abbrev L8 : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v45]
/-- The buffers the stretch `hostOps1_3` writes, in order. -/
private abbrev L9 : List (Ref sig .tc) :=
  [main_v46, main_v47, main_v48, main_v49]

private theorem writes_L0 : (hostOps0 : List (HloOp τ sig (Elt Ideal))).Forall fun op =>
    op.writes ⊆ (L0.map (Proc.devRef (τ := τ) .tc)).toFinset := by
  simp only [hostOps0, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L1 : (hostOps0_1 : List (HloOp τ sig (Elt Ideal))).Forall fun op =>
    op.writes ⊆ (L1.map (Proc.devRef (τ := τ) .tc)).toFinset := by
  simp only [hostOps0_1, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L2 : (hostOps0_2 : List (HloOp τ sig (Elt Ideal))).Forall fun op =>
    op.writes ⊆ (L2.map (Proc.devRef (τ := τ) .tc)).toFinset := by
  simp only [hostOps0_2, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L3 : (hostOps0_3 : List (HloOp τ sig (Elt Ideal))).Forall fun op =>
    op.writes ⊆ (L3.map (Proc.devRef (τ := τ) .tc)).toFinset := by
  simp only [hostOps0_3, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L4 : (hostOps0_4 : List (HloOp τ sig (Elt Ideal))).Forall fun op =>
    op.writes ⊆ (L4.map (Proc.devRef (τ := τ) .tc)).toFinset := by
  simp only [hostOps0_4, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L5 : (hostOps0_5 : List (HloOp τ sig (Elt Ideal))).Forall fun op =>
    op.writes ⊆ (L5.map (Proc.devRef (τ := τ) .tc)).toFinset := by
  simp only [hostOps0_5, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L6 : (hostOps1 : List (HloOp τ sig (Elt Ideal))).Forall fun op =>
    op.writes ⊆ (L6.map (Proc.devRef (τ := τ) .tc)).toFinset := by
  simp only [hostOps1, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L7 : (hostOps1_1 : List (HloOp τ sig (Elt Ideal))).Forall fun op =>
    op.writes ⊆ (L7.map (Proc.devRef (τ := τ) .tc)).toFinset := by
  simp only [hostOps1_1, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L8 : (hostOps1_2 : List (HloOp τ sig (Elt Ideal))).Forall fun op =>
    op.writes ⊆ (L8.map (Proc.devRef (τ := τ) .tc)).toFinset := by
  simp only [hostOps1_2, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
private theorem writes_L9 : (hostOps1_3 : List (HloOp τ sig (Elt Ideal))).Forall fun op =>
    op.writes ⊆ (L9.map (Proc.devRef (τ := τ) .tc)).toFinset := by
  simp only [hostOps1_3, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- A buffer a stretch does not write holds after it what it held before. -/
private theorem W1_of (c : Dev nD) (r : Ref sig .tc) (h : r ∉ L0) :
    W1 (F := Ideal) m ρ c (Proc.devRef .tc r) = W0 m ρ c (Proc.devRef .tc r) :=
  StableHlo.after_of_writes_sub hostOps0 _ writes_L0 h
private theorem W2_of (c : Dev nD) (r : Ref sig .tc) (h : r ∉ L1) :
    W2 (F := Ideal) m ρ c (Proc.devRef .tc r) = W1 m ρ c (Proc.devRef .tc r) :=
  StableHlo.after_of_writes_sub hostOps0_1 _ writes_L1 h
private theorem W3_of (c : Dev nD) (r : Ref sig .tc) (h : r ∉ L2) :
    W3 (F := Ideal) m ρ c (Proc.devRef .tc r) = W2 m ρ c (Proc.devRef .tc r) :=
  StableHlo.after_of_writes_sub hostOps0_2 _ writes_L2 h
private theorem W4_of (c : Dev nD) (r : Ref sig .tc) (h : r ∉ L3) :
    W4 (F := Ideal) m ρ c (Proc.devRef .tc r) = W3 m ρ c (Proc.devRef .tc r) :=
  StableHlo.after_of_writes_sub hostOps0_3 _ writes_L3 h
private theorem W5_of (c : Dev nD) (r : Ref sig .tc) (h : r ∉ L4) :
    W5 (F := Ideal) m ρ c (Proc.devRef .tc r) = W4 m ρ c (Proc.devRef .tc r) :=
  StableHlo.after_of_writes_sub hostOps0_4 _ writes_L4 h
private theorem W6_of (c : Dev nD) (r : Ref sig .tc) (h : r ∉ L5) :
    W6 (F := Ideal) m ρ c (Proc.devRef .tc r) = W5 m ρ c (Proc.devRef .tc r) :=
  StableHlo.after_of_writes_sub hostOps0_5 _ writes_L5 h
private theorem W8_of (c : Dev nD) (r : Ref sig .tc) (h : r ∉ L6) :
    W8 (F := Ideal) m ρ c (Proc.devRef .tc r) = W7 m ρ c (Proc.devRef .tc r) :=
  StableHlo.after_of_writes_sub hostOps1 _ writes_L6 h
private theorem W9_of (c : Dev nD) (r : Ref sig .tc) (h : r ∉ L7) :
    W9 (F := Ideal) m ρ c (Proc.devRef .tc r) = W8 m ρ c (Proc.devRef .tc r) :=
  StableHlo.after_of_writes_sub hostOps1_1 _ writes_L7 h
private theorem W10_of (c : Dev nD) (r : Ref sig .tc) (h : r ∉ L8) :
    W10 (F := Ideal) m ρ c (Proc.devRef .tc r) = W9 m ρ c (Proc.devRef .tc r) :=
  StableHlo.after_of_writes_sub hostOps1_2 _ writes_L8 h
private theorem W11_of (c : Dev nD) (r : Ref sig .tc) (h : r ∉ L9) :
    W11 (F := Ideal) m ρ c (Proc.devRef .tc r) = W10 m ρ c (Proc.devRef .tc r) :=
  StableHlo.after_of_writes_sub hostOps1_3 _ writes_L9 h

/-- The launch contents are the memory handed in. -/
private theorem W0_eq (c : Dev nD) (r : Ref sig .tc) :
    W0 (F := Ideal) m ρ c (Proc.devRef .tc r) = m ((c.tc : Thread nD τ).loc r) := rfl

private theorem not_left {α : Type} {a : α} {s t : List α} (h : a ∉ s ++ t) : a ∉ s := fun hs => h (List.mem_append_left t hs)
private theorem not_right {α : Type} {a : α} {s t : List α} (h : a ∉ s ++ t) : a ∉ t := fun ht => h (List.mem_append_right s ht)

/-! ## Each host stretch, over any contents at its entry

Each lemma reads one result buffer of a stretch as the composition of that stretch's operations on the contents the
stretch finds: the fold is unrolled, every operation's result taken at its own buffer (and what was there at any
other), and the composed term is the stage's definition. In the stretches that are a called function's body every
value passes through its buffer's type and back, which is the identity. -/

/-- A typed reference's transport to its buffer's type and back is the identity. -/
private theorem ofBuf_toBuf {T : BufTy} (x : StableHlo.TRef sig T) (v : T.Contents (Elt Ideal)) :
    x.ofBuf (x.toBuf v) = v := by
  obtain ⟨r, rfl, _, _⟩ := x
  rfl

set_option maxHeartbeats 1000000 in
private theorem s0_v1 (V : Valuation τ sig (Elt Ideal)) :
    StableHlo.after hostOps0 V (Proc.devRef .tc main_v1)
      = Cert.KStage.srcOf (V (Proc.devRef .tc main_arg1)) := by
  after_results
  unfold Cert.KStage.srcOf
  rfl
set_option maxHeartbeats 1000000 in
private theorem s0_v3 (V : Valuation τ sig (Elt Ideal)) :
    StableHlo.after hostOps0 V (Proc.devRef .tc main_v3)
      = Cert.KStage.dstOf (V (Proc.devRef .tc main_arg1)) := by
  after_results
  unfold Cert.KStage.dstOf
  rfl
set_option maxHeartbeats 1000000 in
private theorem s0_v6 (V : Valuation τ sig (Elt Ideal)) :
    StableHlo.after hostOps0 V (Proc.devRef .tc main_v6)
      = Cert.KStage.mean (F := Ideal) (V (Proc.devRef .tc main_arg0)) := by
  after_results
  unfold Cert.KStage.mean
  rfl
private theorem s0_c (V : Valuation τ sig (Elt Ideal)) :
    StableHlo.after hostOps0 V (Proc.devRef .tc main_c) = constantI S_ 32 0#32 := by
  after_results
set_option maxHeartbeats 2000000 in
private theorem s1_v7 (V : Valuation τ sig (Elt Ideal)) (hc : V (Proc.devRef .tc main_c) = constantI S_ 32 0#32) :
    StableHlo.after hostOps0_1 V (Proc.devRef .tc main_v7)
      = Cert.KStage.variance (F := Ideal) (V (Proc.devRef .tc main_arg0)) := by
  after_results_simp
  simp only [ofBuf_toBuf]
  have e0 : ∀ p1 p2 p3, (StableHlo.TRef.of (sig := sig) (T := ⟨S100000x4, .f32⟩) main_arg0 p1 p2 p3).ofBuf (V (Proc.devRef .tc main_arg0))
      = V (Proc.devRef .tc main_arg0) := fun _ _ _ => rfl
  have e1 : ∀ p1 p2 p3, (StableHlo.TRef.of (sig := sig) (T := ⟨S_, .i32⟩) main_c p1 p2 p3).ofBuf (V (Proc.devRef .tc main_c))
      = V (Proc.devRef .tc main_c) := fun _ _ _ => rfl
  have eR : ∀ p1 p2 p3 (X : (⟨S4, .f32⟩ : BufTy).Contents (Elt Ideal)),
      (StableHlo.TRef.of (sig := sig) (T := ⟨S4, .f32⟩) main_v7 p1 p2 p3).toBuf X = X := fun _ _ _ _ => rfl
  simp only [e0, e1, eR]
  rw [hc]
  unfold Cert.KStage.variance Cert.KStage.centered Cert.KStage.divisor
  with_reducible rfl
set_option maxHeartbeats 2000000 in
private theorem s2_v22 (V : Valuation τ sig (Elt Ideal)) (x : FVec Ideal S100000x4 .f32)
    (hx : V (Proc.devRef .tc main_arg0) = x)
    (h6 : V (Proc.devRef .tc main_v6) = Cert.KStage.mean (F := Ideal) x)
    (h7 : V (Proc.devRef .tc main_v7) = Cert.KStage.variance (F := Ideal) x) :
    StableHlo.after hostOps0_2 V (Proc.devRef .tc main_v22)
      = Cert.KStage.bn (F := Ideal) x (V (Proc.devRef .tc main_arg2)) (V (Proc.devRef .tc main_arg3)) := by
  after_results_simp
  rw [h6, h7, hx]
  unfold Cert.KStage.bn Cert.KStage.rowsOf
  rfl
set_option maxHeartbeats 2000000 in
private theorem s2_v31 (V : Valuation τ sig (Elt Ideal)) :
    StableHlo.after hostOps0_2 V (Proc.devRef .tc main_v31)
      = Cert.KStage.inv (F := Ideal) (V (Proc.devRef .tc main_v3)) := by
  after_results_simp
  unfold Cert.KStage.inv Cert.KStage.cnt Cert.KStage.col
  rfl
set_option maxHeartbeats 2000000 in
private theorem s3_v32 (V : Valuation τ sig (Elt Ideal)) :
    StableHlo.after hostOps0_3 V (Proc.devRef .tc main_v32)
      = Cert.KStage.take4 (F := Ideal) (V (Proc.devRef .tc main_v22)) (V (Proc.devRef .tc main_v3)) := by
  after_results_simp
  simp only [ofBuf_toBuf]
  have e0 : ∀ p1 p2 p3, (StableHlo.TRef.of (sig := sig) (T := ⟨S3200000, .i32⟩) main_v3 p1 p2 p3).ofBuf (V (Proc.devRef .tc main_v3))
      = V (Proc.devRef .tc main_v3) := fun _ _ _ => rfl
  have e1 : ∀ p1 p2 p3, (StableHlo.TRef.of (sig := sig) (T := ⟨S100000x4, .f32⟩) main_v22 p1 p2 p3).ofBuf (V (Proc.devRef .tc main_v22))
      = V (Proc.devRef .tc main_v22) := fun _ _ _ => rfl
  have eR : ∀ p1 p2 p3 (X : (⟨S3200000x4, .f32⟩ : BufTy).Contents (Elt Ideal)),
      (StableHlo.TRef.of (sig := sig) (T := ⟨S3200000x4, .f32⟩) main_v32 p1 p2 p3).toBuf X = X := fun _ _ _ _ => rfl
  simp only [e0, e1, eR]
  unfold Cert.KStage.take4 Cert.KStage.inTable Cert.KStage.col Cert.KStage.wrap
  with_reducible rfl
set_option maxHeartbeats 2000000 in
private theorem s4_v33 (V : Valuation τ sig (Elt Ideal)) :
    StableHlo.after hostOps0_4 V (Proc.devRef .tc main_v33)
      = Cert.KStage.take4 (F := Ideal) (V (Proc.devRef .tc main_v22)) (V (Proc.devRef .tc main_v1)) := by
  after_results_simp
  simp only [ofBuf_toBuf]
  have e0 : ∀ p1 p2 p3, (StableHlo.TRef.of (sig := sig) (T := ⟨S3200000, .i32⟩) main_v1 p1 p2 p3).ofBuf (V (Proc.devRef .tc main_v1))
      = V (Proc.devRef .tc main_v1) := fun _ _ _ => rfl
  have e1 : ∀ p1 p2 p3, (StableHlo.TRef.of (sig := sig) (T := ⟨S100000x4, .f32⟩) main_v22 p1 p2 p3).ofBuf (V (Proc.devRef .tc main_v22))
      = V (Proc.devRef .tc main_v22) := fun _ _ _ => rfl
  have eR : ∀ p1 p2 p3 (X : (⟨S3200000x4, .f32⟩ : BufTy).Contents (Elt Ideal)),
      (StableHlo.TRef.of (sig := sig) (T := ⟨S3200000x4, .f32⟩) main_v33 p1 p2 p3).toBuf X = X := fun _ _ _ _ => rfl
  simp only [e0, e1, eR]
  unfold Cert.KStage.take4 Cert.KStage.inTable Cert.KStage.col Cert.KStage.wrap
  with_reducible rfl
private theorem s5_v34 (V : Valuation τ sig (Elt Ideal)) :
    StableHlo.after hostOps0_5 V (Proc.devRef .tc main_v34)
      = (subf (V (Proc.devRef .tc main_v33)) (V (Proc.devRef .tc main_v32)) : FVec Ideal S3200000x4 .f32) := by
  after_results
  try rfl
private theorem s5_v35 (V : Valuation τ sig (Elt Ideal)) :
    StableHlo.after hostOps0_5 V (Proc.devRef .tc main_v35)
      = shapeCast S1x32 (V (Proc.devRef .tc main_arg5)) shapeCasts_S32_S1x32 := by
  after_results
  try rfl
private theorem s5_v36 (V : Valuation τ sig (Elt Ideal)) :
    StableHlo.after hostOps0_5 V (Proc.devRef .tc main_v36)
      = shapeCast S1x32 (V (Proc.devRef .tc main_arg7)) shapeCasts_S32_S1x32 := by
  after_results
  try rfl
private theorem s5_v37 (V : Valuation τ sig (Elt Ideal)) :
    StableHlo.after hostOps0_5 V (Proc.devRef .tc main_v37)
      = shapeCast S1x2 (V (Proc.devRef .tc main_arg9)) shapeCasts_S2_S1x2 := by
  after_results
  try rfl
set_option maxHeartbeats 1000000 in
private theorem s6_v43 (V : Valuation τ sig (Elt Ideal)) :
    StableHlo.after hostOps1 V (Proc.devRef .tc main_v43)
      = mulf (F := Ideal) (Cert.KStage.seg2 (F := Ideal) (V (Proc.devRef .tc main_v3)) (V (Proc.devRef .tc main_v38)))
          (broadcastInDim S100000x2 ![0, 1] bcast_S100000x1_S100000x2_0_1 (V (Proc.devRef .tc main_v31))) := by
  after_results
  unfold Cert.KStage.seg2 Cert.KStage.col
  rfl
set_option maxHeartbeats 2000000 in
private theorem s7_v44 (V : Valuation τ sig (Elt Ideal)) :
    StableHlo.after hostOps1_1 V (Proc.devRef .tc main_v44)
      = Cert.KStage.take2 (F := Ideal) (V (Proc.devRef .tc main_v43)) (V (Proc.devRef .tc main_v3)) := by
  after_results_simp
  simp only [ofBuf_toBuf]
  have e0 : ∀ p1 p2 p3, (StableHlo.TRef.of (sig := sig) (T := ⟨S3200000, .i32⟩) main_v3 p1 p2 p3).ofBuf (V (Proc.devRef .tc main_v3))
      = V (Proc.devRef .tc main_v3) := fun _ _ _ => rfl
  have e1 : ∀ p1 p2 p3, (StableHlo.TRef.of (sig := sig) (T := ⟨S100000x2, .f32⟩) main_v43 p1 p2 p3).ofBuf (V (Proc.devRef .tc main_v43))
      = V (Proc.devRef .tc main_v43) := fun _ _ _ => rfl
  have eR : ∀ p1 p2 p3 (X : (⟨S3200000x2, .f32⟩ : BufTy).Contents (Elt Ideal)),
      (StableHlo.TRef.of (sig := sig) (T := ⟨S3200000x2, .f32⟩) main_v44 p1 p2 p3).toBuf X = X := fun _ _ _ _ => rfl
  simp only [e0, e1, eR]
  unfold Cert.KStage.take2 Cert.KStage.inTable Cert.KStage.col Cert.KStage.wrap
  with_reducible rfl
set_option maxHeartbeats 2000000 in
private theorem s8_v45 (V : Valuation τ sig (Elt Ideal)) :
    StableHlo.after hostOps1_2 V (Proc.devRef .tc main_v45)
      = Cert.KStage.take2 (F := Ideal) (V (Proc.devRef .tc main_v43)) (V (Proc.devRef .tc main_v1)) := by
  after_results_simp
  simp only [ofBuf_toBuf]
  have e0 : ∀ p1 p2 p3, (StableHlo.TRef.of (sig := sig) (T := ⟨S3200000, .i32⟩) main_v1 p1 p2 p3).ofBuf (V (Proc.devRef .tc main_v1))
      = V (Proc.devRef .tc main_v1) := fun _ _ _ => rfl
  have e1 : ∀ p1 p2 p3, (StableHlo.TRef.of (sig := sig) (T := ⟨S100000x2, .f32⟩) main_v43 p1 p2 p3).ofBuf (V (Proc.devRef .tc main_v43))
      = V (Proc.devRef .tc main_v43) := fun _ _ _ => rfl
  have eR : ∀ p1 p2 p3 (X : (⟨S3200000x2, .f32⟩ : BufTy).Contents (Elt Ideal)),
      (StableHlo.TRef.of (sig := sig) (T := ⟨S3200000x2, .f32⟩) main_v45 p1 p2 p3).toBuf X = X := fun _ _ _ _ => rfl
  simp only [e0, e1, eR]
  unfold Cert.KStage.take2 Cert.KStage.inTable Cert.KStage.col Cert.KStage.wrap
  with_reducible rfl
private theorem s9_v46 (V : Valuation τ sig (Elt Ideal)) :
    StableHlo.after hostOps1_3 V (Proc.devRef .tc main_v46)
      = (subf (V (Proc.devRef .tc main_v45)) (V (Proc.devRef .tc main_v44)) : FVec Ideal S3200000x2 .f32) := by
  after_results
  try rfl
private theorem s9_v47 (V : Valuation τ sig (Elt Ideal)) :
    StableHlo.after hostOps1_3 V (Proc.devRef .tc main_v47)
      = shapeCast S1x32 (V (Proc.devRef .tc main_arg11)) shapeCasts_S32_S1x32 := by
  after_results
  try rfl
private theorem s9_v48 (V : Valuation τ sig (Elt Ideal)) :
    StableHlo.after hostOps1_3 V (Proc.devRef .tc main_v48)
      = shapeCast S1x32 (V (Proc.devRef .tc main_arg13)) shapeCasts_S32_S1x32 := by
  after_results
  try rfl
private theorem s9_v49 (V : Valuation τ sig (Elt Ideal)) :
    StableHlo.after hostOps1_3 V (Proc.devRef .tc main_v49)
      = shapeCast S1x4 (V (Proc.devRef .tc main_arg15)) shapeCasts_S4_S1x4 := by
  after_results
  try rfl
set_option maxHeartbeats 1000000 in
private theorem s10_v55 (V : Valuation τ sig (Elt Ideal)) :
    StableHlo.after hostOps2 V (Proc.devRef .tc main_v55)
      = mulf (F := Ideal) (Cert.KStage.seg4 (F := Ideal) (V (Proc.devRef .tc main_v3)) (V (Proc.devRef .tc main_v50)))
          (broadcastInDim S100000x4 ![0, 1] bcast_S100000x1_S100000x4_0_1 (V (Proc.devRef .tc main_v31))) := by
  after_results
  unfold Cert.KStage.seg4 Cert.KStage.col
  rfl
/-! ## The contents at every boundary the later stages read, back to the arguments -/

/-- Every buffer written up to a boundary. -/
private abbrev P2 : List (Ref sig .tc) := L0 ++ L1
private abbrev P3 : List (Ref sig .tc) := P2 ++ L2
private abbrev P4 : List (Ref sig .tc) := P3 ++ L3
private abbrev P5 : List (Ref sig .tc) := P4 ++ L4
private abbrev P6 : List (Ref sig .tc) := P5 ++ L5
private abbrev P8 : List (Ref sig .tc) := P6 ++ L6
private abbrev P9 : List (Ref sig .tc) := P8 ++ L7
private abbrev P10 : List (Ref sig .tc) := P9 ++ L8
private abbrev P11 : List (Ref sig .tc) := P10 ++ L9

/-- A buffer no stretch has written and no tiled stage owns still holds its launch contents. -/
private theorem W1_arg (c : Dev nD) (r : Ref sig .tc) (h : r ∉ L0) :
    W1 (F := Ideal) m ρ c (Proc.devRef .tc r) = m ((c.tc : Thread nD τ).loc r) :=
  (W1_of m ρ c r h).trans (W0_eq m ρ c r)
private theorem W2_arg (c : Dev nD) (r : Ref sig .tc) (h : r ∉ P2) :
    W2 (F := Ideal) m ρ c (Proc.devRef .tc r) = m ((c.tc : Thread nD τ).loc r) :=
  (W2_of m ρ c r (not_right h)).trans (W1_arg m ρ c r (not_left h))
private theorem W3_arg (c : Dev nD) (r : Ref sig .tc) (h : r ∉ P3) :
    W3 (F := Ideal) m ρ c (Proc.devRef .tc r) = m ((c.tc : Thread nD τ).loc r) :=
  (W3_of m ρ c r (not_right h)).trans (W2_arg m ρ c r (not_left h))
private theorem W4_arg (c : Dev nD) (r : Ref sig .tc) (h : r ∉ P4) :
    W4 (F := Ideal) m ρ c (Proc.devRef .tc r) = m ((c.tc : Thread nD τ).loc r) :=
  (W4_of m ρ c r (not_right h)).trans (W3_arg m ρ c r (not_left h))
private theorem W5_arg (c : Dev nD) (r : Ref sig .tc) (h : r ∉ P5) :
    W5 (F := Ideal) m ρ c (Proc.devRef .tc r) = m ((c.tc : Thread nD τ).loc r) :=
  (W5_of m ρ c r (not_right h)).trans (W4_arg m ρ c r (not_left h))
private theorem W6_arg (c : Dev nD) (r : Ref sig .tc) (h : r ∉ P6) :
    W6 (F := Ideal) m ρ c (Proc.devRef .tc r) = m ((c.tc : Thread nD τ).loc r) :=
  (W6_of m ρ c r (not_right h)).trans (W5_arg m ρ c r (not_left h))
private theorem W7_arg (c : Dev nD) (r : Ref sig .tc) (h : r ∉ P6) (h0 : ∀ w, Pipeline.arrRef spec0 w ≠ r) :
    W7 (F := Ideal) m ρ c (Proc.devRef .tc r) = m ((c.tc : Thread nD τ).loc r) :=
  (W7_of_ne m ρ c r h0).trans (W6_arg m ρ c r h)
private theorem W8_arg (c : Dev nD) (r : Ref sig .tc) (h : r ∉ P8) (h0 : ∀ w, Pipeline.arrRef spec0 w ≠ r) :
    W8 (F := Ideal) m ρ c (Proc.devRef .tc r) = m ((c.tc : Thread nD τ).loc r) :=
  (W8_of m ρ c r (not_right h)).trans (W7_arg m ρ c r (not_left h) h0)
private theorem W9_arg (c : Dev nD) (r : Ref sig .tc) (h : r ∉ P9) (h0 : ∀ w, Pipeline.arrRef spec0 w ≠ r) :
    W9 (F := Ideal) m ρ c (Proc.devRef .tc r) = m ((c.tc : Thread nD τ).loc r) :=
  (W9_of m ρ c r (not_right h)).trans (W8_arg m ρ c r (not_left h) h0)
private theorem W10_arg (c : Dev nD) (r : Ref sig .tc) (h : r ∉ P10) (h0 : ∀ w, Pipeline.arrRef spec0 w ≠ r) :
    W10 (F := Ideal) m ρ c (Proc.devRef .tc r) = m ((c.tc : Thread nD τ).loc r) :=
  (W10_of m ρ c r (not_right h)).trans (W9_arg m ρ c r (not_left h) h0)
private theorem W11_arg (c : Dev nD) (r : Ref sig .tc) (h : r ∉ P11) (h0 : ∀ w, Pipeline.arrRef spec0 w ≠ r) :
    W11 (F := Ideal) m ρ c (Proc.devRef .tc r) = m ((c.tc : Thread nD τ).loc r) :=
  (W11_of m ρ c r (not_right h)).trans (W10_arg m ρ c r (not_left h) h0)

private theorem W1_v1 (c : Dev nD) :
    W1 (F := Ideal) m ρ c (Proc.devRef .tc main_v1)
      = (Cert.KStage.srcOf (m ((c.tc : Thread nD τ).loc main_arg1))) :=
  (s0_v1 (W0 m ρ c)).trans (by rw [W0_eq])
private theorem W1_v3 (c : Dev nD) :
    W1 (F := Ideal) m ρ c (Proc.devRef .tc main_v3)
      = (Cert.KStage.dstOf (m ((c.tc : Thread nD τ).loc main_arg1))) :=
  (s0_v3 (W0 m ρ c)).trans (by rw [W0_eq])
private theorem W1_v6 (c : Dev nD) :
    W1 (F := Ideal) m ρ c (Proc.devRef .tc main_v6)
      = Cert.KStage.mean (F := Ideal) (m ((c.tc : Thread nD τ).loc main_arg0)) :=
  (s0_v6 (W0 m ρ c)).trans (by rw [W0_eq])
private theorem W1_c (c : Dev nD) :
    W1 (F := Ideal) m ρ c (Proc.devRef .tc main_c)
      = constantI S_ 32 0#32 :=
  s0_c (W0 m ρ c)
private theorem W2_v6 (c : Dev nD) :
    W2 (F := Ideal) m ρ c (Proc.devRef .tc main_v6)
      = Cert.KStage.mean (F := Ideal) (m ((c.tc : Thread nD τ).loc main_arg0)) :=
  (W2_of m ρ c main_v6 (by decide)).trans (W1_v6 m ρ c)
private theorem W2_v3 (c : Dev nD) :
    W2 (F := Ideal) m ρ c (Proc.devRef .tc main_v3)
      = (Cert.KStage.dstOf (m ((c.tc : Thread nD τ).loc main_arg1))) :=
  (W2_of m ρ c main_v3 (by decide)).trans (W1_v3 m ρ c)
private theorem W3_v3 (c : Dev nD) :
    W3 (F := Ideal) m ρ c (Proc.devRef .tc main_v3)
      = (Cert.KStage.dstOf (m ((c.tc : Thread nD τ).loc main_arg1))) :=
  (W3_of m ρ c main_v3 (by decide)).trans (W2_v3 m ρ c)
private theorem W4_v3 (c : Dev nD) :
    W4 (F := Ideal) m ρ c (Proc.devRef .tc main_v3)
      = (Cert.KStage.dstOf (m ((c.tc : Thread nD τ).loc main_arg1))) :=
  (W4_of m ρ c main_v3 (by decide)).trans (W3_v3 m ρ c)
private theorem W5_v3 (c : Dev nD) :
    W5 (F := Ideal) m ρ c (Proc.devRef .tc main_v3)
      = (Cert.KStage.dstOf (m ((c.tc : Thread nD τ).loc main_arg1))) :=
  (W5_of m ρ c main_v3 (by decide)).trans (W4_v3 m ρ c)
private theorem W6_v3 (c : Dev nD) :
    W6 (F := Ideal) m ρ c (Proc.devRef .tc main_v3)
      = (Cert.KStage.dstOf (m ((c.tc : Thread nD τ).loc main_arg1))) :=
  (W6_of m ρ c main_v3 (by decide)).trans (W5_v3 m ρ c)
private theorem W7_v3 (c : Dev nD) :
    W7 (F := Ideal) m ρ c (Proc.devRef .tc main_v3)
      = (Cert.KStage.dstOf (m ((c.tc : Thread nD τ).loc main_arg1))) :=
  (W7_of_ne m ρ c main_v3 (by decide)).trans (W6_v3 m ρ c)
private theorem W8_v3 (c : Dev nD) :
    W8 (F := Ideal) m ρ c (Proc.devRef .tc main_v3)
      = (Cert.KStage.dstOf (m ((c.tc : Thread nD τ).loc main_arg1))) :=
  (W8_of m ρ c main_v3 (by decide)).trans (W7_v3 m ρ c)
private theorem W9_v3 (c : Dev nD) :
    W9 (F := Ideal) m ρ c (Proc.devRef .tc main_v3)
      = (Cert.KStage.dstOf (m ((c.tc : Thread nD τ).loc main_arg1))) :=
  (W9_of m ρ c main_v3 (by decide)).trans (W8_v3 m ρ c)
private theorem W10_v3 (c : Dev nD) :
    W10 (F := Ideal) m ρ c (Proc.devRef .tc main_v3)
      = (Cert.KStage.dstOf (m ((c.tc : Thread nD τ).loc main_arg1))) :=
  (W10_of m ρ c main_v3 (by decide)).trans (W9_v3 m ρ c)
private theorem W11_v3 (c : Dev nD) :
    W11 (F := Ideal) m ρ c (Proc.devRef .tc main_v3)
      = (Cert.KStage.dstOf (m ((c.tc : Thread nD τ).loc main_arg1))) :=
  (W11_of m ρ c main_v3 (by decide)).trans (W10_v3 m ρ c)
private theorem W12_v3 (c : Dev nD) :
    W12 (F := Ideal) m ρ c (Proc.devRef .tc main_v3)
      = (Cert.KStage.dstOf (m ((c.tc : Thread nD τ).loc main_arg1))) :=
  (W12_of_ne m ρ c main_v3 (by decide)).trans (W11_v3 m ρ c)
private theorem W2_v1 (c : Dev nD) :
    W2 (F := Ideal) m ρ c (Proc.devRef .tc main_v1)
      = (Cert.KStage.srcOf (m ((c.tc : Thread nD τ).loc main_arg1))) :=
  (W2_of m ρ c main_v1 (by decide)).trans (W1_v1 m ρ c)
private theorem W3_v1 (c : Dev nD) :
    W3 (F := Ideal) m ρ c (Proc.devRef .tc main_v1)
      = (Cert.KStage.srcOf (m ((c.tc : Thread nD τ).loc main_arg1))) :=
  (W3_of m ρ c main_v1 (by decide)).trans (W2_v1 m ρ c)
private theorem W4_v1 (c : Dev nD) :
    W4 (F := Ideal) m ρ c (Proc.devRef .tc main_v1)
      = (Cert.KStage.srcOf (m ((c.tc : Thread nD τ).loc main_arg1))) :=
  (W4_of m ρ c main_v1 (by decide)).trans (W3_v1 m ρ c)
private theorem W5_v1 (c : Dev nD) :
    W5 (F := Ideal) m ρ c (Proc.devRef .tc main_v1)
      = (Cert.KStage.srcOf (m ((c.tc : Thread nD τ).loc main_arg1))) :=
  (W5_of m ρ c main_v1 (by decide)).trans (W4_v1 m ρ c)
private theorem W6_v1 (c : Dev nD) :
    W6 (F := Ideal) m ρ c (Proc.devRef .tc main_v1)
      = (Cert.KStage.srcOf (m ((c.tc : Thread nD τ).loc main_arg1))) :=
  (W6_of m ρ c main_v1 (by decide)).trans (W5_v1 m ρ c)
private theorem W7_v1 (c : Dev nD) :
    W7 (F := Ideal) m ρ c (Proc.devRef .tc main_v1)
      = (Cert.KStage.srcOf (m ((c.tc : Thread nD τ).loc main_arg1))) :=
  (W7_of_ne m ρ c main_v1 (by decide)).trans (W6_v1 m ρ c)
private theorem W8_v1 (c : Dev nD) :
    W8 (F := Ideal) m ρ c (Proc.devRef .tc main_v1)
      = (Cert.KStage.srcOf (m ((c.tc : Thread nD τ).loc main_arg1))) :=
  (W8_of m ρ c main_v1 (by decide)).trans (W7_v1 m ρ c)
private theorem W9_v1 (c : Dev nD) :
    W9 (F := Ideal) m ρ c (Proc.devRef .tc main_v1)
      = (Cert.KStage.srcOf (m ((c.tc : Thread nD τ).loc main_arg1))) :=
  (W9_of m ρ c main_v1 (by decide)).trans (W8_v1 m ρ c)
private theorem W2_v7 (c : Dev nD) :
    W2 (F := Ideal) m ρ c (Proc.devRef .tc main_v7)
      = Cert.KStage.variance (F := Ideal) (m ((c.tc : Thread nD τ).loc main_arg0)) :=
  (s1_v7 (W1 m ρ c) (W1_c m ρ c)).trans (by rw [W1_arg m ρ c main_arg0 (by decide)])
private theorem W3_v22 (c : Dev nD) :
    W3 (F := Ideal) m ρ c (Proc.devRef .tc main_v22)
      = (Cert.KStage.bn (F := Ideal) (m ((c.tc : Thread nD τ).loc main_arg0)) (m ((c.tc : Thread nD τ).loc main_arg2)) (m ((c.tc : Thread nD τ).loc main_arg3))) :=
  (s2_v22 (W2 m ρ c) _ (W2_arg m ρ c main_arg0 (by decide)) (W2_v6 m ρ c) (W2_v7 m ρ c)).trans
    (by rw [W2_arg m ρ c main_arg2 (by decide), W2_arg m ρ c main_arg3 (by decide)])
private theorem W3_v31 (c : Dev nD) :
    W3 (F := Ideal) m ρ c (Proc.devRef .tc main_v31)
      = (Cert.KStage.inv (F := Ideal) (Cert.KStage.dstOf (m ((c.tc : Thread nD τ).loc main_arg1)))) :=
  (s2_v31 (W2 m ρ c)).trans (by rw [W2_v3])
private theorem W4_v22 (c : Dev nD) :
    W4 (F := Ideal) m ρ c (Proc.devRef .tc main_v22)
      = (Cert.KStage.bn (F := Ideal) (m ((c.tc : Thread nD τ).loc main_arg0)) (m ((c.tc : Thread nD τ).loc main_arg2)) (m ((c.tc : Thread nD τ).loc main_arg3))) :=
  (W4_of m ρ c main_v22 (by decide)).trans (W3_v22 m ρ c)
private theorem W4_v31 (c : Dev nD) :
    W4 (F := Ideal) m ρ c (Proc.devRef .tc main_v31)
      = (Cert.KStage.inv (F := Ideal) (Cert.KStage.dstOf (m ((c.tc : Thread nD τ).loc main_arg1)))) :=
  (W4_of m ρ c main_v31 (by decide)).trans (W3_v31 m ρ c)
private theorem W5_v31 (c : Dev nD) :
    W5 (F := Ideal) m ρ c (Proc.devRef .tc main_v31)
      = (Cert.KStage.inv (F := Ideal) (Cert.KStage.dstOf (m ((c.tc : Thread nD τ).loc main_arg1)))) :=
  (W5_of m ρ c main_v31 (by decide)).trans (W4_v31 m ρ c)
private theorem W6_v31 (c : Dev nD) :
    W6 (F := Ideal) m ρ c (Proc.devRef .tc main_v31)
      = (Cert.KStage.inv (F := Ideal) (Cert.KStage.dstOf (m ((c.tc : Thread nD τ).loc main_arg1)))) :=
  (W6_of m ρ c main_v31 (by decide)).trans (W5_v31 m ρ c)
private theorem W7_v31 (c : Dev nD) :
    W7 (F := Ideal) m ρ c (Proc.devRef .tc main_v31)
      = (Cert.KStage.inv (F := Ideal) (Cert.KStage.dstOf (m ((c.tc : Thread nD τ).loc main_arg1)))) :=
  (W7_of_ne m ρ c main_v31 (by decide)).trans (W6_v31 m ρ c)
private theorem W8_v31 (c : Dev nD) :
    W8 (F := Ideal) m ρ c (Proc.devRef .tc main_v31)
      = (Cert.KStage.inv (F := Ideal) (Cert.KStage.dstOf (m ((c.tc : Thread nD τ).loc main_arg1)))) :=
  (W8_of m ρ c main_v31 (by decide)).trans (W7_v31 m ρ c)
private theorem W9_v31 (c : Dev nD) :
    W9 (F := Ideal) m ρ c (Proc.devRef .tc main_v31)
      = (Cert.KStage.inv (F := Ideal) (Cert.KStage.dstOf (m ((c.tc : Thread nD τ).loc main_arg1)))) :=
  (W9_of m ρ c main_v31 (by decide)).trans (W8_v31 m ρ c)
private theorem W10_v31 (c : Dev nD) :
    W10 (F := Ideal) m ρ c (Proc.devRef .tc main_v31)
      = (Cert.KStage.inv (F := Ideal) (Cert.KStage.dstOf (m ((c.tc : Thread nD τ).loc main_arg1)))) :=
  (W10_of m ρ c main_v31 (by decide)).trans (W9_v31 m ρ c)
private theorem W11_v31 (c : Dev nD) :
    W11 (F := Ideal) m ρ c (Proc.devRef .tc main_v31)
      = (Cert.KStage.inv (F := Ideal) (Cert.KStage.dstOf (m ((c.tc : Thread nD τ).loc main_arg1)))) :=
  (W11_of m ρ c main_v31 (by decide)).trans (W10_v31 m ρ c)
private theorem W12_v31 (c : Dev nD) :
    W12 (F := Ideal) m ρ c (Proc.devRef .tc main_v31)
      = (Cert.KStage.inv (F := Ideal) (Cert.KStage.dstOf (m ((c.tc : Thread nD τ).loc main_arg1)))) :=
  (W12_of_ne m ρ c main_v31 (by decide)).trans (W11_v31 m ρ c)
private theorem W4_v32 (c : Dev nD) :
    W4 (F := Ideal) m ρ c (Proc.devRef .tc main_v32)
      = (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.dstOf (m ((c.tc : Thread nD τ).loc main_arg1)))) :=
  (s3_v32 (W3 m ρ c)).trans (by rw [W3_v22, W3_v3])
private theorem W5_v32 (c : Dev nD) :
    W5 (F := Ideal) m ρ c (Proc.devRef .tc main_v32)
      = (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.dstOf (m ((c.tc : Thread nD τ).loc main_arg1)))) :=
  (W5_of m ρ c main_v32 (by decide)).trans (W4_v32 m ρ c)
private theorem W6_v32 (c : Dev nD) :
    W6 (F := Ideal) m ρ c (Proc.devRef .tc main_v32)
      = (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.dstOf (m ((c.tc : Thread nD τ).loc main_arg1)))) :=
  (W6_of m ρ c main_v32 (by decide)).trans (W5_v32 m ρ c)
private theorem W5_v33 (c : Dev nD) :
    W5 (F := Ideal) m ρ c (Proc.devRef .tc main_v33)
      = (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1)))) :=
  (s4_v33 (W4 m ρ c)).trans (by rw [W4_v22, W4_v1])
private theorem W6_v34 (c : Dev nD) :
    W6 (F := Ideal) m ρ c (Proc.devRef .tc main_v34)
      = (subf (F := Ideal) (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1)))) (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.dstOf (m ((c.tc : Thread nD τ).loc main_arg1))))) :=
  (s5_v34 (W5 m ρ c)).trans (by rw [W5_v33, W5_v32])
private theorem W6_v35 (c : Dev nD) :
    W6 (F := Ideal) m ρ c (Proc.devRef .tc main_v35)
      = (shapeCast S1x32 (m ((c.tc : Thread nD τ).loc main_arg5)) shapeCasts_S32_S1x32) :=
  (s5_v35 (W5 m ρ c)).trans (by rw [W5_arg m ρ c main_arg5 (by decide)])
private theorem W6_v36 (c : Dev nD) :
    W6 (F := Ideal) m ρ c (Proc.devRef .tc main_v36)
      = (shapeCast S1x32 (m ((c.tc : Thread nD τ).loc main_arg7)) shapeCasts_S32_S1x32) :=
  (s5_v36 (W5 m ρ c)).trans (by rw [W5_arg m ρ c main_arg7 (by decide)])
private theorem W6_v37 (c : Dev nD) :
    W6 (F := Ideal) m ρ c (Proc.devRef .tc main_v37)
      = (shapeCast S1x2 (m ((c.tc : Thread nD τ).loc main_arg9)) shapeCasts_S2_S1x2) :=
  (s5_v37 (W5 m ρ c)).trans (by rw [W5_arg m ρ c main_arg9 (by decide)])

/-! ## The first tiled stage and the first sum per node -/

private theorem W7_v38 (c : Dev nD) :
    W7 (F := Ideal) m ρ c (Proc.devRef .tc main_v38)
      = (Cert.Spec.enc (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.dstOf (m ((c.tc : Thread nD τ).loc main_arg1)))) (subf (F := Ideal) (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1)))) (Cert.KStage.take4 (F := Ideal) (Cert.KStage.bn (F := Ideal) (m ((c.tc : Thread nD τ).loc main_arg0)) (m ((c.tc : Thread nD τ).loc main_arg2)) (m ((c.tc : Thread nD τ).loc main_arg3))) (Cert.KStage.dstOf (m ((c.tc : Thread nD τ).loc main_arg1))))) (m ((c.tc : Thread nD τ).loc main_arg4)) (shapeCast S1x32 (m ((c.tc : Thread nD τ).loc main_arg5)) shapeCasts_S32_S1x32) (m ((c.tc : Thread nD τ).loc main_arg6)) (shapeCast S1x32 (m ((c.tc : Thread nD τ).loc main_arg7)) shapeCasts_S32_S1x32) (m ((c.tc : Thread nD τ).loc main_arg8)) (shapeCast S1x2 (m ((c.tc : Thread nD τ).loc main_arg9)) shapeCasts_S2_S1x2)) :=
  (W7_arr m ρ c 8).trans ((Cert.KRegion0.value (V6 m ρ) c).trans (by
    rw [show V6 (F := Ideal) m ρ c main_v32 = _ from W6_v32 m ρ c, show V6 (F := Ideal) m ρ c main_v34 = _ from W6_v34 m ρ c,
      show V6 (F := Ideal) m ρ c main_v35 = _ from W6_v35 m ρ c, show V6 (F := Ideal) m ρ c main_v36 = _ from W6_v36 m ρ c,
      show V6 (F := Ideal) m ρ c main_v37 = _ from W6_v37 m ρ c,
      show V6 (F := Ideal) m ρ c main_arg4 = _ from W6_arg m ρ c main_arg4 (by decide),
      show V6 (F := Ideal) m ρ c main_arg6 = _ from W6_arg m ρ c main_arg6 (by decide),
      show V6 (F := Ideal) m ρ c main_arg8 = _ from W6_arg m ρ c main_arg8 (by decide)]))
private theorem W8_v43 (c : Dev nD) :
    W8 (F := Ideal) m ρ c (Proc.devRef .tc main_v43)
      = (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (s6_v43 (W7 m ρ c)).trans (by
    rw [W7_v3, W7_v38, W7_v31]
    unfold Cert.KStage.layer1 Cert.KStage.scale2
    rfl)
private theorem W9_v43 (c : Dev nD) :
    W9 (F := Ideal) m ρ c (Proc.devRef .tc main_v43)
      = (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (W9_of m ρ c main_v43 (by decide)).trans (W8_v43 m ρ c)
private theorem W9_v44 (c : Dev nD) :
    W9 (F := Ideal) m ρ c (Proc.devRef .tc main_v44)
      = (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.dstOf (m ((c.tc : Thread nD τ).loc main_arg1)))) :=
  (s7_v44 (W8 m ρ c)).trans (by rw [W8_v43, W8_v3])
private theorem W10_v44 (c : Dev nD) :
    W10 (F := Ideal) m ρ c (Proc.devRef .tc main_v44)
      = (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.dstOf (m ((c.tc : Thread nD τ).loc main_arg1)))) :=
  (W10_of m ρ c main_v44 (by decide)).trans (W9_v44 m ρ c)
private theorem W11_v44 (c : Dev nD) :
    W11 (F := Ideal) m ρ c (Proc.devRef .tc main_v44)
      = (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.dstOf (m ((c.tc : Thread nD τ).loc main_arg1)))) :=
  (W11_of m ρ c main_v44 (by decide)).trans (W10_v44 m ρ c)
private theorem W10_v45 (c : Dev nD) :
    W10 (F := Ideal) m ρ c (Proc.devRef .tc main_v45)
      = (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.srcOf (m ((c.tc : Thread nD τ).loc main_arg1)))) :=
  (s8_v45 (W9 m ρ c)).trans (by rw [W9_v43, W9_v1])
private theorem W11_v46 (c : Dev nD) :
    W11 (F := Ideal) m ρ c (Proc.devRef .tc main_v46)
      = (subf (F := Ideal) (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.srcOf (m ((c.tc : Thread nD τ).loc main_arg1)))) (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.dstOf (m ((c.tc : Thread nD τ).loc main_arg1))))) :=
  (s9_v46 (W10 m ρ c)).trans (by rw [W10_v45, W10_v44])
private theorem W11_v47 (c : Dev nD) :
    W11 (F := Ideal) m ρ c (Proc.devRef .tc main_v47)
      = (shapeCast S1x32 (m ((c.tc : Thread nD τ).loc main_arg11)) shapeCasts_S32_S1x32) :=
  (s9_v47 (W10 m ρ c)).trans (by rw [W10_arg m ρ c main_arg11 (by decide) (by decide)])
private theorem W11_v48 (c : Dev nD) :
    W11 (F := Ideal) m ρ c (Proc.devRef .tc main_v48)
      = (shapeCast S1x32 (m ((c.tc : Thread nD τ).loc main_arg13)) shapeCasts_S32_S1x32) :=
  (s9_v48 (W10 m ρ c)).trans (by rw [W10_arg m ρ c main_arg13 (by decide) (by decide)])
private theorem W11_v49 (c : Dev nD) :
    W11 (F := Ideal) m ρ c (Proc.devRef .tc main_v49)
      = (shapeCast S1x4 (m ((c.tc : Thread nD τ).loc main_arg15)) shapeCasts_S4_S1x4) :=
  (s9_v49 (W10 m ρ c)).trans (by rw [W10_arg m ρ c main_arg15 (by decide) (by decide)])

/-! ## The second tiled stage -/

private theorem W12_v50 (c : Dev nD) :
    W12 (F := Ideal) m ρ c (Proc.devRef .tc main_v50)
      = (Cert.Spec.dec (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.dstOf (m ((c.tc : Thread nD τ).loc main_arg1)))) (subf (F := Ideal) (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.srcOf (m ((c.tc : Thread nD τ).loc main_arg1)))) (Cert.KStage.take2 (F := Ideal) (Cert.KStage.layer1 (Cert.KStage.bn (F := Ideal) (m ((c.tc : Thread nD τ).loc main_arg0)) (m ((c.tc : Thread nD τ).loc main_arg2)) (m ((c.tc : Thread nD τ).loc main_arg3))) (Cert.KStage.srcOf (m ((c.tc : Thread nD τ).loc main_arg1))) (Cert.KStage.dstOf (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (Cert.KStage.dstOf (m ((c.tc : Thread nD τ).loc main_arg1))))) (m ((c.tc : Thread nD τ).loc main_arg10)) (shapeCast S1x32 (m ((c.tc : Thread nD τ).loc main_arg11)) shapeCasts_S32_S1x32) (m ((c.tc : Thread nD τ).loc main_arg12)) (shapeCast S1x32 (m ((c.tc : Thread nD τ).loc main_arg13)) shapeCasts_S32_S1x32) (m ((c.tc : Thread nD τ).loc main_arg14)) (shapeCast S1x4 (m ((c.tc : Thread nD τ).loc main_arg15)) shapeCasts_S4_S1x4)) :=
  (W12_arr m ρ c 8).trans ((Cert.KRegion1.value (V11 m ρ) c).trans (by
    rw [show V11 (F := Ideal) m ρ c main_v44 = _ from W11_v44 m ρ c, show V11 (F := Ideal) m ρ c main_v46 = _ from W11_v46 m ρ c,
      show V11 (F := Ideal) m ρ c main_v47 = _ from W11_v47 m ρ c, show V11 (F := Ideal) m ρ c main_v48 = _ from W11_v48 m ρ c,
      show V11 (F := Ideal) m ρ c main_v49 = _ from W11_v49 m ρ c,
      show V11 (F := Ideal) m ρ c main_arg10 = _ from W11_arg m ρ c main_arg10 (by decide) (by decide),
      show V11 (F := Ideal) m ρ c main_arg12 = _ from W11_arg m ρ c main_arg12 (by decide) (by decide),
      show V11 (F := Ideal) m ρ c main_arg14 = _ from W11_arg m ρ c main_arg14 (by decide) (by decide)]))
/-- The result buffer's final contents are the staged function of the arguments' launch contents. -/
theorem out_eq (c : Dev nD) :
    W13 (F := Ideal) m ρ c (Proc.devRef .tc main_v55)
      = Cert.KStage.kOut (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15)) := by
  refine (s10_v55 (W12 m ρ c)).trans ?_
  rw [W12_v3, W12_v50, W12_v31]
  unfold Cert.KStage.kOut Cert.KStage.layer2 Cert.KStage.scale4
  rfl

end Cert.KVal

end
-- ==== Proof.RefOps.lean ====
import proofs.«403383_j8177617731794_1_alg».proof.ReferenceIdeal
import Idealize.ShloMosaic.Lib.StableHlo.Run

noncomputable section

namespace Cert.RefOps

open Cert.ReferenceIdeal Idealize.ShloMosaic Idealize.ShloMosaic.TcCoe Idealize.SL.Sem

variable {F : FTy → Type} [FloatOps F] [Cert.ReferenceIdeal.Facts]
open Cert.ReferenceIdeal.Facts₀ Cert.ReferenceIdeal.Facts

/-- The operations of the reference, in order. -/
abbrev ops : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_cst (constant S_ .f32 0x00000000#32),
    StableHlo.binary main_arg0 main_cst main_v4 ((fun x v => Host.reduceAdd x v reducesTo_S100000x4_S4_d0 h_S_) : (⟨S100000x4, .f32⟩ : BufTy).Contents (Elt F) → (⟨S_, .f32⟩ : BufTy).Contents (Elt F) → (⟨S4, .f32⟩ : BufTy).Contents (Elt F)),
    StableHlo.nullary main_cst_0 (constant S_ .f32 0x47C35000#32),
    StableHlo.unary main_cst_0 main_v5 (broadcastInDim S4 ![] bcast_S_S4 : (⟨S_, .f32⟩ : BufTy).Contents (Elt F) → (⟨S4, .f32⟩ : BufTy).Contents (Elt F)),
    StableHlo.binary main_v4 main_v5 main_v6 (Host.divf : (⟨S4, .f32⟩ : BufTy).Contents (Elt F) → (⟨S4, .f32⟩ : BufTy).Contents (Elt F) → (⟨S4, .f32⟩ : BufTy).Contents (Elt F)),
    StableHlo.nullary main_c (constantI S_ 32 0#32),
    StableHlo.TRef.nullary main_call0.cst (constant S_ .f32 0x00000000#32),
    StableHlo.TRef.binary ((.of main_arg0) : StableHlo.TRef sig ⟨S100000x4, .f32⟩) main_call0.cst main_call0.v0 (fun x v => Host.reduceAdd x v reducesTo_S100000x4_S4_d0 h_S_),
    StableHlo.TRef.unary main_call0.v0 main_call0.v1 (broadcastInDim S1x4 ![1] bcast_S4_S1x4_1),
    StableHlo.TRef.nullary main_call0.cst_0 (constant S_ .f32 0x47C35000#32),
    StableHlo.TRef.unary main_call0.cst_0 main_call0.v2 (broadcastInDim S1x4 ![] bcast_S_S1x4),
    StableHlo.TRef.binary main_call0.v1 main_call0.v2 main_call0.v3 Host.divf,
    StableHlo.TRef.unary main_call0.v3 main_call0.v4 (broadcastInDim S100000x4 ![0, 1] bcast_S1x4_S100000x4_0_1),
    StableHlo.TRef.binary ((.of main_arg0) : StableHlo.TRef sig ⟨S100000x4, .f32⟩) main_call0.v4 main_call0.v5 subf,
    StableHlo.TRef.binary main_call0.v5 main_call0.v5 main_call0.v6 mulf,
    StableHlo.TRef.unary ((.of main_c) : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x4_S4_d0 h_S_),
    StableHlo.TRef.unary main_call0.v8 main_call0.v10 (broadcastInDim S4 ![] bcast_S_S4),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4 ![] bcast_S_S4),
    StableHlo.TRef.ternary main_call0.v12 main_call0.v11 main_call0.call0.v1 main_call0.call0.v2 (fun p a b => select (broadcastInDim S4 ![] bcast_S_S4 p) a b),
    StableHlo.unary main_v6 main_v8 (broadcastInDim S1x4 ![1] bcast_S4_S1x4_1 : (⟨S4, .f32⟩ : BufTy).Contents (Elt F) → (⟨S1x4, .f32⟩ : BufTy).Contents (Elt F)),
    StableHlo.unary main_v8 main_v9 (broadcastInDim S100000x4 ![0, 1] bcast_S1x4_S100000x4_0_1 : (⟨S1x4, .f32⟩ : BufTy).Contents (Elt F) → (⟨S100000x4, .f32⟩ : BufTy).Contents (Elt F)),
    StableHlo.binary main_arg0 main_v9 main_v10 (subf : (⟨S100000x4, .f32⟩ : BufTy).Contents (Elt F) → (⟨S100000x4, .f32⟩ : BufTy).Contents (Elt F) → (⟨S100000x4, .f32⟩ : BufTy).Contents (Elt F)),
    StableHlo.nullary main_cst_1 (constant S_ .f32 0x3727C5AC#32),
    StableHlo.unary main_cst_1 main_v11 (broadcastInDim S4 ![] bcast_S_S4 : (⟨S_, .f32⟩ : BufTy).Contents (Elt F) → (⟨S4, .f32⟩ : BufTy).Contents (Elt F)),
    StableHlo.binary main_v7 main_v11 main_v12 (addf : (⟨S4, .f32⟩ : BufTy).Contents (Elt F) → (⟨S4, .f32⟩ : BufTy).Contents (Elt F) → (⟨S4, .f32⟩ : BufTy).Contents (Elt F)),
    StableHlo.unary main_v12 main_v13 (Host.rsqrt : (⟨S4, .f32⟩ : BufTy).Contents (Elt F) → (⟨S4, .f32⟩ : BufTy).Contents (Elt F)),
    StableHlo.unary main_v13 main_v14 (broadcastInDim S1x4 ![1] bcast_S4_S1x4_1 : (⟨S4, .f32⟩ : BufTy).Contents (Elt F) → (⟨S1x4, .f32⟩ : BufTy).Contents (Elt F)),
    StableHlo.unary main_v14 main_v15 (broadcastInDim S100000x4 ![0, 1] bcast_S1x4_S100000x4_0_1 : (⟨S1x4, .f32⟩ : BufTy).Contents (Elt F) → (⟨S100000x4, .f32⟩ : BufTy).Contents (Elt F)),
    StableHlo.binary main_v10 main_v15 main_v16 (mulf : (⟨S100000x4, .f32⟩ : BufTy).Contents (Elt F) → (⟨S100000x4, .f32⟩ : BufTy).Contents (Elt F) → (⟨S100000x4, .f32⟩ : BufTy).Contents (Elt F)),
    StableHlo.unary main_arg2 main_v17 (broadcastInDim S1x4 ![1] bcast_S4_S1x4_1 : (⟨S4, .f32⟩ : BufTy).Contents (Elt F) → (⟨S1x4, .f32⟩ : BufTy).Contents (Elt F)),
    StableHlo.unary main_v17 main_v18 (broadcastInDim S100000x4 ![0, 1] bcast_S1x4_S100000x4_0_1 : (⟨S1x4, .f32⟩ : BufTy).Contents (Elt F) → (⟨S100000x4, .f32⟩ : BufTy).Contents (Elt F)),
    StableHlo.binary main_v16 main_v18 main_v19 (mulf : (⟨S100000x4, .f32⟩ : BufTy).Contents (Elt F) → (⟨S100000x4, .f32⟩ : BufTy).Contents (Elt F) → (⟨S100000x4, .f32⟩ : BufTy).Contents (Elt F)),
    StableHlo.unary main_arg3 main_v20 (broadcastInDim S1x4 ![1] bcast_S4_S1x4_1 : (⟨S4, .f32⟩ : BufTy).Contents (Elt F) → (⟨S1x4, .f32⟩ : BufTy).Contents (Elt F)),
    StableHlo.unary main_v20 main_v21 (broadcastInDim S100000x4 ![0, 1] bcast_S1x4_S100000x4_0_1 : (⟨S1x4, .f32⟩ : BufTy).Contents (Elt F) → (⟨S100000x4, .f32⟩ : BufTy).Contents (Elt F)),
    StableHlo.binary main_v19 main_v21 main_v22 (addf : (⟨S100000x4, .f32⟩ : BufTy).Contents (Elt F) → (⟨S100000x4, .f32⟩ : BufTy).Contents (Elt F) → (⟨S100000x4, .f32⟩ : BufTy).Contents (Elt F)),
    StableHlo.nullary main_c_2 (constantI S_ 32 0#32),
    StableHlo.unary main_c_2 main_v23 (broadcastInDim S3200000 ![] bcast_S_S3200000 : (⟨S_, .i32⟩ : BufTy).Contents (Elt F) → (⟨S3200000, .i32⟩ : BufTy).Contents (Elt F)),
    StableHlo.binary main_v3 main_v23 main_v24 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v25 (broadcastInDim S3200000 ![] bcast_S_S3200000 : (⟨S_, .i32⟩ : BufTy).Contents (Elt F) → (⟨S3200000, .i32⟩ : BufTy).Contents (Elt F)),
    StableHlo.binary main_v3 main_v25 main_v26 (addi : (⟨S3200000, .i32⟩ : BufTy).Contents (Elt F) → (⟨S3200000, .i32⟩ : BufTy).Contents (Elt F) → (⟨S3200000, .i32⟩ : BufTy).Contents (Elt F)),
    StableHlo.ternary main_v24 main_v26 main_v3 main_v27 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v27 main_v28 (broadcastInDim S3200000x1 ![0] bcast_S3200000_S3200000x1_0 : (⟨S3200000, .i32⟩ : BufTy).Contents (Elt F) → (⟨S3200000x1, .i32⟩ : BufTy).Contents (Elt F)),
    StableHlo.binary main_v22 main_v28 main_v29 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),
    StableHlo.nullary main_c_4 (constantI S_ 32 0#32),
    StableHlo.unary main_c_4 main_v30 (broadcastInDim S3200000 ![] bcast_S_S3200000 : (⟨S_, .i32⟩ : BufTy).Contents (Elt F) → (⟨S3200000, .i32⟩ : BufTy).Contents (Elt F)),
    StableHlo.binary main_v1 main_v30 main_v31 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v32 (broadcastInDim S3200000 ![] bcast_S_S3200000 : (⟨S_, .i32⟩ : BufTy).Contents (Elt F) → (⟨S3200000, .i32⟩ : BufTy).Contents (Elt F)),
    StableHlo.binary main_v1 main_v32 main_v33 (addi : (⟨S3200000, .i32⟩ : BufTy).Contents (Elt F) → (⟨S3200000, .i32⟩ : BufTy).Contents (Elt F) → (⟨S3200000, .i32⟩ : BufTy).Contents (Elt F)),
    StableHlo.ternary main_v31 main_v33 main_v1 main_v34 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v34 main_v35 (broadcastInDim S3200000x1 ![0] bcast_S3200000_S3200000x1_0 : (⟨S3200000, .i32⟩ : BufTy).Contents (Elt F) → (⟨S3200000x1, .i32⟩ : BufTy).Contents (Elt F)),
    StableHlo.binary main_v22 main_v35 main_v36 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),
    StableHlo.binary main_v36 main_v29 main_v37 (subf : (⟨S3200000x4, .f32⟩ : BufTy).Contents (Elt F) → (⟨S3200000x4, .f32⟩ : BufTy).Contents (Elt F) → (⟨S3200000x4, .f32⟩ : BufTy).Contents (Elt F)),
    StableHlo.binary main_v29 main_v37 main_v38 ((fun a b => concatenate S3200000x8 1 [⟨S3200000x4, a⟩, ⟨S3200000x4, b⟩] concatenates_S3200000x4_S3200000x4_S3200000x8_d1) : (⟨S3200000x4, .f32⟩ : BufTy).Contents (Elt F) → (⟨S3200000x4, .f32⟩ : BufTy).Contents (Elt F) → (⟨S3200000x8, .f32⟩ : BufTy).Contents (Elt F)),
    StableHlo.binary main_v38 main_arg4 main_v39 ((fun l r => Host.dotGeneral dot_S3200000x8_S8x32_S3200000x32_1_0_0_1_n_n none l r) : (⟨S3200000x8, .f32⟩ : BufTy).Contents (Elt F) → (⟨S8x32, .f32⟩ : BufTy).Contents (Elt F) → (⟨S3200000x32, .f32⟩ : BufTy).Contents (Elt F)),
    StableHlo.unary main_arg5 main_v40 (broadcastInDim S1x32 ![1] bcast_S32_S1x32_1 : (⟨S32, .f32⟩ : BufTy).Contents (Elt F) → (⟨S1x32, .f32⟩ : BufTy).Contents (Elt F)),
    StableHlo.unary main_v40 main_v41 (broadcastInDim S3200000x32 ![0, 1] bcast_S1x32_S3200000x32_0_1 : (⟨S1x32, .f32⟩ : BufTy).Contents (Elt F) → (⟨S3200000x32, .f32⟩ : BufTy).Contents (Elt F)),
    StableHlo.binary main_v39 main_v41 main_v42 (addf : (⟨S3200000x32, .f32⟩ : BufTy).Contents (Elt F) → (⟨S3200000x32, .f32⟩ : BufTy).Contents (Elt F) → (⟨S3200000x32, .f32⟩ : BufTy).Contents (Elt F)),
    StableHlo.TRef.nullary main_call1.cst (constant S_ .f32 0x00000000#32),
    StableHlo.TRef.unary main_call1.cst main_call1.v0 (broadcastInDim S3200000x32 ![] bcast_S_S3200000x32),
    StableHlo.TRef.binary ((.of main_v42) : StableHlo.TRef sig ⟨S3200000x32, .f32⟩) main_call1.v0 main_call1.v1 maximumf,
    StableHlo.binary main_v43 main_arg6 main_v44 ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F)),
    StableHlo.unary main_arg7 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S3200000x32 ![0, 1] bcast_S1x32_S3200000x32_0_1 : (⟨S1x32, .f32⟩ : BufTy).Contents (Elt F) → (⟨S3200000x32, .f32⟩ : BufTy).Contents (Elt F)),
    StableHlo.binary main_v44 main_v46 main_v47 (addf : (⟨S3200000x32, .f32⟩ : BufTy).Contents (Elt F) → (⟨S3200000x32, .f32⟩ : BufTy).Contents (Elt F) → (⟨S3200000x32, .f32⟩ : BufTy).Contents (Elt F)),
    StableHlo.TRef.nullary main_call2.cst (constant S_ .f32 0x00000000#32),
    StableHlo.TRef.unary main_call2.cst main_call2.v0 (broadcastInDim S3200000x32 ![] bcast_S_S3200000x32),
    StableHlo.TRef.binary ((.of main_v47) : StableHlo.TRef sig ⟨S3200000x32, .f32⟩) main_call2.v0 main_call2.v1 maximumf,
    StableHlo.binary main_v48 main_arg8 main_v49 ((fun l r => Host.dotGeneral dot_S3200000x32_S32x2_S3200000x2_1_0_0_1_n_n none l r) : (⟨S3200000x32, .f32⟩ : BufTy).Contents (Elt F) → (⟨S32x2, .f32⟩ : BufTy).Contents (Elt F) → (⟨S3200000x2, .f32⟩ : BufTy).Contents (Elt F)),
    StableHlo.unary main_arg9 main_v50 (broadcastInDim S1x2 ![1] bcast_S2_S1x2_1 : (⟨S2, .f32⟩ : BufTy).Contents (Elt F) → (⟨S1x2, .f32⟩ : BufTy).Contents (Elt F)),
    StableHlo.unary main_v50 main_v51 (broadcastInDim S3200000x2 ![0, 1] bcast_S1x2_S3200000x2_0_1 : (⟨S1x2, .f32⟩ : BufTy).Contents (Elt F) → (⟨S3200000x2, .f32⟩ : BufTy).Contents (Elt F)),
    StableHlo.binary main_v49 main_v51 main_v52 (addf : (⟨S3200000x2, .f32⟩ : BufTy).Contents (Elt F) → (⟨S3200000x2, .f32⟩ : BufTy).Contents (Elt F) → (⟨S3200000x2, .f32⟩ : BufTy).Contents (Elt F)),
    StableHlo.TRef.nullary main_call3.cst (constant S_ .f32 0x00000000#32),
    StableHlo.TRef.unary main_call3.cst main_call3.v0 (broadcastInDim S3200000x2 ![] bcast_S_S3200000x2),
    StableHlo.TRef.binary ((.of main_v52) : StableHlo.TRef sig ⟨S3200000x2, .f32⟩) main_call3.v0 main_call3.v1 maximumf,
    StableHlo.nullary main_cst_6 (constant S_ .f32 0x00000000#32),
    StableHlo.unary main_cst_6 main_v54 (broadcastInDim S100000x2 ![] bcast_S_S100000x2 : (⟨S_, .f32⟩ : BufTy).Contents (Elt F) → (⟨S100000x2, .f32⟩ : BufTy).Contents (Elt F)),
    StableHlo.unary main_v3 main_v55 (broadcastInDim S3200000x1 ![0] bcast_S3200000_S3200000x1_0 : (⟨S3200000, .i32⟩ : BufTy).Contents (Elt F) → (⟨S3200000x1, .i32⟩ : BufTy).Contents (Elt F)),
    StableHlo.ternary main_v54 main_v55 main_v53 main_v56 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F)),
    StableHlo.nullary main_cst_7 (constant S_ .f32 0x3F800000#32),
    StableHlo.unary main_cst_7 main_v57 (broadcastInDim S3200000 ![] bcast_S_S3200000 : (⟨S_, .f32⟩ : BufTy).Contents (Elt F) → (⟨S3200000, .f32⟩ : BufTy).Contents (Elt F)),
    StableHlo.nullary main_cst_8 (constant S_ .f32 0x00000000#32),
    StableHlo.unary main_cst_8 main_v58 (broadcastInDim S100000 ![] bcast_S_S100000 : (⟨S_, .f32⟩ : BufTy).Contents (Elt F) → (⟨S100000, .f32⟩ : BufTy).Contents (Elt F)),
    StableHlo.unary main_v3 main_v59 (broadcastInDim S3200000x1 ![0] bcast_S3200000_S3200000x1_0 : (⟨S3200000, .i32⟩ : BufTy).Contents (Elt F) → (⟨S3200000x1, .i32⟩ : BufTy).Contents (Elt F)),
    StableHlo.ternary main_v58 main_v59 main_v57 main_v60 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_9 (constant S_ .f32 0x3F800000#32),
    StableHlo.unary main_cst_9 main_v61 (broadcastInDim S100000 ![] bcast_S_S100000 : (⟨S_, .f32⟩ : BufTy).Contents (Elt F) → (⟨S100000, .f32⟩ : BufTy).Contents (Elt F)),
    StableHlo.binary main_v60 main_v61 main_v62 (maximumf : (⟨S100000, .f32⟩ : BufTy).Contents (Elt F) → (⟨S100000, .f32⟩ : BufTy).Contents (Elt F) → (⟨S100000, .f32⟩ : BufTy).Contents (Elt F)),
    StableHlo.unary main_v62 main_v63 (broadcastInDim S100000x1 ![0] bcast_S100000_S100000x1_0 : (⟨S100000, .f32⟩ : BufTy).Contents (Elt F) → (⟨S100000x1, .f32⟩ : BufTy).Contents (Elt F)),
    StableHlo.unary main_v63 main_v64 (broadcastInDim S100000x2 ![0, 1] bcast_S100000x1_S100000x2_0_1 : (⟨S100000x1, .f32⟩ : BufTy).Contents (Elt F) → (⟨S100000x2, .f32⟩ : BufTy).Contents (Elt F)),
    StableHlo.binary main_v56 main_v64 main_v65 (Host.divf : (⟨S100000x2, .f32⟩ : BufTy).Contents (Elt F) → (⟨S100000x2, .f32⟩ : BufTy).Contents (Elt F) → (⟨S100000x2, .f32⟩ : BufTy).Contents (Elt F)),
    StableHlo.nullary main_c_10 (constantI S_ 32 0#32),
    StableHlo.unary main_c_10 main_v66 (broadcastInDim S3200000 ![] bcast_S_S3200000 : (⟨S_, .i32⟩ : BufTy).Contents (Elt F) → (⟨S3200000, .i32⟩ : BufTy).Contents (Elt F)),
    StableHlo.binary main_v3 main_v66 main_v67 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v68 (broadcastInDim S3200000 ![] bcast_S_S3200000 : (⟨S_, .i32⟩ : BufTy).Contents (Elt F) → (⟨S3200000, .i32⟩ : BufTy).Contents (Elt F)),
    StableHlo.binary main_v3 main_v68 main_v69 (addi : (⟨S3200000, .i32⟩ : BufTy).Contents (Elt F) → (⟨S3200000, .i32⟩ : BufTy).Contents (Elt F) → (⟨S3200000, .i32⟩ : BufTy).Contents (Elt F)),
    StableHlo.ternary main_v67 main_v69 main_v3 main_v70 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v70 main_v71 (broadcastInDim S3200000x1 ![0] bcast_S3200000_S3200000x1_0 : (⟨S3200000, .i32⟩ : BufTy).Contents (Elt F) → (⟨S3200000x1, .i32⟩ : BufTy).Contents (Elt F)),
    StableHlo.binary main_v65 main_v71 main_v72 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F)),
    StableHlo.nullary main_c_12 (constantI S_ 32 0#32),
    StableHlo.unary main_c_12 main_v73 (broadcastInDim S3200000 ![] bcast_S_S3200000 : (⟨S_, .i32⟩ : BufTy).Contents (Elt F) → (⟨S3200000, .i32⟩ : BufTy).Contents (Elt F)),
    StableHlo.binary main_v1 main_v73 main_v74 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v75 (broadcastInDim S3200000 ![] bcast_S_S3200000 : (⟨S_, .i32⟩ : BufTy).Contents (Elt F) → (⟨S3200000, .i32⟩ : BufTy).Contents (Elt F)),
    StableHlo.binary main_v1 main_v75 main_v76 (addi : (⟨S3200000, .i32⟩ : BufTy).Contents (Elt F) → (⟨S3200000, .i32⟩ : BufTy).Contents (Elt F) → (⟨S3200000, .i32⟩ : BufTy).Contents (Elt F)),
    StableHlo.ternary main_v74 main_v76 main_v1 main_v77 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v77 main_v78 (broadcastInDim S3200000x1 ![0] bcast_S3200000_S3200000x1_0 : (⟨S3200000, .i32⟩ : BufTy).Contents (Elt F) → (⟨S3200000x1, .i32⟩ : BufTy).Contents (Elt F)),
    StableHlo.binary main_v65 main_v78 main_v79 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F)),
    StableHlo.binary main_v79 main_v72 main_v80 (subf : (⟨S3200000x2, .f32⟩ : BufTy).Contents (Elt F) → (⟨S3200000x2, .f32⟩ : BufTy).Contents (Elt F) → (⟨S3200000x2, .f32⟩ : BufTy).Contents (Elt F)),
    StableHlo.binary main_v72 main_v80 main_v81 ((fun a b => concatenate S3200000x4 1 [⟨S3200000x2, a⟩, ⟨S3200000x2, b⟩] concatenates_S3200000x2_S3200000x2_S3200000x4_d1) : (⟨S3200000x2, .f32⟩ : BufTy).Contents (Elt F) → (⟨S3200000x2, .f32⟩ : BufTy).Contents (Elt F) → (⟨S3200000x4, .f32⟩ : BufTy).Contents (Elt F)),
    StableHlo.binary main_v81 main_arg10 main_v82 ((fun l r => Host.dotGeneral dot_S3200000x4_S4x32_S3200000x32_1_0_0_1_n_n none l r) : (⟨S3200000x4, .f32⟩ : BufTy).Contents (Elt F) → (⟨S4x32, .f32⟩ : BufTy).Contents (Elt F) → (⟨S3200000x32, .f32⟩ : BufTy).Contents (Elt F)),
    StableHlo.unary main_arg11 main_v83 (broadcastInDim S1x32 ![1] bcast_S32_S1x32_1 : (⟨S32, .f32⟩ : BufTy).Contents (Elt F) → (⟨S1x32, .f32⟩ : BufTy).Contents (Elt F)),
    StableHlo.unary main_v83 main_v84 (broadcastInDim S3200000x32 ![0, 1] bcast_S1x32_S3200000x32_0_1 : (⟨S1x32, .f32⟩ : BufTy).Contents (Elt F) → (⟨S3200000x32, .f32⟩ : BufTy).Contents (Elt F)),
    StableHlo.binary main_v82 main_v84 main_v85 (addf : (⟨S3200000x32, .f32⟩ : BufTy).Contents (Elt F) → (⟨S3200000x32, .f32⟩ : BufTy).Contents (Elt F) → (⟨S3200000x32, .f32⟩ : BufTy).Contents (Elt F)),
    StableHlo.TRef.nullary main_call4.cst (constant S_ .f32 0x00000000#32),
    StableHlo.TRef.unary main_call4.cst main_call4.v0 (broadcastInDim S3200000x32 ![] bcast_S_S3200000x32),
    StableHlo.TRef.binary ((.of main_v85) : StableHlo.TRef sig ⟨S3200000x32, .f32⟩) main_call4.v0 main_call4.v1 maximumf,
    StableHlo.binary main_v86 main_arg12 main_v87 ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F)),
    StableHlo.unary main_arg13 main_v88 (broadcastInDim S1x32 ![1] bcast_S32_S1x32_1 : (⟨S32, .f32⟩ : BufTy).Contents (Elt F) → (⟨S1x32, .f32⟩ : BufTy).Contents (Elt F)),
    StableHlo.unary main_v88 main_v89 (broadcastInDim S3200000x32 ![0, 1] bcast_S1x32_S3200000x32_0_1 : (⟨S1x32, .f32⟩ : BufTy).Contents (Elt F) → (⟨S3200000x32, .f32⟩ : BufTy).Contents (Elt F)),
    StableHlo.binary main_v87 main_v89 main_v90 (addf : (⟨S3200000x32, .f32⟩ : BufTy).Contents (Elt F) → (⟨S3200000x32, .f32⟩ : BufTy).Contents (Elt F) → (⟨S3200000x32, .f32⟩ : BufTy).Contents (Elt F)),
    StableHlo.TRef.nullary main_call5.cst (constant S_ .f32 0x00000000#32),
    StableHlo.TRef.unary main_call5.cst main_call5.v0 (broadcastInDim S3200000x32 ![] bcast_S_S3200000x32),
    StableHlo.TRef.binary ((.of main_v90) : StableHlo.TRef sig ⟨S3200000x32, .f32⟩) main_call5.v0 main_call5.v1 maximumf,
    StableHlo.binary main_v91 main_arg14 main_v92 ((fun l r => Host.dotGeneral dot_S3200000x32_S32x4_S3200000x4_1_0_0_1_n_n none l r) : (⟨S3200000x32, .f32⟩ : BufTy).Contents (Elt F) → (⟨S32x4, .f32⟩ : BufTy).Contents (Elt F) → (⟨S3200000x4, .f32⟩ : BufTy).Contents (Elt F)),
    StableHlo.unary main_arg15 main_v93 (broadcastInDim S1x4 ![1] bcast_S4_S1x4_1 : (⟨S4, .f32⟩ : BufTy).Contents (Elt F) → (⟨S1x4, .f32⟩ : BufTy).Contents (Elt F)),
    StableHlo.unary main_v93 main_v94 (broadcastInDim S3200000x4 ![0, 1] bcast_S1x4_S3200000x4_0_1 : (⟨S1x4, .f32⟩ : BufTy).Contents (Elt F) → (⟨S3200000x4, .f32⟩ : BufTy).Contents (Elt F)),
    StableHlo.binary main_v92 main_v94 main_v95 (addf : (⟨S3200000x4, .f32⟩ : BufTy).Contents (Elt F) → (⟨S3200000x4, .f32⟩ : BufTy).Contents (Elt F) → (⟨S3200000x4, .f32⟩ : BufTy).Contents (Elt F)),
    StableHlo.nullary main_cst_14 (constant S_ .f32 0x00000000#32),
    StableHlo.unary main_cst_14 main_v96 (broadcastInDim S100000x4 ![] bcast_S_S100000x4 : (⟨S_, .f32⟩ : BufTy).Contents (Elt F) → (⟨S100000x4, .f32⟩ : BufTy).Contents (Elt F)),
    StableHlo.unary main_v3 main_v97 (broadcastInDim S3200000x1 ![0] bcast_S3200000_S3200000x1_0 : (⟨S3200000, .i32⟩ : BufTy).Contents (Elt F) → (⟨S3200000x1, .i32⟩ : BufTy).Contents (Elt F)),
    StableHlo.ternary main_v96 main_v97 main_v95 main_v98 ((fun x i u => Host.scatterAdd scatter_S100000x4_S3200000x1_S3200000x4_1_0_0_1 x i u) : (⟨S100000x4, .f32⟩ : BufTy).Contents (Elt F) → (⟨S3200000x1, .i32⟩ : BufTy).Contents (Elt F) → (⟨S3200000x4, .f32⟩ : BufTy).Contents (Elt F) → (⟨S100000x4, .f32⟩ : BufTy).Contents (Elt F)),
    StableHlo.nullary main_cst_15 (constant S_ .f32 0x3F800000#32),
    StableHlo.unary main_cst_15 main_v99 (broadcastInDim S3200000 ![] bcast_S_S3200000 : (⟨S_, .f32⟩ : BufTy).Contents (Elt F) → (⟨S3200000, .f32⟩ : BufTy).Contents (Elt F)),
    StableHlo.nullary main_cst_16 (constant S_ .f32 0x00000000#32),
    StableHlo.unary main_cst_16 main_v100 (broadcastInDim S100000 ![] bcast_S_S100000 : (⟨S_, .f32⟩ : BufTy).Contents (Elt F) → (⟨S100000, .f32⟩ : BufTy).Contents (Elt F)),
    StableHlo.unary main_v3 main_v101 (broadcastInDim S3200000x1 ![0] bcast_S3200000_S3200000x1_0 : (⟨S3200000, .i32⟩ : BufTy).Contents (Elt F) → (⟨S3200000x1, .i32⟩ : BufTy).Contents (Elt F)),
    StableHlo.ternary main_v100 main_v101 main_v99 main_v102 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_17 (constant S_ .f32 0x3F800000#32),
    StableHlo.unary main_cst_17 main_v103 (broadcastInDim S100000 ![] bcast_S_S100000 : (⟨S_, .f32⟩ : BufTy).Contents (Elt F) → (⟨S100000, .f32⟩ : BufTy).Contents (Elt F)),
    StableHlo.binary main_v102 main_v103 main_v104 (maximumf : (⟨S100000, .f32⟩ : BufTy).Contents (Elt F) → (⟨S100000, .f32⟩ : BufTy).Contents (Elt F) → (⟨S100000, .f32⟩ : BufTy).Contents (Elt F)),
    StableHlo.unary main_v104 main_v105 (broadcastInDim S100000x1 ![0] bcast_S100000_S100000x1_0 : (⟨S100000, .f32⟩ : BufTy).Contents (Elt F) → (⟨S100000x1, .f32⟩ : BufTy).Contents (Elt F)),
    StableHlo.unary main_v105 main_v106 (broadcastInDim S100000x4 ![0, 1] bcast_S100000x1_S100000x4_0_1 : (⟨S100000x1, .f32⟩ : BufTy).Contents (Elt F) → (⟨S100000x4, .f32⟩ : BufTy).Contents (Elt F)),
    StableHlo.binary main_v98 main_v106 main_v107 (Host.divf : (⟨S100000x4, .f32⟩ : BufTy).Contents (Elt F) → (⟨S100000x4, .f32⟩ : BufTy).Contents (Elt F) → (⟨S100000x4, .f32⟩ : BufTy).Contents (Elt F)) ]

/-- Every operation reads and writes TensorCore buffers only. -/
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub ..,
    StableHlo.nullary_bufs_sub .., StableHlo.unary_bufs_sub .., StableHlo.binary_bufs_sub .., StableHlo.nullary_bufs_sub .., StableHlo.nullary_bufs_sub .., StableHlo.binary_bufs_sub ..,
    StableHlo.unary_bufs_sub .., StableHlo.nullary_bufs_sub .., StableHlo.unary_bufs_sub .., StableHlo.binary_bufs_sub .., StableHlo.unary_bufs_sub .., StableHlo.binary_bufs_sub ..,
    StableHlo.binary_bufs_sub .., StableHlo.unary_bufs_sub .., StableHlo.nullary_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub .., StableHlo.nullary_bufs_sub .., StableHlo.unary_bufs_sub ..,
    StableHlo.unary_bufs_sub .., StableHlo.ternary_bufs_sub .., StableHlo.unary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.binary_bufs_sub .., StableHlo.binary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.binary_bufs_sub .., StableHlo.binary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.unary_bufs_sub .., StableHlo.unary_bufs_sub .., StableHlo.binary_bufs_sub ..⟩

end Cert.RefOps

end
-- ==== Proof.RStage.lean ====
/-
  The reference program's value, stage by stage, as functions of whole arrays.

  Node features are normalised per column (mean and biased variance over all nodes, an epsilon under the inverse
  square root, a scale and a shift). An edge convolution gathers, for every edge, the normalised row of its target
  node and of its source node (a negative index first has the node count added), feeds the target row and the
  difference source − target through a three-layer network, sums the messages of all edges that share a target node,
  and divides by the number of such edges (at least one). Two such convolutions follow one another.
  Each definition below is the composition of the reference's own operations, in its order, on explicit arguments.
-/
import proofs.«403383_j8177617731794_1_alg».proof.ReferenceIdeal

noncomputable section

namespace Cert.RStage

open Idealize.ShloMosaic Cert.ReferenceIdeal

variable {F : FTy → Type} [FloatOps F] [Cert.ReferenceIdeal.Facts]
open Cert.ReferenceIdeal.Facts₀ Cert.ReferenceIdeal.Facts

/-- Row 0 of the edge list: every edge's source node. -/
def srcOf (ei : IVec S2x3200000 32) : IVec S3200000 32 :=
  shapeCast S3200000 (extractStridedSlice S1x3200000 ![0, 0] ei slices_S2x3200000_S1x3200000_0_0) shapeCasts_S1x3200000_S3200000

/-- Row 1 of the edge list: every edge's target node. -/
def dstOf (ei : IVec S2x3200000 32) : IVec S3200000 32 :=
  shapeCast S3200000 (extractStridedSlice S1x3200000 ![1, 0] ei slices_S2x3200000_S1x3200000_1_0) shapeCasts_S1x3200000_S3200000

/-- A per-column vector repeated on every node row. -/
def rowsOf (v : FVec F S4 .f32) : FVec F S100000x4 .f32 :=
  broadcastInDim S100000x4 ![0, 1] bcast_S1x4_S100000x4_0_1 (broadcastInDim S1x4 ![1] bcast_S4_S1x4_1 v)

/-- The column means over the nodes. -/
def mean (x : FVec F S100000x4 .f32) : FVec F S4 .f32 :=
  Host.divf (Host.reduceAdd x (constant S_ .f32 0x00000000#32) reducesTo_S100000x4_S4_d0 h_S_)
    (broadcastInDim S4 ![] bcast_S_S4 (constant S_ .f32 0x47C35000#32))

/-- The features minus their column means, as the variance computes them. -/
def centered (x : FVec F S100000x4 .f32) : FVec F S100000x4 .f32 :=
  subf x (broadcastInDim S100000x4 ![0, 1] bcast_S1x4_S100000x4_0_1
    (Host.divf (broadcastInDim S1x4 ![1] bcast_S4_S1x4_1 (Host.reduceAdd x (constant S_ .f32 0x00000000#32) reducesTo_S100000x4_S4_d0 h_S_))
      (broadcastInDim S1x4 ![] bcast_S_S1x4 (constant S_ .f32 0x47C35000#32))))

/-- The variance's divisor: the node count minus the (zero) degrees of freedom. -/
def divisor : FVec F S_ .f32 :=
  subf (constant S_ .f32 0x47C35000#32) (sitofp .f32 (constantI S_ 32 0#32))

/-- The biased column variances over the nodes. -/
def variance (x : FVec F S100000x4 .f32) : FVec F S4 .f32 :=
  select (broadcastInDim S4 ![] bcast_S_S4 (cmpf .ogt (divisor (F := F)) (constant S_ .f32 0x00000000#32)))
    (Host.divf (Host.reduceAdd (mulf (centered x) (centered x)) (constant S_ .f32 0x00000000#32) reducesTo_S100000x4_S4_d0 h_S_)
      (broadcastInDim S4 ![] bcast_S_S4 (divisor (F := F))))
    (broadcastInDim S4 ![] bcast_S_S4 (id (constant S_ .f32 0x7FC00000#32)))

/-- The normalised node features. -/
def bn (x : FVec F S100000x4 .f32) (γ β : FVec F S4 .f32) : FVec F S100000x4 .f32 :=
  addf (mulf (mulf (subf x (rowsOf (mean x)))
      (rowsOf (Host.rsqrt (addf (variance x) (broadcastInDim S4 ![] bcast_S_S4 (constant S_ .f32 0x3727C5AC#32))))))
    (rowsOf γ)) (rowsOf β)

/-- An index vector as a one-column array of start indices. -/
def col (i : IVec S3200000 32) : IVec S3200000x1 32 :=
  broadcastInDim S3200000x1 ![0] bcast_S3200000_S3200000x1_0 i

/-- Negative indices have the node count added. -/
def wrap (i : IVec S3200000 32) : IVec S3200000 32 :=
  select (cmpi .slt i (broadcastInDim S3200000 ![] bcast_S_S3200000 (constantI S_ 32 0#32)))
    (addi i (broadcastInDim S3200000 ![] bcast_S_S3200000 (constantI S_ 32 100000#32))) i

/-- The rows of a four-column node array at the given nodes. -/
def gath4 (h : FVec F S100000x4 .f32) (i : IVec S3200000 32) : FVec F S3200000x4 .f32 :=
  Host.gather gather_S100000x4_S3200000x1_S3200000x4_1_0_n_n_0_1_14 h (col (wrap i))

/-- The rows of a two-column node array at the given nodes. -/
def gath2 (h : FVec F S100000x2 .f32) (i : IVec S3200000 32) : FVec F S3200000x2 .f32 :=
  Host.gather gather_S100000x2_S3200000x1_S3200000x2_1_0_n_n_0_1_12 h (col (wrap i))

/-- The number of edges into every node, at least one. -/
def cnt (dst : IVec S3200000 32) : FVec F S100000 .f32 :=
  maximumf
    (Host.scatterAdd scatter_S100000_S3200000x1_S3200000_n_0_0_1
      (broadcastInDim S100000 ![] bcast_S_S100000 (constant S_ .f32 0x00000000#32)) (col dst)
      (broadcastInDim S3200000 ![] bcast_S_S3200000 (constant S_ .f32 0x3F800000#32)))
    (broadcastInDim S100000 ![] bcast_S_S100000 (constant S_ .f32 0x3F800000#32))

/-- The two-column messages summed per target node. -/
def seg2 (dst : IVec S3200000 32) (msg : FVec F S3200000x2 .f32) : FVec F S100000x2 .f32 :=
  Host.scatterAdd scatter_S100000x2_S3200000x1_S3200000x2_1_0_0_1
    (broadcastInDim S100000x2 ![] bcast_S_S100000x2 (constant S_ .f32 0x00000000#32)) (col dst) msg

/-- The four-column messages summed per target node. -/
def seg4 (dst : IVec S3200000 32) (msg : FVec F S3200000x4 .f32) : FVec F S100000x4 .f32 :=
  Host.scatterAdd scatter_S100000x4_S3200000x1_S3200000x4_1_0_0_1
    (broadcastInDim S100000x4 ![] bcast_S_S100000x4 (constant S_ .f32 0x00000000#32)) (col dst) msg

/-- A two-column node array divided by the edge counts. -/
def mean2 (dst : IVec S3200000 32) (s : FVec F S100000x2 .f32) : FVec F S100000x2 .f32 :=
  Host.divf s (broadcastInDim S100000x2 ![0, 1] bcast_S100000x1_S100000x2_0_1
    (broadcastInDim S100000x1 ![0] bcast_S100000_S100000x1_0 (cnt dst)))

/-- A four-column node array divided by the edge counts. -/
def mean4 (dst : IVec S3200000 32) (s : FVec F S100000x4 .f32) : FVec F S100000x4 .f32 :=
  Host.divf s (broadcastInDim S100000x4 ![0, 1] bcast_S100000x1_S100000x4_0_1
    (broadcastInDim S100000x1 ![0] bcast_S100000_S100000x1_0 (cnt dst)))

/-- The rectifier on a 32-column edge array. -/
def relu32 (x : FVec F S3200000x32 .f32) : FVec F S3200000x32 .f32 :=
  maximumf x (broadcastInDim S3200000x32 ![] bcast_S_S3200000x32 (constant S_ .f32 0x00000000#32))

/-- The rectifier on a two-column edge array. -/
def relu2 (x : FVec F S3200000x2 .f32) : FVec F S3200000x2 .f32 :=
  maximumf x (broadcastInDim S3200000x2 ![] bcast_S_S3200000x2 (constant S_ .f32 0x00000000#32))

/-- A 32-entry bias on every edge row. -/
def bias32 (b : FVec F S32 .f32) : FVec F S3200000x32 .f32 :=
  broadcastInDim S3200000x32 ![0, 1] bcast_S1x32_S3200000x32_0_1 (broadcastInDim S1x32 ![1] bcast_S32_S1x32_1 b)

/-- A two-entry bias on every edge row. -/
def bias2 (b : FVec F S2 .f32) : FVec F S3200000x2 .f32 :=
  broadcastInDim S3200000x2 ![0, 1] bcast_S1x2_S3200000x2_0_1 (broadcastInDim S1x2 ![1] bcast_S2_S1x2_1 b)

/-- A four-entry bias on every edge row. -/
def bias4 (b : FVec F S4 .f32) : FVec F S3200000x4 .f32 :=
  broadcastInDim S3200000x4 ![0, 1] bcast_S1x4_S3200000x4_0_1 (broadcastInDim S1x4 ![1] bcast_S4_S1x4_1 b)

/-- The encoder network on every edge, as the reference's operations. -/
def encOps (xi d : FVec F S3200000x4 .f32) (w1 : FVec F S8x32 .f32) (b1 : FVec F S32 .f32) (w2 : FVec F S32x32 .f32)
    (b2 : FVec F S32 .f32) (w3 : FVec F S32x2 .f32) (b3 : FVec F S2 .f32) : FVec F S3200000x2 .f32 :=
  relu2 (addf (Host.dotGeneral dot_S3200000x32_S32x2_S3200000x2_1_0_0_1_n_n none
    (relu32 (addf (Host.dotGeneral dot_S3200000x32_S32x32_S3200000x32_1_0_0_1_n_n none
      (relu32 (addf (Host.dotGeneral dot_S3200000x8_S8x32_S3200000x32_1_0_0_1_n_n none
        (concatenate S3200000x8 1 [⟨S3200000x4, xi⟩, ⟨S3200000x4, d⟩] concatenates_S3200000x4_S3200000x4_S3200000x8_d1) w1)
        (bias32 b1))) w2) (bias32 b2))) w3) (bias2 b3))

/-- The decoder network on every edge, as the reference's operations. -/
def decOps (xi d : FVec F S3200000x2 .f32) (w1 : FVec F S4x32 .f32) (b1 : FVec F S32 .f32) (w2 : FVec F S32x32 .f32)
    (b2 : FVec F S32 .f32) (w3 : FVec F S32x4 .f32) (b3 : FVec F S4 .f32) : FVec F S3200000x4 .f32 :=
  addf (Host.dotGeneral dot_S3200000x32_S32x4_S3200000x4_1_0_0_1_n_n none
    (relu32 (addf (Host.dotGeneral dot_S3200000x32_S32x32_S3200000x32_1_0_0_1_n_n none
      (relu32 (addf (Host.dotGeneral dot_S3200000x4_S4x32_S3200000x32_1_0_0_1_n_n none
        (concatenate S3200000x4 1 [⟨S3200000x2, xi⟩, ⟨S3200000x2, d⟩] concatenates_S3200000x2_S3200000x2_S3200000x4_d1) w1)
        (bias32 b1))) w2) (bias32 b2))) w3) (bias4 b3)

/-- The first convolution: four node features to two. -/
def layer1 (h : FVec F S100000x4 .f32) (src dst : IVec S3200000 32) (w1 : FVec F S8x32 .f32) (b1 : FVec F S32 .f32)
    (w2 : FVec F S32x32 .f32) (b2 : FVec F S32 .f32) (w3 : FVec F S32x2 .f32) (b3 : FVec F S2 .f32) : FVec F S100000x2 .f32 :=
  mean2 dst (seg2 dst (encOps (gath4 h dst) (subf (gath4 h src) (gath4 h dst)) w1 b1 w2 b2 w3 b3))

/-- The second convolution: two node features to four. -/
def layer2 (h : FVec F S100000x2 .f32) (src dst : IVec S3200000 32) (w1 : FVec F S4x32 .f32) (b1 : FVec F S32 .f32)
    (w2 : FVec F S32x32 .f32) (b2 : FVec F S32 .f32) (w3 : FVec F S32x4 .f32) (b3 : FVec F S4 .f32) : FVec F S100000x4 .f32 :=
  mean4 dst (seg4 dst (decOps (gath2 h dst) (subf (gath2 h src) (gath2 h dst)) w1 b1 w2 b2 w3 b3))

/-- The reference's result as one function of its sixteen arguments. -/
def refOut (x : FVec F S100000x4 .f32) (ei : IVec S2x3200000 32) (γ β : FVec F S4 .f32)
    (ew1 : FVec F S8x32 .f32) (eb1 : FVec F S32 .f32) (ew2 : FVec F S32x32 .f32) (eb2 : FVec F S32 .f32)
    (ew3 : FVec F S32x2 .f32) (eb3 : FVec F S2 .f32)
    (dw1 : FVec F S4x32 .f32) (db1 : FVec F S32 .f32) (dw2 : FVec F S32x32 .f32) (db2 : FVec F S32 .f32)
    (dw3 : FVec F S32x4 .f32) (db3 : FVec F S4 .f32) : FVec F S100000x4 .f32 :=
  layer2 (layer1 (bn x γ β) (srcOf ei) (dstOf ei) ew1 eb1 ew2 eb2 ew3 eb3) (srcOf ei) (dstOf ei) dw1 db1 dw2 db2 dw3 db3

end Cert.RStage

end
-- ==== Proof.RefRun.lean ====
/-
  The reference program's run: @main is its operations in order, so every weakly fair execution terminates with
  each buffer at the operations' fold over the launch contents; read at the result buffer that fold is the staged
  function of the sixteen arguments, and no operation writes an argument.
-/
import proofs.«403383_j8177617731794_1_alg».proof.Proof.RefOps
import proofs.«403383_j8177617731794_1_alg».proof.Proof.RStage
import Idealize.ShloMosaic.Lib.Pipeline.Regions

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]

/-- @main is the straight line of its operations, every call's body at its call site. -/
theorem main_eq (c : Dev nD) : main (F := F) c = seq (Cert.RefOps.ops (F := F)) := by
  chain_rfl

/-- Nothing of the reference's signature is scoped to a kernel region: no buffer, no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation determines its results: none leaves a buffer at contents not chosen. -/
theorem ops_fresh : (Cert.RefOps.ops (F := F)).Forall fun op => op.fresh = ∅ := by
  simp only [Cert.RefOps.ops, List.Forall]
  repeat' apply And.intro
  all_goals rfl

/-- Two arrays laid side by side along an axis, as a function of the two arrays (the concatenation of a two-entry
    list, with the list's entries as arguments). -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concat_eq_cat2 {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ h x y := rfl

set_option maxRecDepth 8192 in
set_option maxHeartbeats 4000000 in
/-- The fold read at the result buffer: each operation's result at its own buffer is its function of the contents of
    the buffers it reads, and at any other buffer what was there; composed from the last operation back to the
    arguments this is the staged function, the stages unfolded to the same operations (a typed reference's transport
    is the identity at a literal buffer, so the two sides agree by computation). -/
theorem out_eq (V : Valuation τ sig (Elt F)) :
    after (Cert.RefOps.ops (F := F)) V (main_v107 : DevRef τ sig)
      = Cert.RStage.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat_eq_cat2, Cert.RStage.refOut, Cert.RStage.layer2, Cert.RStage.layer1, Cert.RStage.decOps, Cert.RStage.encOps, Cert.RStage.bias4, Cert.RStage.bias2, Cert.RStage.bias32, Cert.RStage.relu2, Cert.RStage.relu32, Cert.RStage.mean4, Cert.RStage.mean2, Cert.RStage.seg4, Cert.RStage.seg2, Cert.RStage.cnt, Cert.RStage.gath2, Cert.RStage.gath4, Cert.RStage.wrap, Cert.RStage.col, Cert.RStage.bn, Cert.RStage.variance, Cert.RStage.divisor, Cert.RStage.centered, Cert.RStage.mean, Cert.RStage.rowsOf, Cert.RStage.dstOf, Cert.RStage.srcOf]
  (try simp only [TRef.ofBuf, TRef.toBuf, cast_eq])
  rfl

/-! No operation writes an argument: the fold at an argument's buffer is the launch contents. -/

set_option maxRecDepth 8192 in
set_option maxHeartbeats 4000000 in
theorem arg0_eq (V : Valuation τ sig (Elt F)) :
    after (Cert.RefOps.ops (F := F)) V (main_arg0 : DevRef τ sig) = V (main_arg0 : DevRef τ sig) := by
  after_results_simp

set_option maxRecDepth 8192 in
set_option maxHeartbeats 4000000 in
theorem arg1_eq (V : Valuation τ sig (Elt F)) :
    after (Cert.RefOps.ops (F := F)) V (main_arg1 : DevRef τ sig) = V (main_arg1 : DevRef τ sig) := by
  after_results_simp

set_option maxRecDepth 8192 in
set_option maxHeartbeats 4000000 in
theorem arg2_eq (V : Valuation τ sig (Elt F)) :
    after (Cert.RefOps.ops (F := F)) V (main_arg2 : DevRef τ sig) = V (main_arg2 : DevRef τ sig) := by
  after_results_simp

set_option maxRecDepth 8192 in
set_option maxHeartbeats 4000000 in
theorem arg3_eq (V : Valuation τ sig (Elt F)) :
    after (Cert.RefOps.ops (F := F)) V (main_arg3 : DevRef τ sig) = V (main_arg3 : DevRef τ sig) := by
  after_results_simp

set_option maxRecDepth 8192 in
set_option maxHeartbeats 4000000 in
theorem arg4_eq (V : Valuation τ sig (Elt F)) :
    after (Cert.RefOps.ops (F := F)) V (main_arg4 : DevRef τ sig) = V (main_arg4 : DevRef τ sig) := by
  after_results_simp

set_option maxRecDepth 8192 in
set_option maxHeartbeats 4000000 in
theorem arg5_eq (V : Valuation τ sig (Elt F)) :
    after (Cert.RefOps.ops (F := F)) V (main_arg5 : DevRef τ sig) = V (main_arg5 : DevRef τ sig) := by
  after_results_simp

set_option maxRecDepth 8192 in
set_option maxHeartbeats 4000000 in
theorem arg6_eq (V : Valuation τ sig (Elt F)) :
    after (Cert.RefOps.ops (F := F)) V (main_arg6 : DevRef τ sig) = V (main_arg6 : DevRef τ sig) := by
  after_results_simp

set_option maxRecDepth 8192 in
set_option maxHeartbeats 4000000 in
theorem arg7_eq (V : Valuation τ sig (Elt F)) :
    after (Cert.RefOps.ops (F := F)) V (main_arg7 : DevRef τ sig) = V (main_arg7 : DevRef τ sig) := by
  after_results_simp

set_option maxRecDepth 8192 in
set_option maxHeartbeats 4000000 in
theorem arg8_eq (V : Valuation τ sig (Elt F)) :
    after (Cert.RefOps.ops (F := F)) V (main_arg8 : DevRef τ sig) = V (main_arg8 : DevRef τ sig) := by
  after_results_simp

set_option maxRecDepth 8192 in
set_option maxHeartbeats 4000000 in
theorem arg9_eq (V : Valuation τ sig (Elt F)) :
    after (Cert.RefOps.ops (F := F)) V (main_arg9 : DevRef τ sig) = V (main_arg9 : DevRef τ sig) := by
  after_results_simp

set_option maxRecDepth 8192 in
set_option maxHeartbeats 4000000 in
theorem arg10_eq (V : Valuation τ sig (Elt F)) :
    after (Cert.RefOps.ops (F := F)) V (main_arg10 : DevRef τ sig) = V (main_arg10 : DevRef τ sig) := by
  after_results_simp

set_option maxRecDepth 8192 in
set_option maxHeartbeats 4000000 in
theorem arg11_eq (V : Valuation τ sig (Elt F)) :
    after (Cert.RefOps.ops (F := F)) V (main_arg11 : DevRef τ sig) = V (main_arg11 : DevRef τ sig) := by
  after_results_simp

set_option maxRecDepth 8192 in
set_option maxHeartbeats 4000000 in
theorem arg12_eq (V : Valuation τ sig (Elt F)) :
    after (Cert.RefOps.ops (F := F)) V (main_arg12 : DevRef τ sig) = V (main_arg12 : DevRef τ sig) := by
  after_results_simp

set_option maxRecDepth 8192 in
set_option maxHeartbeats 4000000 in
theorem arg13_eq (V : Valuation τ sig (Elt F)) :
    after (Cert.RefOps.ops (F := F)) V (main_arg13 : DevRef τ sig) = V (main_arg13 : DevRef τ sig) := by
  after_results_simp

set_option maxRecDepth 8192 in
set_option maxHeartbeats 4000000 in
theorem arg14_eq (V : Valuation τ sig (Elt F)) :
    after (Cert.RefOps.ops (F := F)) V (main_arg14 : DevRef τ sig) = V (main_arg14 : DevRef τ sig) := by
  after_results_simp

set_option maxRecDepth 8192 in
set_option maxHeartbeats 4000000 in
theorem arg15_eq (V : Valuation τ sig (Elt F)) :
    after (Cert.RefOps.ops (F := F)) V (main_arg15 : DevRef τ sig) = V (main_arg15 : DevRef τ sig) := by
  after_results_simp

/-- Every weakly fair execution of the reference terminates, nothing faulting, with the result buffer at the staged
    function of the arguments' launch contents and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107)
        = Cert.RStage.refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  exact (θ_run defs _ _).mono (fun _ h c =>
      ⟨(h c main_v107).trans (out_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c)),
       (h c main_arg9).trans (arg9_eq (launchContents m c)),
       (h c main_arg10).trans (arg10_eq (launchContents m c)),
       (h c main_arg11).trans (arg11_eq (launchContents m c)),
       (h c main_arg12).trans (arg12_eq (launchContents m c)),
       (h c main_arg13).trans (arg13_eq (launchContents m c)),
       (h c main_arg14).trans (arg14_eq (launchContents m c)),
       (h c main_arg15).trans (arg15_eq (launchContents m c))⟩)
    (run_seq scopedRefs_eq scopedSems_eq defs main (fun _ => Cert.RefOps.ops) main_eq (fun _ => Cert.RefOps.ops_sub) m ρ
      (fun _ => List.forall_iff_forall_mem.1 ops_fresh))

end Cert.RefRun

end
-- ==== Proof.LibMask.lean ====
/-
  General facts about index masks on integer vectors, generic in the shapes.

  A "take" that tolerates negative indices first wraps them (an index below zero has the table's length added) and
  afterwards masks every row whose wrapped index falls outside [0, M]: the mask is the conjunction, reduced by "and"
  over the index column, of the two signed compares, and a masked-out row is replaced by a fill value. When every index
  is already inside the range, the wrap is the identity, both compares hold at every position, the reduction of an
  all-ones vector from the initial value one is all ones, and a select under an all-ones condition returns its first
  branch. This file states each of those steps on its own, and, in the other direction, reads a range fact back out of
  a conjunction "all (x ≥ k)" or "all (x < k)" that is known to be one.
-/
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

/-! ## Constants and their broadcasts -/

/-- An integer splat reads its value at every index. -/
theorem constantI_apply {S : Shape} {w : Nat} (k : BitVec w) (i : S.Idx) : constantI S w k i = k := rfl

/-- A broadcast (along any axes) of a vector that is constantly `v` is constantly `v`. -/
theorem broadcastInDim_const {s t : Shape} {α : Type} (dims : Fin s.rank → Fin t.rank) (h : s.BroadcastsInDim t dims)
    (v : α) : broadcastInDim t dims h (fun _ : s.Idx => v) = fun _ => v := rfl

/-- The same with the constancy as a hypothesis: if `x` reads `v` everywhere, so does any broadcast of `x`. -/
theorem broadcastInDim_apply_of_const {s t : Shape} {α : Type} (dims : Fin s.rank → Fin t.rank)
    (h : s.BroadcastsInDim t dims) (x : s.Idx → α) (v : α) (hx : ∀ i, x i = v) (j : t.Idx) :
    broadcastInDim t dims h x j = v := hx _

/-- A broadcast of an integer splat reads the splat's value at every index, whatever the axes. -/
theorem broadcastInDim_constantI_apply {S₀ S : Shape} {w : Nat} (dims : Fin S₀.rank → Fin S.rank)
    (h : S₀.BroadcastsInDim S dims) (k : BitVec w) (j : S.Idx) :
    broadcastInDim S dims h (constantI S₀ w k) j = k := rfl

/-! ## The wrap of negative indices -/

/-- Wrapping negative indices leaves a vector of nonnegative indices as it is: "index below zero" fails at every
    position, so the select returns its second branch everywhere. -/
theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

/-! ## The range mask -/

/-- Both range compares hold at every position of a vector whose entries lie in [0, M]: their conjunction is all ones. -/
theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

/-- A left fold by "and" that starts at one and meets only ones ends at one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

/-- A reduction by "and" of an all-ones vector, from an initial value that is one, is all ones, over whatever axes. -/
theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

/-- The same for the literal all-ones operand and initial value. -/
theorem reduce_and_ones' {s t u : Shape} {axes : List (Fin s.rank)} (h : s.ReducesTo axes t) (hu : 0 < u.numel) :
    Host.reduce IntOp.andi (fun _ => 1#1 : IVec s 1) (fun _ => 1#1 : IVec u 1) h hu = fun _ => 1#1 :=
  reduce_and_ones _ _ h hu (fun _ => rfl) (fun _ => rfl)

/-! ## Select under a settled condition -/

/-- A select whose condition is all ones returns its first branch (values of any type: words or floats). -/
theorem select_ones {S : Shape} {α : Type} (a b : S.Idx → α) : select (fun _ => 1#1) a b = a := by
  funext i
  show Scalar.select 1#1 (a i) (b i) = a i
  unfold Scalar.select
  exact if_pos rfl

/-- The same with the condition's value as a hypothesis. -/
theorem select_of_ones {S : Shape} {α : Type} (c : IVec S 1) (a b : S.Idx → α) (hc : ∀ i, c i = 1#1) :
    select c a b = a := by
  have : c = fun _ => 1#1 := funext hc
  rw [this]; exact select_ones a b

/-! ## A printed "all" read back -/

/-- "all (x ≥ c)" with `c` constantly `k`: if the reduction by "and" into a one-index result is one, every entry of `x`
    is at least `k`, read signed. -/
theorem all_sge_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .sge x c) init h hu j = 1#1) (i : s.Idx) : k.toInt ≤ (x i).toInt := by
  have hi : IntOp.cmpi .sge (x i) (c i) = 1#1 := Host.reduce_andi_all (cmpi .sge x c) init h hu j e i
  rw [IntOp.cmpi_sge, hc i] at hi
  exact hi

/-- "all (x < c)" with `c` constantly `k`: if the reduction by "and" into a one-index result is one, every entry of `x`
    is below `k`, read signed. -/
theorem all_slt_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .slt x c) init h hu j = 1#1) (i : s.Idx) : (x i).toInt < k.toInt := by
  have hi : IntOp.cmpi .slt (x i) (c i) = 1#1 := Host.reduce_andi_all (cmpi .slt x c) init h hu j e i
  rw [IntOp.cmpi_slt, hc i] at hi
  exact hi

/-- A conjunction of two one-bit vectors that is one at an index has both conjuncts one there. -/
theorem andi_apply_eq_one {S : Shape} (x y : IVec S 1) (j : S.Idx) (e : andi x y j = 1#1) : x j = 1#1 ∧ y j = 1#1 :=
  IntOp.andi_eq_one.1 e

end Cert.MaskLib
-- ==== Proof.Take.lean ====
/-
  Indices in range. Under the precondition every entry of the edge list lies in [0, 100000), read signed; then a
  take that wraps negative indices and masks rows outside the table is the plain gather at the same (unwrapped) start
  indices: the wrap is the identity, both range compares hold on every row, the conjunction reduced along the
  one-entry index column is all ones, and the select under an all-ones mask returns the gathered rows.
-/
import proofs.«403383_j8177617731794_1_alg».proof.Defs
import proofs.«403383_j8177617731794_1_alg».proof.Proof.KStage
import proofs.«403383_j8177617731794_1_alg».proof.Proof.LibMask

noncomputable section

namespace Cert.Take

open Idealize.ShloMosaic Idealize.ShloMosaic.TcCoe Idealize.SL.Sem Cert.KernelIdeal

variable [Cert.KernelIdeal.Facts] [Cert.Pre_finite_inputs.Facts]

/-- An index vector every entry of which is a node number. -/
def InRange (i : IVec S3200000 32) : Prop := ∀ e, 0 ≤ (i e).toInt ∧ (i e).toInt < 100000

/-- The one-index shape of the precondition's result has a single index. -/
private instance : Subsingleton Cert.Pre_finite_inputs.S_.Idx := ⟨fun a b => funext fun d => d.elim0⟩

/-- An entry of the index column is an entry of the index vector. -/
private theorem col_mem (i : IVec S3200000 32) (k : S3200000x1.Idx) : ∃ e, Cert.KStage.col i k = i e := ⟨_, rfl⟩

/-- An entry of row 0 of the edge list is an entry of the edge list. -/
private theorem srcOf_mem (ei : IVec S2x3200000 32) (e : S3200000.Idx) : ∃ i, Cert.KStage.srcOf ei e = ei i := ⟨_, rfl⟩

/-- An entry of row 1 of the edge list is an entry of the edge list. -/
private theorem dstOf_mem (ei : IVec S2x3200000 32) (e : S3200000.Idx) : ∃ i, Cert.KStage.dstOf ei e = ei i := ⟨_, rfl⟩

/-- Wrapping leaves node numbers as they are. -/
theorem wrap_eq (i : IVec S3200000 32) (hi : InRange i) : Cert.KStage.wrap i = i := by
  unfold Cert.KStage.wrap
  exact Cert.MaskLib.wrap_id i _ _ (fun _ => rfl) (fun e => (hi e).1)

/-- On node numbers both range compares hold on every row, so the conjunction reduced along the one-entry index
    column is one at every edge. -/
private theorem inTable_ones (i : IVec S3200000 32) (hi : InRange i) (e : S3200000.Idx) :
    Cert.KStage.inTable i e = 1#1 := by
  have h9 : (99999#32 : BitVec 32).toInt = 99999 := by decide
  unfold Cert.KStage.inTable
  rw [wrap_eq i hi]
  refine congrFun (Cert.MaskLib.reduce_and_ones _ _ _ _ (fun j => ?_) (fun _ => rfl)) e
  refine congrFun (Cert.MaskLib.inrange_and _ _ _ 99999 (fun _ => rfl) (fun _ => h9) (fun k => ?_)) j
  obtain ⟨e', he'⟩ := col_mem i k
  rw [he']
  have := hi e'
  omega

/-- The masked take of a four-column node array at node numbers is the gather. -/
theorem take4_eq {F : FTy → Type} [FloatOps F] (h : FVec F S100000x4 .f32) (i : IVec S3200000 32) (hi : InRange i) :
    Cert.KStage.take4 h i
      = Host.gather gather_S100000x4_S3200000x1_S3200000x4_1_0_n_n_0_1_14 h (Cert.KStage.col (Cert.KStage.wrap i)) := by
  unfold Cert.KStage.take4
  exact Cert.MaskLib.select_of_ones _ _ _
    (Cert.MaskLib.broadcastInDim_apply_of_const _ _ _ _ (inTable_ones i hi))

/-- The masked take of a two-column node array at node numbers is the gather. -/
theorem take2_eq {F : FTy → Type} [FloatOps F] (h : FVec F S100000x2 .f32) (i : IVec S3200000 32) (hi : InRange i) :
    Cert.KStage.take2 h i
      = Host.gather gather_S100000x2_S3200000x1_S3200000x2_1_0_n_n_0_1_12 h (Cert.KStage.col (Cert.KStage.wrap i)) := by
  unfold Cert.KStage.take2
  exact Cert.MaskLib.select_of_ones _ _ _
    (Cert.MaskLib.broadcastInDim_apply_of_const _ _ _ _ (inTable_ones i hi))

/-- The last two conjuncts of the precondition: every entry of the edge list is at least 0 and below 100000. -/
private theorem part4_range (a1 : IVec Cert.Pre_finite_inputs.S2x3200000 32)
    (a15 : FVec Ideal Cert.Pre_finite_inputs.S4 .f32) (v63 v67 : IVec Cert.Pre_finite_inputs.S_ 1)
    (j : Cert.Pre_finite_inputs.S_.Idx)
    (h : Cert.Pre_finite_inputs.fn_part4 (F := Ideal) a1 a15 v63 v67 j = 1#1)
    (i : Cert.Pre_finite_inputs.S2x3200000.Idx) : 0 ≤ (a1 i).toInt ∧ (a1 i).toInt < 100000 := by
  unfold Cert.Pre_finite_inputs.fn_part4 at h
  dsimp only at h
  obtain ⟨h77, h80⟩ := Cert.MaskLib.andi_apply_eq_one _ _ j h
  obtain ⟨h73, h76⟩ := Cert.MaskLib.andi_apply_eq_one _ _ j h77
  have h0 := Cert.MaskLib.all_sge_const a1 _ (0#32) (fun _ => rfl) _ _ _ j h76 i
  have h1 := Cert.MaskLib.all_slt_const a1 _ (100000#32) (fun _ => rfl) _ _ _ j h80 i
  have e0 : (0#32 : BitVec 32).toInt = 0 := by decide
  have e1 : (100000#32 : BitVec 32).toInt = 100000 := by decide
  rw [e0] at h0
  rw [e1] at h1
  exact ⟨h0, h1⟩

/-- Under the precondition every entry of the edge list is a node number. -/
private theorem ei_range (m : (ℓ : Loc nD τ sig) → Buf (Elt Ideal) ℓ) (hpre : Cert.Pre_KernelIdeal m) (c : Dev nD)
    (i : S2x3200000.Idx) :
    0 ≤ ((m ((c.tc : Thread nD τ).loc main_arg1)) i).toInt ∧ ((m ((c.tc : Thread nD τ).loc main_arg1)) i).toInt < 100000 := by
  have h := congrFun (hpre c) Idealize.ShloMosaic.ValueIdx.ix0
  change Cert.Pre_finite_inputs.fn_part4 (F := Ideal) _ _ _ _ _ = 1#1 at h
  exact part4_range _ _ _ _ _ h i

/-- Under the precondition every source node is a node number. -/
theorem src_range (m : (ℓ : Loc nD τ sig) → Buf (Elt Ideal) ℓ) (hpre : Cert.Pre_KernelIdeal m) (c : Dev nD) :
    InRange (Cert.KStage.srcOf (m ((c.tc : Thread nD τ).loc main_arg1))) := by
  intro e
  obtain ⟨i, hi⟩ := srcOf_mem (m ((c.tc : Thread nD τ).loc main_arg1)) e
  rw [hi]
  exact ei_range m hpre c i

/-- Under the precondition every target node is a node number. -/
theorem dst_range (m : (ℓ : Loc nD τ sig) → Buf (Elt Ideal) ℓ) (hpre : Cert.Pre_KernelIdeal m) (c : Dev nD) :
    InRange (Cert.KStage.dstOf (m ((c.tc : Thread nD τ).loc main_arg1))) := by
  intro e
  obtain ⟨i, hi⟩ := dstOf_mem (m ((c.tc : Thread nD τ).loc main_arg1)) e
  rw [hi]
  exact ei_range m hpre c i

end Cert.Take

end
-- ==== Proof.Scale.lean ====
/-
  Multiplying by the reciprocal of the edge count is dividing by it. The count into a node is zero plus a sum of ones
  over the edges that land on it, a natural number as a real; the larger of it and one is a real at least one, so it is
  not zero, and for a divisor c that is not zero the product x * (1 / c) is the quotient x / c on every extended real x.
-/
import proofs.«403383_j8177617731794_1_alg».proof.Proof.KStage
import Idealize.ShloMosaic.Lib.ValueIdx
import Idealize.ShloMosaic.Lib.IdealHost

noncomputable section

namespace Cert.Scale

open Idealize.ShloMosaic Idealize.ShloMosaic.ValueIdx Cert.KernelIdeal

variable [Cert.KernelIdeal.Facts]
open Cert.KernelIdeal.Facts₀ Cert.KernelIdeal.Facts

/-- A natural number of ones added up is that number as a real. -/
private theorem nsmul_one_ereal (k : ℕ) : k • (1 : EReal) = ((k : ℝ) : EReal) := by
  induction k with
  | zero => rw [zero_nsmul, Nat.cast_zero, EReal.coe_zero]
  | succ m ih => rw [succ_nsmul, ih, Nat.cast_succ, EReal.coe_add, EReal.coe_one]

/-- A start value that is zero plus a sum of terms that are all one is the number of terms, a natural number as a real. -/
private theorem zero_add_sum_ones {ι : Type} (A : Finset ι) (x0 : EReal) (f : ι → EReal) (hx : x0 = 0) (hf : ∀ j, f j = 1) :
    x0 + ∑ j ∈ A, f j = ((A.card : ℝ) : EReal) := by
  rw [hx, zero_add, Finset.sum_congr rfl (fun j _ => hf j), Finset.sum_const, nsmul_one_ereal]

/-- The accumulating scatter at an element: the operand's element plus the sum of the updates that land on it. -/
private theorem scatterAdd_apply {s si su : Shape} {w : Nat} (d : ScatterDims s si su) (x : FVec Ideal s .f32)
    (idx : IVec si w) (upd : FVec Ideal su .f32) (i : s.Idx) :
    Host.scatterAdd d x idx upd i = x i + ∑ j ∈ Finset.univ.filter (fun j => d.resultIdx? j idx = some i), upd j := rfl

/-- A product with the broadcast reciprocals is the quotient by the broadcast divisors, for divisors that are not zero:
    both broadcasts read the same row, and there x * (1 / c) = x / c. -/
private theorem mul_bcast_inv_eq_div {t : Shape} (dims : Fin S100000x1.rank → Fin t.rank) (h : S100000x1.BroadcastsInDim t dims)
    (h0 : S100000.BroadcastsInDim S100000x1 (![0] : Fin 1 → Fin S100000x1.rank))
    (s : FVec Ideal t .f32) (one c : FVec Ideal S100000 .f32) (h1 : ∀ n, one n = 1) (hc : ∀ n, c n ≠ 0) :
    mulf s (broadcastInDim t dims h (broadcastInDim S100000x1 ![0] h0 (Host.divf one c)))
      = Host.divf s (broadcastInDim t dims h (broadcastInDim S100000x1 ![0] h0 c)) := by
  funext j
  show s j * Ideal.div (one _) (c _) = Ideal.div (s j) (c _)
  rw [h1]
  exact Ideal.mul_one_div (hc _)

/-- Every edge count, raised to at least one, is a real number at least one. -/
theorem cnt_real (dst : IVec S3200000 32) (n : S100000.Idx) :
    ∃ r : ℝ, 1 ≤ r ∧ Cert.KStage.cnt (F := Ideal) dst n = (r : EReal) := by
  obtain ⟨k, hk⟩ : ∃ k : ℕ, Host.scatterAdd (F := Ideal) scatter_S100000_S3200000x1_S3200000_n_0_0_1
      (broadcastInDim S100000 ![] bcast_S_S100000 (constant S_ .f32 0x00000000#32)) (Cert.KStage.col dst)
      (broadcastInDim S3200000 ![] bcast_S_S3200000 (constant S_ .f32 0x3F800000#32)) n = ((k : ℝ) : EReal) := by
    rw [scatterAdd_apply]
    exact ⟨_, zero_add_sum_ones _ _ _ Ideal.ofBits_zero_f32 (fun j => Ideal.ofBits_one_f32)⟩
  refine ⟨max (k : ℝ) 1, le_max_right _ _, ?_⟩
  unfold Cert.KStage.cnt
  rw [maximumf_apply, hk]
  show max ((k : ℝ) : EReal) (Ideal.ofBits .f32 0x3F800000#32) = _
  rw [Ideal.ofBits_one_f32, EReal.coe_strictMono.monotone.map_max, EReal.coe_one]

/-- No edge count, raised to at least one, is zero. -/
private theorem cnt_ne_zero (dst : IVec S3200000 32) (n : S100000.Idx) : Cert.KStage.cnt (F := Ideal) dst n ≠ 0 := by
  obtain ⟨r, hr, e⟩ := cnt_real dst n
  rw [e]
  have : r ≠ 0 := by linarith
  exact_mod_cast this

/-- A two-column node array times the reciprocal counts is the array divided by the counts. -/
theorem scale2_eq (dst : IVec S3200000 32) (s : FVec Ideal S100000x2 .f32) :
    Cert.KStage.scale2 dst s
      = Host.divf s (broadcastInDim S100000x2 ![0, 1] bcast_S100000x1_S100000x2_0_1
          (broadcastInDim S100000x1 ![0] bcast_S100000_S100000x1_0 (Cert.KStage.cnt dst))) := by
  unfold Cert.KStage.scale2 Cert.KStage.inv
  exact mul_bcast_inv_eq_div _ _ _ s _ _ (fun n => Ideal.ofBits_one_f32) (cnt_ne_zero dst)

/-- A four-column node array times the reciprocal counts is the array divided by the counts. -/
theorem scale4_eq (dst : IVec S3200000 32) (s : FVec Ideal S100000x4 .f32) :
    Cert.KStage.scale4 dst s
      = Host.divf s (broadcastInDim S100000x4 ![0, 1] bcast_S100000x1_S100000x4_0_1
          (broadcastInDim S100000x1 ![0] bcast_S100000_S100000x1_0 (Cert.KStage.cnt dst))) := by
  unfold Cert.KStage.scale4 Cert.KStage.inv
  exact mul_bcast_inv_eq_div _ _ _ s _ _ (fun n => Ideal.ofBits_one_f32) (cnt_ne_zero dst)

end Cert.Scale

end
-- ==== Proof.MlpRef.lean ====
/-
  The reference's three-layer networks, written as host operations on the whole edge arrays, are the entrywise
  networks of the specification: a product of matrices onto a zero accumulator is the sum over the contracted axis, a
  bias broadcast along the edges reads the bias at the column, the rectifier is the maximum with the zero word, and a
  concatenation along the columns reads its left part below the split and its right part above.
-/
import proofs.«403383_j8177617731794_1_alg».proof.Proof.RStage
import proofs.«403383_j8177617731794_1_alg».proof.Proof.Spec
import Idealize.ShloMosaic.Lib.ValueIdx
import Idealize.ShloMosaic.Lib.IdealHost
import Idealize.ShloMosaic.Lib.KernelVsHost
import Idealize.ShloMosaic.Lib.StackMember
import Idealize.ShloMosaic.PureOps.Ideal.Laws

noncomputable section

namespace Cert.MlpRef

open Idealize.ShloMosaic Idealize.ShloMosaic.ValueIdx Cert.ReferenceIdeal
open scoped BigOperators

/-! ## The pieces, over any sizes -/

section Pieces
variable {α : Type} {E K J : Nat}

/-- A vector of `J` entries made a one-row matrix and then laid on each of `E` rows reads, at row `e` and column
    `j`, the vector's entry `j`. -/
private theorem bias_apply (h1 : (⟨1, ![J]⟩ : Shape).BroadcastsInDim ⟨2, ![1, J]⟩ ![1])
    (h2 : (⟨2, ![1, J]⟩ : Shape).BroadcastsInDim ⟨2, ![E, J]⟩ ![0, 1]) (b : (⟨1, ![J]⟩ : Shape).Idx → α)
    (e : Fin E) (j : Fin J) :
    broadcastInDim ⟨2, ![E, J]⟩ ![0, 1] h2 (broadcastInDim ⟨2, ![1, J]⟩ ![1] h1 b) (ix2 e j) = b (ix1 j) := by
  rw [broadcastInDim_oneRow_apply]
  refine broadcastInDim_apply ![1] h1 b (ix2 (0 : Fin 1) j) (ix1 j) ?_
  intro a
  match a with
  | ⟨0, _⟩ =>
    show j.val = if J = 1 then 0 else j.val
    split
    · have := j.isLt; omega
    · rfl

/-- The same vector recast as a one-row matrix reads, at row 0 and column `j`, its entry `j`: both have the same
    position in row-major order. -/
private theorem oneRow_apply (h : (⟨1, ![J]⟩ : Shape).ShapeCasts ⟨2, ![1, J]⟩) (b : (⟨1, ![J]⟩ : Shape).Idx → α)
    (j : Fin J) : shapeCast ⟨2, ![1, J]⟩ b h (ix2 (0 : Fin 1) j) = b (ix1 j) :=
  shapeCast_apply b h (ix2 (0 : Fin 1) j) (ix1 j) (by
    rw [Shape.rowMajor_val_two, Shape.rowMajor_val_one]; show j.val = 0 * J + j.val; omega)

/-- Two matrices of `A` and `B` columns side by side: a column below `A` reads the left one there. -/
private theorem cat_left {A B C : Nat}
    (h : Shape.Concatenates [(⟨2, ![E, A]⟩ : Shape), (⟨2, ![E, B]⟩ : Shape)] ⟨2, ![E, C]⟩ 1)
    (x : (⟨2, ![E, A]⟩ : Shape).Idx → α) (y : (⟨2, ![E, B]⟩ : Shape).Idx → α) (e : Fin E) (p : Fin C)
    (hp : p.val < A) :
    concatenate ⟨2, ![E, C]⟩ 1 [⟨⟨2, ![E, A]⟩, x⟩, ⟨⟨2, ![E, B]⟩, y⟩] h (ix2 e p) = x (ix2 e ⟨p.val, hp⟩) :=
  concatenate_pair_apply_left 1 x y h (ix2 e p) rfl (ix2 e ⟨p.val, hp⟩) (fun b => by
    match b with
    | ⟨0, _⟩ => rfl
    | ⟨1, _⟩ => rfl)

/-- … and a column from `A` on reads the right one, `A` columns earlier. -/
private theorem cat_right {A B C : Nat}
    (h : Shape.Concatenates [(⟨2, ![E, A]⟩ : Shape), (⟨2, ![E, B]⟩ : Shape)] ⟨2, ![E, C]⟩ 1)
    (x : (⟨2, ![E, A]⟩ : Shape).Idx → α) (y : (⟨2, ![E, B]⟩ : Shape).Idx → α) (e : Fin E) (p : Fin C)
    (hp : ¬ p.val < A) (hq : p.val - A < B) :
    concatenate ⟨2, ![E, C]⟩ 1 [⟨⟨2, ![E, A]⟩, x⟩, ⟨⟨2, ![E, B]⟩, y⟩] h (ix2 e p) = y (ix2 e ⟨p.val - A, hq⟩) :=
  concatenate_pair_apply_right 1 x y h (ix2 e p) rfl rfl (ix2 e ⟨p.val - A, hq⟩)
    (fun b hb => by
      match b with
      | ⟨0, _⟩ => rfl
      | ⟨1, _⟩ => exact absurd rfl hb)
    (by show p.val - A + A = p.val; omega)

/-- The rectifier as an operation, the maximum with a zero word laid everywhere, is the entrywise maximum with zero. -/
private theorem relu_eq (h : (⟨0, ![]⟩ : Shape).BroadcastsInDim ⟨2, ![E, J]⟩ ![]) (x : FVec Ideal ⟨2, ![E, J]⟩ .f32) :
    Cert.Spec.ofArr (maximumf x (broadcastInDim ⟨2, ![E, J]⟩ ![] h (constant (F := Ideal) ⟨0, ![]⟩ .f32 0x00000000#32)))
      = Cert.Spec.reluM (Cert.Spec.ofArr x) := by
  funext e j
  show maximumf x _ (ix2 e j) = max (x (ix2 e j)) 0
  rw [maximumf_apply, broadcastInDim_scalar_apply, constant_apply, Ideal.ofBits_zero_f32]

/-- A product of an `E × K` by a `K × J` matrix plus a bias laid on every row is the linear layer: row against
    column, summed over the contracted axis, plus the bias at the column. -/
private theorem lin_eq (D : DotDims ⟨2, ![E, K]⟩ ⟨2, ![K, J]⟩ ⟨2, ![E, J]⟩) (hD : D = DotDims.plain E K J)
    (h1 : (⟨1, ![J]⟩ : Shape).BroadcastsInDim ⟨2, ![1, J]⟩ ![1])
    (h2 : (⟨2, ![1, J]⟩ : Shape).BroadcastsInDim ⟨2, ![E, J]⟩ ![0, 1])
    (x : FVec Ideal ⟨2, ![E, K]⟩ .f32) (w : FVec Ideal ⟨2, ![K, J]⟩ .f32) (b : FVec Ideal ⟨1, ![J]⟩ .f32) :
    Cert.Spec.ofArr (addf (Host.dotGeneral D none x w)
        (broadcastInDim ⟨2, ![E, J]⟩ ![0, 1] h2 (broadcastInDim ⟨2, ![1, J]⟩ ![1] h1 b)))
      = Cert.Spec.linM (Cert.Spec.ofArr x) (Cert.Spec.ofArr w) (fun l => b (ix1 l)) := by
  subst hD
  funext e j
  show addf _ _ (ix2 e j) = (∑ k : Fin K, x (ix2 e k) * w (ix2 k j)) + b (ix1 j)
  rw [addf_apply, StackMember.dotGeneral_plain_apply, bias_apply]

/-- A bias recast as a one-row array, read as the specification reads it (row 0), is the bias by its entries. -/
private theorem row_eq (h : (⟨1, ![J]⟩ : Shape).ShapeCasts ⟨2, ![1, J]⟩) (b : FVec Ideal ⟨1, ![J]⟩ .f32) :
    Cert.Spec.ofArr (shapeCast ⟨2, ![1, J]⟩ b h) 0 = fun l => b (ix1 l) := by
  funext l
  exact oneRow_apply h b l

end Pieces

/-! ## The two networks -/

variable [Cert.ReferenceIdeal.Facts]

/-- The first layer's input: the two four-column arrays side by side. -/
private theorem cat44_eq (h : Shape.Concatenates [S3200000x4, S3200000x4] S3200000x8 1) (xi d : FVec Ideal S3200000x4 .f32) :
    Cert.Spec.ofArr (concatenate S3200000x8 1 [⟨S3200000x4, xi⟩, ⟨S3200000x4, d⟩] h)
      = Cert.Spec.cat44M (Cert.Spec.ofArr xi) (Cert.Spec.ofArr d) := by
  funext e p
  unfold Cert.Spec.cat44M Cert.Spec.ofArr
  by_cases hp : p.val < 4
  · rw [dif_pos hp]; exact cat_left h xi d e p hp
  · rw [dif_neg hp]; exact cat_right h xi d e p hp (by have := p.isLt; omega)

/-- The second network's first input: the two two-column arrays side by side. -/
private theorem cat22_eq (h : Shape.Concatenates [S3200000x2, S3200000x2] S3200000x4 1) (xi d : FVec Ideal S3200000x2 .f32) :
    Cert.Spec.ofArr (concatenate S3200000x4 1 [⟨S3200000x2, xi⟩, ⟨S3200000x2, d⟩] h)
      = Cert.Spec.cat22M (Cert.Spec.ofArr xi) (Cert.Spec.ofArr d) := by
  funext e p
  unfold Cert.Spec.cat22M Cert.Spec.ofArr
  by_cases hp : p.val < 2
  · rw [dif_pos hp]; exact cat_left h xi d e p hp
  · rw [dif_neg hp]; exact cat_right h xi d e p hp (by have := p.isLt; omega)

/-- The encoder as host operations is the entrywise encoder; a bias enters the latter as a one-row array. -/
theorem encOps_eq (xi d : FVec Ideal S3200000x4 .f32) (w1 : FVec Ideal S8x32 .f32) (b1 : FVec Ideal S32 .f32)
    (w2 : FVec Ideal S32x32 .f32) (b2 : FVec Ideal S32 .f32) (w3 : FVec Ideal S32x2 .f32) (b3 : FVec Ideal S2 .f32)
    (h32 : S32.ShapeCasts S1x32) (h2 : S2.ShapeCasts S1x2) :
    Cert.RStage.encOps xi d w1 b1 w2 b2 w3 b3
      = Cert.Spec.enc xi d w1 (shapeCast S1x32 b1 h32) w2 (shapeCast S1x32 b2 h32) w3 (shapeCast S1x2 b3 h2) := by
  funext j
  obtain ⟨e, q, rfl⟩ : ∃ (e : Fin 3200000) (q : Fin 2), j = ix2 e q := ⟨j 0, j 1, eq_ix2 j⟩
  rw [Cert.Spec.enc_ix2]
  show Cert.Spec.ofArr (Cert.RStage.encOps xi d w1 b1 w2 b2 w3 b3) e q = _
  unfold Cert.RStage.encOps Cert.RStage.relu2 Cert.RStage.relu32 Cert.RStage.bias32 Cert.RStage.bias2 Cert.Spec.encM
  rw [relu_eq, lin_eq dot_S3200000x32_S32x2_S3200000x2_1_0_0_1_n_n rfl, relu_eq,
    lin_eq dot_S3200000x32_S32x32_S3200000x32_1_0_0_1_n_n rfl, relu_eq,
    lin_eq dot_S3200000x8_S8x32_S3200000x32_1_0_0_1_n_n rfl, cat44_eq, row_eq h32 b1, row_eq h32 b2, row_eq h2 b3]

/-- The decoder as host operations is the entrywise decoder; a bias enters the latter as a one-row array. -/
theorem decOps_eq (xi d : FVec Ideal S3200000x2 .f32) (w1 : FVec Ideal S4x32 .f32) (b1 : FVec Ideal S32 .f32)
    (w2 : FVec Ideal S32x32 .f32) (b2 : FVec Ideal S32 .f32) (w3 : FVec Ideal S32x4 .f32) (b3 : FVec Ideal S4 .f32)
    (h32 : S32.ShapeCasts S1x32) (h4 : S4.ShapeCasts S1x4) :
    Cert.RStage.decOps xi d w1 b1 w2 b2 w3 b3
      = Cert.Spec.dec xi d w1 (shapeCast S1x32 b1 h32) w2 (shapeCast S1x32 b2 h32) w3 (shapeCast S1x4 b3 h4) := by
  funext j
  obtain ⟨e, q, rfl⟩ : ∃ (e : Fin 3200000) (q : Fin 4), j = ix2 e q := ⟨j 0, j 1, eq_ix2 j⟩
  rw [Cert.Spec.dec_ix2]
  show Cert.Spec.ofArr (Cert.RStage.decOps xi d w1 b1 w2 b2 w3 b3) e q = _
  unfold Cert.RStage.decOps Cert.RStage.relu32 Cert.RStage.bias32 Cert.RStage.bias4 Cert.Spec.decM
  rw [lin_eq dot_S3200000x32_S32x4_S3200000x4_1_0_0_1_n_n rfl, relu_eq,
    lin_eq dot_S3200000x32_S32x32_S3200000x32_1_0_0_1_n_n rfl, relu_eq,
    lin_eq dot_S3200000x4_S4x32_S3200000x32_1_0_0_1_n_n rfl, cat22_eq, row_eq h32 b1, row_eq h32 b2, row_eq h4 b3]

end Cert.MlpRef

end
-- ==== Proof.Bridge.lean ====
/-
  The two programs compute one function of the arguments when every edge index is a node number.

  Stage by stage the kernel program's host operations are the reference's own (the normalisation, the two rows of the
  edge list, the wrap of negative indices, the sums per target node, the edge counts): the same operations on the same
  operands. Three stages differ in form and agree in value: the masked take is the plain gather because no row is
  masked; each tiled network stage and the reference's chain of host products are the same entrywise network; and
  the product with the reciprocal count is the quotient by the count, a real number at least one.
-/
import proofs.«403383_j8177617731794_1_alg».proof.Proof.KStage
import proofs.«403383_j8177617731794_1_alg».proof.Proof.RStage
import proofs.«403383_j8177617731794_1_alg».proof.Proof.Take
import proofs.«403383_j8177617731794_1_alg».proof.Proof.Scale
import proofs.«403383_j8177617731794_1_alg».proof.Proof.MlpRef

noncomputable section

namespace Cert.Bridge

open Idealize.ShloMosaic Cert.KernelIdeal

variable [Cert.KernelIdeal.Facts] [Cert.ReferenceIdeal.Facts] [Cert.Pre_finite_inputs.Facts]
open Cert.KernelIdeal.Facts₀ Cert.KernelIdeal.Facts

/-! ## The stages the two programs share, operation for operation -/

theorem srcOf_eq (ei : IVec S2x3200000 32) : Cert.KStage.srcOf ei = Cert.RStage.srcOf ei := rfl
theorem dstOf_eq (ei : IVec S2x3200000 32) : Cert.KStage.dstOf ei = Cert.RStage.dstOf ei := rfl
theorem bn_eq (x : FVec Ideal S100000x4 .f32) (γ β : FVec Ideal S4 .f32) : Cert.KStage.bn x γ β = Cert.RStage.bn x γ β := rfl
theorem gath4_eq (h : FVec Ideal S100000x4 .f32) (i : IVec S3200000 32) :
    Host.gather gather_S100000x4_S3200000x1_S3200000x4_1_0_n_n_0_1_14 h (Cert.KStage.col (Cert.KStage.wrap i))
      = Cert.RStage.gath4 h i := rfl
theorem gath2_eq (h : FVec Ideal S100000x2 .f32) (i : IVec S3200000 32) :
    Host.gather gather_S100000x2_S3200000x1_S3200000x2_1_0_n_n_0_1_12 h (Cert.KStage.col (Cert.KStage.wrap i))
      = Cert.RStage.gath2 h i := rfl
theorem seg2_eq (dst : IVec S3200000 32) (msg : FVec Ideal S3200000x2 .f32) :
    Cert.KStage.seg2 dst msg = Cert.RStage.seg2 dst msg := rfl
theorem seg4_eq (dst : IVec S3200000 32) (msg : FVec Ideal S3200000x4 .f32) :
    Cert.KStage.seg4 dst msg = Cert.RStage.seg4 dst msg := rfl
theorem mean2_eq (dst : IVec S3200000 32) (s : FVec Ideal S100000x2 .f32) :
    Host.divf s (broadcastInDim S100000x2 ![0, 1] bcast_S100000x1_S100000x2_0_1
        (broadcastInDim S100000x1 ![0] bcast_S100000_S100000x1_0 (Cert.KStage.cnt dst)))
      = Cert.RStage.mean2 dst s := rfl
theorem mean4_eq (dst : IVec S3200000 32) (s : FVec Ideal S100000x4 .f32) :
    Host.divf s (broadcastInDim S100000x4 ![0, 1] bcast_S100000x1_S100000x4_0_1
        (broadcastInDim S100000x1 ![0] bcast_S100000_S100000x1_0 (Cert.KStage.cnt dst)))
      = Cert.RStage.mean4 dst s := rfl

/-! ## One convolution of each program against the other -/

/-- The first convolution: the kernel program's is the reference's when sources and targets are node numbers. -/
theorem layer1_eq (h : FVec Ideal S100000x4 .f32) (src dst : IVec S3200000 32) (w1 : FVec Ideal S8x32 .f32)
    (b1 : FVec Ideal S32 .f32) (w2 : FVec Ideal S32x32 .f32) (b2 : FVec Ideal S32 .f32) (w3 : FVec Ideal S32x2 .f32)
    (b3 : FVec Ideal S2 .f32) (hs : Cert.Take.InRange src) (hd : Cert.Take.InRange dst) :
    Cert.KStage.layer1 h src dst w1 b1 w2 b2 w3 b3 = Cert.RStage.layer1 h src dst w1 b1 w2 b2 w3 b3 := by
  unfold Cert.KStage.layer1 Cert.RStage.layer1
  rw [Cert.Scale.scale2_eq, mean2_eq, seg2_eq, Cert.Take.take4_eq h dst hd, Cert.Take.take4_eq h src hs, gath4_eq, gath4_eq,
    Cert.MlpRef.encOps_eq _ _ w1 b1 w2 b2 w3 b3 shapeCasts_S32_S1x32 shapeCasts_S2_S1x2]

/-- The second convolution likewise. -/
theorem layer2_eq (h : FVec Ideal S100000x2 .f32) (src dst : IVec S3200000 32) (w1 : FVec Ideal S4x32 .f32)
    (b1 : FVec Ideal S32 .f32) (w2 : FVec Ideal S32x32 .f32) (b2 : FVec Ideal S32 .f32) (w3 : FVec Ideal S32x4 .f32)
    (b3 : FVec Ideal S4 .f32) (hs : Cert.Take.InRange src) (hd : Cert.Take.InRange dst) :
    Cert.KStage.layer2 h src dst w1 b1 w2 b2 w3 b3 = Cert.RStage.layer2 h src dst w1 b1 w2 b2 w3 b3 := by
  unfold Cert.KStage.layer2 Cert.RStage.layer2
  rw [Cert.Scale.scale4_eq, mean4_eq, seg4_eq, Cert.Take.take2_eq h dst hd, Cert.Take.take2_eq h src hs, gath2_eq, gath2_eq,
    Cert.MlpRef.decOps_eq _ _ w1 b1 w2 b2 w3 b3 shapeCasts_S32_S1x32 shapeCasts_S4_S1x4]

/-- The two programs' results as functions of the arguments agree when every edge index is a node number. -/
theorem kOut_eq_refOut (x : FVec Ideal S100000x4 .f32) (ei : IVec S2x3200000 32) (γ β : FVec Ideal S4 .f32)
    (ew1 : FVec Ideal S8x32 .f32) (eb1 : FVec Ideal S32 .f32) (ew2 : FVec Ideal S32x32 .f32) (eb2 : FVec Ideal S32 .f32)
    (ew3 : FVec Ideal S32x2 .f32) (eb3 : FVec Ideal S2 .f32)
    (dw1 : FVec Ideal S4x32 .f32) (db1 : FVec Ideal S32 .f32) (dw2 : FVec Ideal S32x32 .f32) (db2 : FVec Ideal S32 .f32)
    (dw3 : FVec Ideal S32x4 .f32) (db3 : FVec Ideal S4 .f32)
    (hs : Cert.Take.InRange (Cert.KStage.srcOf ei)) (hd : Cert.Take.InRange (Cert.KStage.dstOf ei)) :
    Cert.KStage.kOut x ei γ β ew1 eb1 ew2 eb2 ew3 eb3 dw1 db1 dw2 db2 dw3 db3
      = Cert.RStage.refOut x ei γ β ew1 eb1 ew2 eb2 ew3 eb3 dw1 db1 dw2 db2 dw3 db3 := by
  unfold Cert.KStage.kOut Cert.RStage.refOut
  rw [layer2_eq _ _ _ dw1 db1 dw2 db2 dw3 db3 hs hd, layer1_eq _ _ _ ew1 eb1 ew2 eb2 ew3 eb3 hs hd, bn_eq, srcOf_eq, dstOf_eq]

end Cert.Bridge

end
-- ==== Proof.lean ====
/-
  An edge network on a graph of 100000 nodes and 3200000 edges: the node features are normalised per column, and two
  edge convolutions follow — for every edge the rows of its target and source node, a three-layer network on the target
  row beside the difference source − target, the messages summed per target node and averaged over the edges into it.
  The kernel program runs each network on tiles of 4000 edges and multiplies by the reciprocal edge count; the reference
  applies the network as whole-array products and divides by the count. Over the extended reals, for finite float inputs
  and edge indices that are node numbers, both end with the same result: the take that masks out-of-table rows masks
  none, each tiled network is the same entrywise network as the chain of products, and multiplying by the reciprocal of a
  real count that is at least one is dividing by it. The word-level program and its idealization differ in no
  operation, so the idealization preserves it trivially; each program's frame is its run with the result dropped.
-/
import proofs.«403383_j8177617731794_1_alg».proof.Defs
import proofs.«403383_j8177617731794_1_alg».proof.Proof.Gen.Kernel
import proofs.«403383_j8177617731794_1_alg».proof.Proof.Gen.Kernel.Frame
import proofs.«403383_j8177617731794_1_alg».proof.Proof.Gen.KernelIdeal
import proofs.«403383_j8177617731794_1_alg».proof.Proof.Gen.KernelIdeal.Frame
import proofs.«403383_j8177617731794_1_alg».proof.Proof.Gen.ReferenceIdeal
import proofs.«403383_j8177617731794_1_alg».proof.Proof.Gen.Pre_finite_inputs
import proofs.«403383_j8177617731794_1_alg».proof.Proof.KRun
import proofs.«403383_j8177617731794_1_alg».proof.Proof.KVal
import proofs.«403383_j8177617731794_1_alg».proof.Proof.RefRun
import proofs.«403383_j8177617731794_1_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_r : Cert.frame_ReferenceIdeal := fun m ρ _ =>
  (θ_run Cert.ReferenceIdeal.defs _ _).mono (fun _ h c => (h c).2) (Cert.RefRun.run (F := Ideal) m ρ)

/-- From memories that agree on the arguments both programs end at one function of the arguments: the kernel
    program's staged value, which the reference's staged value equals when the edge indices are node numbers. -/
theorem algebraic : Cert.algebraic_KernelIdeal_ReferenceIdeal := by
  intro m ρ m' ρ' hpre hagree
  refine ⟨fun c => Cert.KStage.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KVal.out_eq m ρ c), (h c).2⟩) (Cert.KernelIdeal.Run.run (F := Ideal) m ρ)
  · refine (θ_run Cert.ReferenceIdeal.defs _ _).mono (fun r h c => ⟨(h c).1.trans ?_, (h c).2⟩)
      (Cert.RefRun.run (F := Ideal) m' ρ')
    obtain ⟨h0, h1, h2, h3, h4, h5, h6, h7, h8, h9, h10, h11, h12, h13, h14, h15⟩ := hagree c
    rw [h0, h1, h2, h3, h4, h5, h6, h7, h8, h9, h10, h11, h12, h13, h14, h15]
    exact (Cert.Bridge.kOut_eq_refOut _ _ _ _ _ _ _ _ _ _ _ _ _ _ _ _ (Cert.Take.src_range m hpre c)
      (Cert.Take.dst_range m hpre c)).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
